-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v112) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x30 : Shape := ⟨2, ![128, 30]⟩
abbrev S30 : Shape := ⟨1, ![30]⟩
abbrev S128x10 : Shape := ⟨2, ![128, 10]⟩
abbrev S10 : Shape := ⟨1, ![10]⟩
abbrev S_ : Shape := ⟨0, ![]⟩
abbrev S1x1600000 : Shape := ⟨2, ![1, 1600000]⟩
abbrev S1600000 : Shape := ⟨1, ![1600000]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x30 : S_.BroadcastsInDim S128x30 (![] : Fin 0 → Fin S128x30.rank)
  reducesTo_S128x30_S_d0_1 : S128x30.ReducesTo [0, 1] S_
  bcast_S_S30 : S_.BroadcastsInDim S30 (![] : Fin 0 → Fin S30.rank)
  reducesTo_S30_S_d0 : S30.ReducesTo [0] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_
  bcast_S_S2x1600000 : S_.BroadcastsInDim S2x1600000 (![] : Fin 0 → Fin S2x1600000.rank)
  reducesTo_S2x1600000_S_d0_1 : S2x1600000.ReducesTo [0, 1] S_
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  slices_S2x1600000_S1x1600000_1_0 : S2x1600000.Slices ![1, 0] S1x1600000
  reducesTo_S1600000_S_d0 : S1600000.ReducesTo [0] S_

variable [Facts]

def fn_part3 {F : FTy → Type} [FloatOps F] (main_arg1 : IVec S2x1600000 32) (main_v50 : IVec S_ 1) : IVec S_ 1 :=
  let main_v51 : IVec S1x1600000 32 := (extractStridedSlice S1x1600000 ![0, 0] · slices_S2x1600000_S1x1600000_0_0) main_arg1
  let main_v52 : IVec S1600000 32 := shapeCast S1600000 main_v51 shapeCasts_S1x1600000_S1600000
  let main_c_19 : IVec S_ 32 := constantI S_ 32 2000#32
  let main_v53 : IVec S1600000 32 := broadcastInDim S1600000 ![] bcast_S_S1600000 main_c_19
  let main_v54 : IVec S1600000 32 := Host.divsi main_v52 main_v53
  let main_v55 : IVec S1x1600000 32 := (extractStridedSlice S1x1600000 ![1, 0] · slices_S2x1600000_S1x1600000_1_0) main_arg1
  let main_v56 : IVec S1600000 32 := shapeCast S1600000 main_v55 shapeCasts_S1x1600000_S1600000
  let main_c_20 : IVec S_ 32 := constantI S_ 32 2000#32
  let main_v57 : IVec S1600000 32 := broadcastInDim S1600000 ![] bcast_S_S1600000 main_c_20
  let main_v58 : IVec S1600000 32 := Host.divsi main_v56 main_v57
  let main_v59 : IVec S1600000 1 := cmpi .eq main_v54 main_v58
  let main_c_21 : IVec S_ 1 := constantI S_ 1 1#1
  let main_v60 : IVec S_ 1 := (fun x v => Host.reduce IntOp.andi x v reducesTo_S1600000_S_d0 h_S_) main_v59 main_c_21
  let main_v61 : IVec S_ 1 := andi main_v50 main_v60
  main_v61

def fn_part2 {F : FTy → Type} [FloatOps F] (main_arg1 : IVec S2x1600000 32) (main_arg9 : FVec F S128x10 .f32) (main_arg10 : FVec F S10 .f32) (main_v33 : IVec S_ 1) : IVec S_ 1 :=
  let main_v34 : FVec F S128x10 .f32 := Host.absf main_arg9
  let main_cst_12 : FVec F S_ .f32 := constant S_ .f32 0x7F800000#32
  let main_v35 : FVec F S128x10 .f32 := broadcastInDim S128x10 ![] bcast_S_S128x10 main_cst_12
  let main_v36 : IVec S128x10 1 := cmpf .olt main_v34 main_v35
  let main_c_13 : IVec S_ 1 := constantI S_ 1 1#1
  let main_v37 : IVec S_ 1 := (fun x v => Host.reduce IntOp.andi x v reducesTo_S128x10_S_d0_1 h_S_) main_v36 main_c_13
  let main_v38 : IVec S_ 1 := andi main_v33 main_v37
  let main_v39 : FVec F S10 .f32 := Host.absf main_arg10
  let main_cst_14 : FVec F S_ .f32 := constant S_ .f32 0x7F800000#32
  let main_v40 : FVec F S10 .f32 := broadcastInDim S10 ![] bcast_S_S10 main_cst_14
  let main_v41 : IVec S10 1 := cmpf .olt main_v39 main_v40
  let main_c_15 : IVec S_ 1 := constantI S_ 1 1#1
  let main_v42 : IVec S_ 1 := (fun x v => Host.reduce IntOp.andi x v reducesTo_S10_S_d0 h_S_) main_v41 main_c_15
  let main_v43 : IVec S_ 1 := andi main_v38 main_v42
  let main_c_16 : IVec S_ 32 := constantI S_ 32 0#32
  let main_v44 : IVec S2x1600000 32 := broadcastInDim S2x1600000 ![] bcast_S_S2x1600000 main_c_16
  let main_v45 : IVec S2x1600000 1 := cmpi .sge main_arg1 main_v44
  let main_c_17 : IVec S_ 32 := constantI S_ 32 100000#32
  let main_v46 : IVec S2x1600000 32 := broadcastInDim S2x1600000 ![] bcast_S_S2x1600000 main_c_17
  let main_v47 : IVec S2x1600000 1 := cmpi .slt main_arg1 main_v46
  let main_v48 : IVec S2x1600000 1 := andi main_v45 main_v47
  let main_c_18 : IVec S_ 1 := constantI S_ 1 1#1
  let main_v49 : IVec S_ 1 := (fun x v => Host.reduce IntOp.andi x v reducesTo_S2x1600000_S_d0_1 h_S_) main_v48 main_c_18
  let main_v50 : IVec S_ 1 := andi main_v43 main_v49
  fn_part3 (F := F) main_arg1 main_v50

def fn_part1 {F : FTy → Type} [FloatOps F] (main_arg1 : IVec S2x1600000 32) (main_arg6 : FVec F S128 .f32) (main_arg7 : FVec F S128x30 .f32) (main_arg8 : FVec F S30 .f32) (main_arg9 : FVec F S128x10 .f32) (main_arg10 : FVec F S10 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x30 .f32 := Host.absf main_arg7
  let main_cst_8 : FVec F S_ .f32 := constant S_ .f32 0x7F800000#32
  let main_v25 : FVec F S128x30 .f32 := broadcastInDim S128x30 ![] bcast_S_S128x30 main_cst_8
  let main_v26 : IVec S128x30 1 := cmpf .olt main_v24 main_v25
  let main_c_9 : IVec S_ 1 := constantI S_ 1 1#1
  let main_v27 : IVec S_ 1 := (fun x v => Host.reduce IntOp.andi x v reducesTo_S128x30_S_d0_1 h_S_) main_v26 main_c_9
  let main_v28 : IVec S_ 1 := andi main_v23 main_v27
  let main_v29 : FVec F S30 .f32 := Host.absf main_arg8
  let main_cst_10 : FVec F S_ .f32 := constant S_ .f32 0x7F800000#32
  let main_v30 : FVec F S30 .f32 := broadcastInDim S30 ![] bcast_S_S30 main_cst_10
  let main_v31 : IVec S30 1 := cmpf .olt main_v29 main_v30
  let main_c_11 : IVec S_ 1 := constantI S_ 1 1#1
  let main_v32 : IVec S_ 1 := (fun x v => Host.reduce IntOp.andi x v reducesTo_S30_S_d0 h_S_) main_v31 main_c_11
  let main_v33 : IVec S_ 1 := andi main_v28 main_v32
  fn_part2 (F := F) main_arg1 main_arg9 main_arg10 main_v33

def fn {F : FTy → Type} [FloatOps F] (main_arg0 : FVec F S100000x128 .f32) (main_arg1 : IVec S2x1600000 32) (main_arg2 : IVec S100000 32) (main_arg3 : FVec F S128x128 .f32) (main_arg4 : FVec F S128 .f32) (main_arg5 : FVec F S128x128 .f32) (main_arg6 : FVec F S128 .f32) (main_arg7 : FVec F S128x30 .f32) (main_arg8 : FVec F S30 .f32) (main_arg9 : FVec F S128x10 .f32) (main_arg10 : FVec F S10 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg1 main_arg6 main_arg7 main_arg8 main_arg9 main_arg10 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x30 : Shape := ⟨2, ![128, 30]⟩
abbrev S30 : Shape := ⟨1, ![30]⟩
abbrev S128x10 : Shape := ⟨2, ![128, 10]⟩
abbrev S10 : Shape := ⟨1, ![10]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x1 : Shape := ⟨2, ![100000, 1]⟩
abbrev S200000000 : Shape := ⟨1, ![200000000]⟩
abbrev S100000x2000 : Shape := ⟨2, ![100000, 2000]⟩
abbrev S1x128 : Shape := ⟨2, ![1, 128]⟩
abbrev S1x30 : Shape := ⟨2, ![1, 30]⟩
abbrev S50x8x128 : Shape := ⟨3, ![50, 8, 128]⟩
abbrev S2000x2000 : Shape := ⟨2, ![2000, 2000]⟩
abbrev S2000x128 : Shape := ⟨2, ![2000, 128]⟩
abbrev S2000x1 : Shape := ⟨2, ![2000, 1]⟩
abbrev S1x8x128 : Shape := ⟨3, ![1, 8, 128]⟩
abbrev S2000x30 : Shape := ⟨2, ![2000, 30]⟩
abbrev S2000 : Shape := ⟨1, ![2000]⟩
abbrev S30x128 : Shape := ⟨2, ![30, 128]⟩
abbrev S7x128 : Shape := ⟨2, ![7, 128]⟩
abbrev S8x128 : Shape := ⟨2, ![8, 128]⟩
abbrev S50x1x10 : Shape := ⟨3, ![50, 1, 10]⟩
abbrev S50x10 : Shape := ⟨2, ![50, 10]⟩

abbrev nBuf : Space → Nat
  | .hbm => 98
  | .vmem => 16
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x30, .f32⟩
  | .hbm, ⟨8, _⟩ => ⟨S30, .f32⟩
  | .hbm, ⟨9, _⟩ => ⟨S128x10, .f32⟩
  | .hbm, ⟨10, _⟩ => ⟨S10, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .f32⟩
  | .hbm, ⟨16, _⟩ => ⟨S1600000, .f32⟩
  | .hbm, ⟨17, _⟩ => ⟨S_, .f32⟩
  | .hbm, ⟨18, _⟩ => ⟨S100000, .f32⟩
  | .hbm, ⟨19, _⟩ => ⟨S1600000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000, .f32⟩
  | .hbm, ⟨34, _⟩ => ⟨S_, .i32⟩
  | .hbm, ⟨35, _⟩ => ⟨S1600000, .i32⟩
  | .hbm, ⟨36, _⟩ => ⟨S1600000, .i1⟩
  | .hbm, ⟨37, _⟩ => ⟨S_, .i32⟩
  | .hbm, ⟨38, _⟩ => ⟨S1600000, .i32⟩
  | .hbm, ⟨39, _⟩ => ⟨S1600000, .i32⟩
  | .hbm, ⟨40, _⟩ => ⟨S1600000, .i32⟩
  | .hbm, ⟨41, _⟩ => ⟨S1600000x1, .i32⟩
  | .hbm, ⟨42, _⟩ => ⟨S1600000, .f32⟩
  | .hbm, ⟨43, _⟩ => ⟨S1600000, .f32⟩
  | .hbm, ⟨44, _⟩ => ⟨S100000, .f32⟩
  | .hbm, ⟨45, _⟩ => ⟨S100000x1, .f32⟩
  | .hbm, ⟨46, _⟩ => ⟨S_, .i32⟩
  | .hbm, ⟨47, _⟩ => ⟨S_, .i32⟩
  | .hbm, ⟨48, _⟩ => ⟨S_, .i32⟩
  | .hbm, ⟨49, _⟩ => ⟨S_, .i1⟩
  | .hbm, ⟨50, _⟩ => ⟨S_, .i32⟩
  | .hbm, ⟨51, _⟩ => ⟨S_, .i32⟩
  | .hbm, ⟨52, _⟩ => ⟨S1600000, .i32⟩
  | .hbm, ⟨53, _⟩ => ⟨S1600000, .i32⟩
  | .hbm, ⟨54, _⟩ => ⟨S_, .i32⟩
  | .hbm, ⟨55, _⟩ => ⟨S1600000, .i32⟩
  | .hbm, ⟨56, _⟩ => ⟨S1600000, .i1⟩
  | .hbm, ⟨57, _⟩ => ⟨S_, .i32⟩
  | .hbm, ⟨58, _⟩ => ⟨S1600000, .i32⟩
  | .hbm, ⟨59, _⟩ => ⟨S1600000, .i1⟩
  | .hbm, ⟨60, _⟩ => ⟨S_, .i32⟩
  | .hbm, ⟨61, _⟩ => ⟨S_, .i1⟩
  | .hbm, ⟨62, _⟩ => ⟨S1600000, .i1⟩
  | .hbm, ⟨63, _⟩ => ⟨S1600000, .i1⟩
  | .hbm, ⟨64, _⟩ => ⟨S1600000, .i1⟩
  | .hbm, ⟨65, _⟩ => ⟨S1600000, .i32⟩
  | .hbm, ⟨66, _⟩ => ⟨S1600000, .i32⟩
  | .hbm, ⟨67, _⟩ => ⟨S1600000, .i32⟩
  | .hbm, ⟨68, _⟩ => ⟨S_, .i32⟩
  | .hbm, ⟨69, _⟩ => ⟨S1600000, .i32⟩
  | .hbm, ⟨70, _⟩ => ⟨S1600000, .i32⟩
  | .hbm, ⟨71, _⟩ => ⟨S1600000, .i32⟩
  | .hbm, ⟨72, _⟩ => ⟨S_, .f32⟩
  | .hbm, ⟨73, _⟩ => ⟨S200000000, .f32⟩
  | .hbm, ⟨74, _⟩ => ⟨S_, .i32⟩
  | .hbm, ⟨75, _⟩ => ⟨S1600000, .i32⟩
  | .hbm, ⟨76, _⟩ => ⟨S1600000, .i1⟩
  | .hbm, ⟨77, _⟩ => ⟨S_, .i32⟩
  | .hbm, ⟨78, _⟩ => ⟨S1600000, .i32⟩
  | .hbm, ⟨79, _⟩ => ⟨S1600000, .i32⟩
  | .hbm, ⟨80, _⟩ => ⟨S1600000, .i32⟩
  | .hbm, ⟨81, _⟩ => ⟨S1600000x1, .i32⟩
  | .hbm, ⟨82, _⟩ => ⟨S200000000, .f32⟩
  | .hbm, ⟨83, _⟩ => ⟨S100000x2000, .f32⟩
  | .hbm, ⟨84, _⟩ => ⟨S100000x2000, .bf16⟩
  | .hbm, ⟨85, _⟩ => ⟨S_, .i32⟩
  | .hbm, ⟨86, _⟩ => ⟨S_, .f32⟩
  | .hbm, ⟨87, _⟩ => ⟨S128x128, .f32⟩
  | .hbm, ⟨88, _⟩ => ⟨S_, .i32⟩
  | .hbm, ⟨89, _⟩ => ⟨S_, .f32⟩
  | .hbm, ⟨90, _⟩ => ⟨S128, .f32⟩
  | .hbm, ⟨91, _⟩ => ⟨S1x128, .f32⟩
  | .hbm, ⟨92, _⟩ => ⟨S1x128, .f32⟩
  | .hbm, ⟨93, _⟩ => ⟨S1x128, .f32⟩
  | .hbm, ⟨94, _⟩ => ⟨S1x30, .f32⟩
  | .hbm, ⟨95, _⟩ => ⟨S50x8x128, .f32⟩
  | .hbm, ⟨96, _⟩ => ⟨S50x1x10, .f32⟩
  | .hbm, ⟨97, _⟩ => ⟨S50x10, .f32⟩
  | .local _ .vmem, ⟨0, _⟩ => ⟨S2000x2000, .bf16⟩
  | .local _ .vmem, ⟨1, _⟩ => ⟨S2000x2000, .bf16⟩
  | .local _ .vmem, ⟨2, _⟩ => ⟨S2000x128, .f32⟩
  | .local _ .vmem, ⟨3, _⟩ => ⟨S2000x128, .f32⟩
  | .local _ .vmem, ⟨4, _⟩ => ⟨S2000x1, .f32⟩
  | .local _ .vmem, ⟨5, _⟩ => ⟨S2000x1, .f32⟩
  | .local _ .vmem, ⟨6, _⟩ => ⟨S128x128, .f32⟩
  | .local _ .vmem, ⟨7, _⟩ => ⟨S1x128, .f32⟩
  | .local _ .vmem, ⟨8, _⟩ => ⟨S128x128, .f32⟩
  | .local _ .vmem, ⟨9, _⟩ => ⟨S1x128, .f32⟩
  | .local _ .vmem, ⟨10, _⟩ => ⟨S128x30, .f32⟩
  | .local _ .vmem, ⟨11, _⟩ => ⟨S1x30, .f32⟩
  | .local _ .vmem, ⟨12, _⟩ => ⟨S128x128, .f32⟩
  | .local _ .vmem, ⟨13, _⟩ => ⟨S1x128, .f32⟩
  | .local _ .vmem, ⟨14, _⟩ => ⟨S1x8x128, .f32⟩
  | .local _ .vmem, ⟨15, _⟩ => ⟨S1x8x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c : Ref sig .tc := ⟨.hbm, 25, rfl⟩
abbrev main_v11 : Ref sig .tc := ⟨.hbm, 26, rfl⟩
abbrev main_v12 : Ref sig .tc := ⟨.hbm, 27, rfl⟩
abbrev main_c_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_c_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_c_5 : Ref sig .tc := ⟨.hbm, 46, rfl⟩
abbrev main_call0_v0 : Ref sig .tc := ⟨.hbm, 47, rfl⟩
abbrev main_call0_c : Ref sig .tc := ⟨.hbm, 48, rfl⟩
abbrev main_call0_v1 : Ref sig .tc := ⟨.hbm, 49, rfl⟩
abbrev main_call0_c_0 : Ref sig .tc := ⟨.hbm, 50, rfl⟩
abbrev main_call0_v2 : Ref sig .tc := ⟨.hbm, 51, rfl⟩
abbrev main_call0_v3 : Ref sig .tc := ⟨.hbm, 52, rfl⟩
abbrev main_call0_v4 : Ref sig .tc := ⟨.hbm, 53, rfl⟩
abbrev main_call0_c_1 : Ref sig .tc := ⟨.hbm, 54, rfl⟩
abbrev main_call0_v5 : Ref sig .tc := ⟨.hbm, 55, rfl⟩
abbrev main_call0_v6 : Ref sig .tc := ⟨.hbm, 56, rfl⟩
abbrev main_call0_c_2 : Ref sig .tc := ⟨.hbm, 57, rfl⟩
abbrev main_call0_v7 : Ref sig .tc := ⟨.hbm, 58, rfl⟩
abbrev main_call0_v8 : Ref sig .tc := ⟨.hbm, 59, rfl⟩
abbrev main_call0_c_3 : Ref sig .tc := ⟨.hbm, 60, rfl⟩
abbrev main_call0_v9 : Ref sig .tc := ⟨.hbm, 61, rfl⟩
abbrev main_call0_v10 : Ref sig .tc := ⟨.hbm, 62, rfl⟩
abbrev main_call0_v11 : Ref sig .tc := ⟨.hbm, 63, rfl⟩
abbrev main_call0_v12 : Ref sig .tc := ⟨.hbm, 64, rfl⟩
abbrev main_call0_v13 : Ref sig .tc := ⟨.hbm, 65, rfl⟩
abbrev main_call0_v14 : Ref sig .tc := ⟨.hbm, 66, rfl⟩
abbrev main_v28 : Ref sig .tc := ⟨.hbm, 67, rfl⟩
abbrev main_c_6 : Ref sig .tc := ⟨.hbm, 68, rfl⟩
abbrev main_v29 : Ref sig .tc := ⟨.hbm, 69, rfl⟩
abbrev main_v30 : Ref sig .tc := ⟨.hbm, 70, rfl⟩
abbrev main_v31 : Ref sig .tc := ⟨.hbm, 71, rfl⟩
abbrev main_cst_7 : Ref sig .tc := ⟨.hbm, 72, rfl⟩
abbrev main_v32 : Ref sig .tc := ⟨.hbm, 73, rfl⟩
abbrev main_c_8 : Ref sig .tc := ⟨.hbm, 74, rfl⟩
abbrev main_v33 : Ref sig .tc := ⟨.hbm, 75, rfl⟩
abbrev main_v34 : Ref sig .tc := ⟨.hbm, 76, rfl⟩
abbrev main_c_9 : Ref sig .tc := ⟨.hbm, 77, rfl⟩
abbrev main_v35 : Ref sig .tc := ⟨.hbm, 78, rfl⟩
abbrev main_v36 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_c_10 : Ref sig .tc := ⟨.hbm, 85, rfl⟩
abbrev main_call1_v0 : Ref sig .tc := ⟨.hbm, 86, rfl⟩
abbrev main_v42 : Ref sig .tc := ⟨.hbm, 87, rfl⟩
abbrev main_c_11 : Ref sig .tc := ⟨.hbm, 88, rfl⟩
abbrev main_call2_v0 : Ref sig .tc := ⟨.hbm, 89, rfl⟩
abbrev main_v43 : Ref sig .tc := ⟨.hbm, 90, rfl⟩
abbrev main_v44 : Ref sig .tc := ⟨.hbm, 91, rfl⟩
abbrev main_v45 : Ref sig .tc := ⟨.hbm, 92, rfl⟩
abbrev main_v46 : Ref sig .tc := ⟨.hbm, 93, rfl⟩
abbrev main_v47 : Ref sig .tc := ⟨.hbm, 94, rfl⟩
abbrev main_v48 : Ref sig .tc := ⟨.hbm, 95, rfl⟩
abbrev main_v49 : Ref sig .tc := ⟨.hbm, 96, rfl⟩
abbrev main_v50 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2000x2000 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x30 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x30 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1x8x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S200000000 : S_.BroadcastsInDim S200000000 (![] : Fin 0 → Fin S200000000.rank)
  shapeCasts_S200000000_S100000x2000 : S200000000.ShapeCasts S100000x2000
  bitsLt_bf16_f32 : FTy.bits .bf16 < FTy.bits .f32
  pads_S128x10_S128x128_000_01180 : S128x10.Pads (![0, 0] : Fin 2 → Nat) ![0, 118] ![0, 0] S128x128
  h_S_ : 0 < S_.numel
  pads_S10_S128_01180 : S10.Pads (![0] : Fin 1 → Nat) ![118] ![0] S128
  shapeCasts_S128_S1x128 : S128.ShapeCasts S1x128
  shapeCasts_S30_S1x30 : S30.ShapeCasts S1x30
  inb_S2000x2000_S2000x2000_0_0 : ∀ a, (![0, 0] : Fin 2 → Nat) a + S2000x2000.size a ≤ S2000x2000.size a
  h_S2000x2000 : 0 < S2000x2000.numel
  shapeCasts_S2000x2000_S2000x2000 : S2000x2000.ShapeCasts S2000x2000
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  inb_S2000x128_S2000x128_0_0 : ∀ a, (![0, 0] : Fin 2 → Nat) a + S2000x128.size a ≤ S2000x128.size a
  h_S2000x128 : 0 < S2000x128.numel
  inb_S128x128_S128x128_0_0 : ∀ a, (![0, 0] : Fin 2 → Nat) a + S128x128.size a ≤ S128x128.size a
  h_S128x128 : 0 < S128x128.numel
  broadcasts_S2000x1_S2000x128 : S2000x1.Broadcasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x30_S128x30_0_0 : ∀ a, (![0, 0] : Fin 2 → Nat) a + S128x30.size a ≤ S128x30.size a
  h_S128x30 : 0 < S128x30.numel
  broadcasts_S2000x1_S2000x30 : S2000x1.Broadcasts S2000x30
  inb_S1x30_S1x30_0_0 : ∀ a, (![0, 0] : Fin 2 → Nat) a + S1x30.size a ≤ S1x30.size a
  h_S1x30 : 0 < S1x30.numel
  shapeCasts_S1x30_S1x30 : S1x30.ShapeCasts S1x30
  broadcasts_S1x30_S2000x30 : S1x30.Broadcasts S2000x30
  reduces_S2000x30_S2000 : S2000x30.Reduces [1] S2000
  shapeCasts_S2000_S2000x1 : S2000.ShapeCasts S2000x1
  reduces_S30x128_S128 : S30x128.Reduces [0] S128
  shapeCasts_S128x128_S128x128 : S128x128.ShapeCasts S128x128
  concatenates_S1x128_S7x128_S8x128_d0 : Shape.Concatenates [S1x128, S7x128] S8x128 0
  shapeCasts_S8x128_S1x8x128 : S8x128.ShapeCasts S1x8x128
  inb_S1x8x128_S1x8x128_0_0_0 : ∀ a, (![0, 0, 0] : Fin 3 → Nat) a + S1x8x128.size a ≤ S1x8x128.size a
  h_S1x8x128 : 0 < S1x8x128.numel
  slices_S50x8x128_S50x1x10_0_0_0 : S50x8x128.Slices ![0, 0, 0] S50x1x10
  shapeCasts_S50x1x10_S50x10 : S50x1x10.ShapeCasts S50x10
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  scatter_S200000000_S1600000x1_S1600000_n_0_0_1_wf : ScatterDims.WF S200000000 S1600000x1 S1600000 [] [0] [0] 1
  dot_S2000x128_S128x128_S2000x128_1_0_0_1_n_n_wf : DotDims.WF S2000x128 S128x128 S2000x128 [1] [0] [0] [1] [] []
  dot_S2000x2000_S2000x128_S2000x128_1_0_0_1_n_n_wf : DotDims.WF S2000x2000 S2000x128 S2000x128 [1] [0] [0] [1] [] []
  dot_S2000x128_S128x30_S2000x30_1_0_0_1_n_n_wf : DotDims.WF S2000x128 S128x30 S2000x30 [1] [0] [0] [1] [] []
  dot_S2000x2000_S2000x30_S2000x30_1_0_0_1_n_n_wf : DotDims.WF S2000x2000 S2000x30 S2000x30 [1] [0] [0] [1] [] []
  dot_S2000x30_S2000x128_S30x128_0_0_1_1_n_n_wf : DotDims.WF S2000x30 S2000x128 S30x128 [0] [0] [1] [1] [] []
  dot_S1x128_S128x128_S1x128_1_0_0_1_n_n_wf : DotDims.WF S1x128 S128x128 S1x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x2000.size a ≤ S100000x2000.size a
  hwx0_0 : ∀ i : grid0.Coords, EltTy.bits .bf16 = 32 ∨ (Rect.block (s := S100000x2000) S2000x2000.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S100000x1.size a
  hwx0_2 : ∀ i : grid0.Coords, EltTy.bits .f32 = 32 ∨ (Rect.block (s := S100000x1) S2000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x30.size a ≤ S128x30.size a
  hwx0_7 : ∀ i : grid0.Coords, EltTy.bits .f32 = 32 ∨ (Rect.block (s := S128x30) S128x30.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x30.size a ≤ S1x30.size a
  hwx0_8 : ∀ i : grid0.Coords, EltTy.bits .f32 = 32 ∨ (Rect.block (s := S1x30) S1x30.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x128.size a ≤ S128x128.size a
  hwx0_9 : ∀ i : grid0.Coords, EltTy.bits .f32 = 32 ∨ (Rect.block (s := S128x128) S128x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x8x128.size a ≤ S50x8x128.size a
  hwx0_11 : ∀ i : grid0.Coords, EltTy.bits .f32 = 32 ∨ (Rect.block (s := S50x8x128) S1x8x128.size (cc0_transform_11 i) (hinb0_11 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def scatter_S200000000_S1600000x1_S1600000_n_0_0_1 : ScatterDims S200000000 S1600000x1 S1600000 where
  updateWindowDims := []
  insertedWindowDims := [0]
  scatterDimsToOperandDims := [0]
  indexVectorDim := 1
  wf := scatter_S200000000_S1600000x1_S1600000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x2000_S2000x128_S2000x128_1_0_0_1_n_n : DotDims S2000x2000 S2000x128 S2000x128 where
  lhsContracting := [1]
  rhsContracting := [0]
  lhsNonContracting := [0]
  rhsNonContracting := [1]
  lhsBatch := []
  rhsBatch := []
  wf := dot_S2000x2000_S2000x128_S2000x128_1_0_0_1_n_n_wf
def dot_S2000x128_S128x30_S2000x30_1_0_0_1_n_n : DotDims S2000x128 S128x30 S2000x30 where
  lhsContracting := [1]
  rhsContracting := [0]
  lhsNonContracting := [0]
  rhsNonContracting := [1]
  lhsBatch := []
  rhsBatch := []
  wf := dot_S2000x128_S128x30_S2000x30_1_0_0_1_n_n_wf
def dot_S2000x2000_S2000x30_S2000x30_1_0_0_1_n_n : DotDims S2000x2000 S2000x30 S2000x30 where
  lhsContracting := [1]
  rhsContracting := [0]
  lhsNonContracting := [0]
  rhsNonContracting := [1]
  lhsBatch := []
  rhsBatch := []
  wf := dot_S2000x2000_S2000x30_S2000x30_1_0_0_1_n_n_wf
def dot_S2000x30_S2000x128_S30x128_0_0_1_1_n_n : DotDims S2000x30 S2000x128 S30x128 where
  lhsContracting := [0]
  rhsContracting := [0]
  lhsNonContracting := [1]
  rhsNonContracting := [1]
  lhsBatch := []
  rhsBatch := []
  wf := dot_S2000x30_S2000x128_S30x128_0_0_1_1_n_n_wf
def dot_S1x128_S128x128_S1x128_1_0_0_1_n_n : DotDims S1x128 S128x128 S1x128 where
  lhsContracting := [1]
  rhsContracting := [0]
  lhsNonContracting := [0]
  rhsNonContracting := [1]
  lhsBatch := []
  rhsBatch := []
  wf := dot_S1x128_S128x128_S1x128_1_0_0_1_n_n_wf

abbrev win0_0 : Pipeline.Window sig grid0 :=
  Pipeline.Window.ofSpec (Memref.whole main_v41) S2000x2000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v27) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v45) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v46) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S128x30.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v47) S1x30.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v42) S128x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v44) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v48) S1x8x128.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x30 : Shape := ⟨2, ![128, 30]⟩
abbrev S30 : Shape := ⟨1, ![30]⟩
abbrev S128x10 : Shape := ⟨2, ![128, 10]⟩
abbrev S10 : Shape := ⟨1, ![10]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S100000x30 : Shape := ⟨2, ![100000, 30]⟩
abbrev S1600000x30 : Shape := ⟨2, ![1600000, 30]⟩
abbrev S1x30 : Shape := ⟨2, ![1, 30]⟩
abbrev S50x2000x128 : Shape := ⟨3, ![50, 2000, 128]⟩
abbrev S50x2000x30 : Shape := ⟨3, ![50, 2000, 30]⟩
abbrev S50x2000 : Shape := ⟨2, ![50, 2000]⟩
abbrev S50x2000x1 : Shape := ⟨3, ![50, 2000, 1]⟩
abbrev S50x30x128 : Shape := ⟨3, ![50, 30, 128]⟩
abbrev S50x128 : Shape := ⟨2, ![50, 128]⟩
abbrev S50x10 : Shape := ⟨2, ![50, 10]⟩
abbrev S1x10 : Shape := ⟨2, ![1, 10]⟩

abbrev nBuf : Space → Nat
  | .hbm => 150
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x128, .f32⟩
  | 4 => ⟨S128, .f32⟩
  | 5 => ⟨S128x128, .f32⟩
  | 6 => ⟨S128, .f32⟩
  | 7 => ⟨S128x30, .f32⟩
  | 8 => ⟨S30, .f32⟩
  | 9 => ⟨S128x10, .f32⟩
  | 10 => ⟨S10, .f32⟩
  | 11 => ⟨S1x1600000, .i32⟩
  | 12 => ⟨S1600000, .i32⟩
  | 13 => ⟨S1x1600000, .i32⟩
  | 14 => ⟨S1600000, .i32⟩
  | 15 => ⟨S_, .f32⟩
  | 16 => ⟨S1600000, .f32⟩
  | 17 => ⟨S_, .f32⟩
  | 18 => ⟨S100000, .f32⟩
  | 19 => ⟨S1600000x1, .i32⟩
  | 20 => ⟨S100000, .f32⟩
  | 21 => ⟨S_, .f32⟩
  | 22 => ⟨S100000, .f32⟩
  | 23 => ⟨S100000, .f32⟩
  | 24 => ⟨S100000, .f32⟩
  | 25 => ⟨S_, .i32⟩
  | 26 => ⟨S1600000, .i32⟩
  | 27 => ⟨S1600000, .i1⟩
  | 28 => ⟨S_, .i32⟩
  | 29 => ⟨S1600000, .i32⟩
  | 30 => ⟨S1600000, .i32⟩
  | 31 => ⟨S1600000, .i32⟩
  | 32 => ⟨S1600000x1, .i32⟩
  | 33 => ⟨S1600000, .f32⟩
  | 34 => ⟨S_, .i32⟩
  | 35 => ⟨S1600000, .i32⟩
  | 36 => ⟨S1600000, .i1⟩
  | 37 => ⟨S_, .i32⟩
  | 38 => ⟨S1600000, .i32⟩
  | 39 => ⟨S1600000, .i32⟩
  | 40 => ⟨S1600000, .i32⟩
  | 41 => ⟨S1600000x1, .i32⟩
  | 42 => ⟨S1600000, .f32⟩
  | 43 => ⟨S1600000, .f32⟩
  | 44 => ⟨S100000, .f32⟩
  | 45 => ⟨S100000x1, .f32⟩
  | 46 => ⟨S100000x128, .f32⟩
  | 47 => ⟨S_, .i32⟩
  | 48 => ⟨S1600000, .i32⟩
  | 49 => ⟨S1600000, .i1⟩
  | 50 => ⟨S_, .i32⟩
  | 51 => ⟨S1600000, .i32⟩
  | 52 => ⟨S1600000, .i32⟩
  | 53 => ⟨S1600000, .i32⟩
  | 54 => ⟨S1600000x1, .i32⟩
  | 55 => ⟨S1600000x128, .f32⟩
  | 56 => ⟨S1600000x1, .f32⟩
  | 57 => ⟨S1600000x128, .f32⟩
  | 58 => ⟨S1600000x128, .f32⟩
  | 59 => ⟨S_, .f32⟩
  | 60 => ⟨S100000x128, .f32⟩
  | 61 => ⟨S1600000x1, .i32⟩
  | 62 => ⟨S100000x128, .f32⟩
  | 63 => ⟨S100000x128, .f32⟩
  | 64 => ⟨S100000x128, .f32⟩
  | 65 => ⟨S100000x128, .f32⟩
  | 66 => ⟨S1x128, .f32⟩
  | 67 => ⟨S100000x128, .f32⟩
  | 68 => ⟨S100000x128, .f32⟩
  | 69 => ⟨S_, .f32⟩
  | 70 => ⟨S100000x128, .f32⟩
  | 71 => ⟨S100000x128, .f32⟩
  | 72 => ⟨S100000x128, .f32⟩
  | 73 => ⟨S_, .i32⟩
  | 74 => ⟨S1600000, .i32⟩
  | 75 => ⟨S1600000, .i1⟩
  | 76 => ⟨S_, .i32⟩
  | 77 => ⟨S1600000, .i32⟩
  | 78 => ⟨S1600000, .i32⟩
  | 79 => ⟨S1600000, .i32⟩
  | 80 => ⟨S1600000x1, .i32⟩
  | 81 => ⟨S1600000x128, .f32⟩
  | 82 => ⟨S1600000x1, .f32⟩
  | 83 => ⟨S1600000x128, .f32⟩
  | 84 => ⟨S1600000x128, .f32⟩
  | 85 => ⟨S_, .f32⟩
  | 86 => ⟨S100000x128, .f32⟩
  | 87 => ⟨S1600000x1, .i32⟩
  | 88 => ⟨S100000x128, .f32⟩
  | 89 => ⟨S100000x128, .f32⟩
  | 90 => ⟨S100000x128, .f32⟩
  | 91 => ⟨S100000x128, .f32⟩
  | 92 => ⟨S1x128, .f32⟩
  | 93 => ⟨S100000x128, .f32⟩
  | 94 => ⟨S100000x128, .f32⟩
  | 95 => ⟨S_, .f32⟩
  | 96 => ⟨S100000x128, .f32⟩
  | 97 => ⟨S100000x128, .f32⟩
  | 98 => ⟨S100000x30, .f32⟩
  | 99 => ⟨S_, .i32⟩
  | 100 => ⟨S1600000, .i32⟩
  | 101 => ⟨S1600000, .i1⟩
  | 102 => ⟨S_, .i32⟩
  | 103 => ⟨S1600000, .i32⟩
  | 104 => ⟨S1600000, .i32⟩
  | 105 => ⟨S1600000, .i32⟩
  | 106 => ⟨S1600000x1, .i32⟩
  | 107 => ⟨S1600000x30, .f32⟩
  | 108 => ⟨S1600000x1, .f32⟩
  | 109 => ⟨S1600000x30, .f32⟩
  | 110 => ⟨S1600000x30, .f32⟩
  | 111 => ⟨S_, .f32⟩
  | 112 => ⟨S100000x30, .f32⟩
  | 113 => ⟨S1600000x1, .i32⟩
  | 114 => ⟨S100000x30, .f32⟩
  | 115 => ⟨S100000x30, .f32⟩
  | 116 => ⟨S100000x30, .f32⟩
  | 117 => ⟨S100000x30, .f32⟩
  | 118 => ⟨S1x30, .f32⟩
  | 119 => ⟨S100000x30, .f32⟩
  | 120 => ⟨S100000x30, .f32⟩
  | 121 => ⟨S50x2000x128, .f32⟩
  | 122 => ⟨S50x2000x30, .f32⟩
  | 123 => ⟨S_, .f32⟩
  | 124 => ⟨S50x2000x30, .f32⟩
  | 125 => ⟨S50x2000x30, .f32⟩
  | 126 => ⟨S_, .f32⟩
  | 127 => ⟨S50x2000, .f32⟩
  | _ => ⟨S100000x128, .f32⟩

abbrev hbmTy0_1 (i : Nat) : BufTy := match i % 128 with
  | 0 => ⟨S_, .f32⟩
  | 1 => ⟨S50x2000, .f32⟩
  | 2 => ⟨S50x2000, .f32⟩
  | 3 => ⟨S50x2000x1, .f32⟩
  | 4 => ⟨S50x2000x30, .f32⟩
  | 5 => ⟨S50x2000x30, .f32⟩
  | 6 => ⟨S50x2000x30, .f32⟩
  | 7 => ⟨S_, .f32⟩
  | 8 => ⟨S50x2000, .f32⟩
  | 9 => ⟨S50x2000x1, .f32⟩
  | 10 => ⟨S50x2000x30, .f32⟩
  | 11 => ⟨S50x2000x30, .f32⟩
  | 12 => ⟨S50x30x128, .f32⟩
  | 13 => ⟨S_, .f32⟩
  | 14 => ⟨S50x128, .f32⟩
  | 15 => ⟨S_, .f32⟩
  | 16 => ⟨S50x128, .f32⟩
  | 17 => ⟨S50x128, .f32⟩
  | 18 => ⟨S50x10, .f32⟩
  | 19 => ⟨S1x10, .f32⟩
  | 20 => ⟨S50x10, .f32⟩
  | 21 => ⟨S50x10, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c : Ref sig .tc := ⟨.hbm, 25, rfl⟩
abbrev main_v11 : Ref sig .tc := ⟨.hbm, 26, rfl⟩
abbrev main_v12 : Ref sig .tc := ⟨.hbm, 27, rfl⟩
abbrev main_c_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_c_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_c_5 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_7 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_call0_cst : Ref sig .tc := ⟨.hbm, 69, rfl⟩
abbrev main_call0_v0 : Ref sig .tc := ⟨.hbm, 70, rfl⟩
abbrev main_v48 : Ref sig .tc := ⟨.hbm, 71, rfl⟩
abbrev main_v49 : Ref sig .tc := ⟨.hbm, 72, rfl⟩
abbrev main_c_8 : Ref sig .tc := ⟨.hbm, 73, rfl⟩
abbrev main_v50 : Ref sig .tc := ⟨.hbm, 74, rfl⟩
abbrev main_v51 : Ref sig .tc := ⟨.hbm, 75, rfl⟩
abbrev main_c_9 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_10 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_call1_cst : Ref sig .tc := ⟨.hbm, 95, rfl⟩
abbrev main_call1_v0 : Ref sig .tc := ⟨.hbm, 96, rfl⟩
abbrev main_v69 : Ref sig .tc := ⟨.hbm, 97, rfl⟩
abbrev main_v70 : Ref sig .tc := ⟨.hbm, 98, rfl⟩
abbrev main_c_11 : Ref sig .tc := ⟨.hbm, 99, rfl⟩
abbrev main_v71 : Ref sig .tc := ⟨.hbm, 100, rfl⟩
abbrev main_v72 : Ref sig .tc := ⟨.hbm, 101, rfl⟩
abbrev main_c_12 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_cst_13 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_cst_14 : Ref sig .tc := ⟨.hbm, 123, rfl⟩
abbrev main_v92 : Ref sig .tc := ⟨.hbm, 124, rfl⟩
abbrev main_v93 : Ref sig .tc := ⟨.hbm, 125, rfl⟩
abbrev main_cst_15 : Ref sig .tc := ⟨.hbm, 126, rfl⟩
abbrev main_v94 : Ref sig .tc := ⟨.hbm, 127, rfl⟩
abbrev main_cst_16 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_cst_17 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_cst_18 : Ref sig .tc := ⟨.hbm, 141, rfl⟩
abbrev main_v106 : Ref sig .tc := ⟨.hbm, 142, rfl⟩
abbrev main_cst_19 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1600000x1_S1600000x30_0_1 : S1600000x1.BroadcastsInDim S1600000x30 (![0, 1] : Fin 2 → Fin S1600000x30.rank)
  bcast_S_S100000x30 : S_.BroadcastsInDim S100000x30 (![] : Fin 0 → Fin S100000x30.rank)
  bcast_S100000x1_S100000x30_0_1 : S100000x1.BroadcastsInDim S100000x30 (![0, 1] : Fin 2 → Fin S100000x30.rank)
  bcast_S30_S1x30_1 : S30.BroadcastsInDim S1x30 (![1] : Fin 1 → Fin S1x30.rank)
  bcast_S1x30_S100000x30_0_1 : S1x30.BroadcastsInDim S100000x30 (![0, 1] : Fin 2 → Fin S100000x30.rank)
  shapeCasts_S100000x128_S50x2000x128 : S100000x128.ShapeCasts S50x2000x128
  shapeCasts_S100000x30_S50x2000x30 : S100000x30.ShapeCasts S50x2000x30
  bcast_S_S50x2000x30 : S_.BroadcastsInDim S50x2000x30 (![] : Fin 0 → Fin S50x2000x30.rank)
  reducesTo_S50x2000x30_S50x2000_d2 : S50x2000x30.ReducesTo [2] S50x2000
  h_S_ : 0 < S_.numel
  bcast_S_S50x2000 : S_.BroadcastsInDim S50x2000 (![] : Fin 0 → Fin S50x2000.rank)
  bcast_S50x2000_S50x2000x1_0_1 : S50x2000.BroadcastsInDim S50x2000x1 (![0, 1] : Fin 2 → Fin S50x2000x1.rank)
  bcast_S50x2000x1_S50x2000x30_0_1_2 : S50x2000x1.BroadcastsInDim S50x2000x30 (![0, 1, 2] : Fin 3 → Fin S50x2000x30.rank)
  reducesTo_S50x30x128_S50x128_d1 : S50x30x128.ReducesTo [1] S50x128
  bcast_S_S50x128 : S_.BroadcastsInDim S50x128 (![] : Fin 0 → Fin S50x128.rank)
  bcast_S10_S1x10_1 : S10.BroadcastsInDim S1x10 (![1] : Fin 1 → Fin S1x10.rank)
  bcast_S1x10_S50x10_0_1 : S1x10.BroadcastsInDim S50x10 (![0, 1] : Fin 2 → Fin S50x10.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x30_S100000x30_1_0_0_1_n_n_wf : DotDims.WF S100000x128 S128x30 S100000x30 [1] [0] [0] [1] [] []
  gather_S100000x30_S1600000x1_S1600000x30_1_0_n_n_0_1_130_wf : GatherDims.WF S100000x30 S1600000x1 S1600000x30 [1] [0] [] [0] [] 1 ![1, 30]
  scatter_S100000x30_S1600000x1_S1600000x30_1_0_0_1_wf : ScatterDims.WF S100000x30 S1600000x1 S1600000x30 [1] [0] [0] 1
  dot_S50x2000x30_S50x2000x128_S50x30x128_1_1_2_2_0_0_wf : DotDims.WF S50x2000x30 S50x2000x128 S50x30x128 [1] [1] [2] [2] [0] [0]
  dot_S50x128_S128x10_S50x10_1_0_0_1_n_n_wf : DotDims.WF S50x128 S128x10 S50x10 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x30_S100000x30_1_0_0_1_n_n : DotDims S100000x128 S128x30 S100000x30 where
  lhsContracting := [1]
  rhsContracting := [0]
  lhsNonContracting := [0]
  rhsNonContracting := [1]
  lhsBatch := []
  rhsBatch := []
  wf := dot_S100000x128_S128x30_S100000x30_1_0_0_1_n_n_wf
def gather_S100000x30_S1600000x1_S1600000x30_1_0_n_n_0_1_130 : GatherDims S100000x30 S1600000x1 S1600000x30 where
  offsetDims := [1]
  collapsedSliceDims := [0]
  operandBatchingDims := []
  startIndicesBatchingDims := []
  startIndexMap := [0]
  indexVectorDim := 1
  sliceSizes := ![1, 30]
  wf := gather_S100000x30_S1600000x1_S1600000x30_1_0_n_n_0_1_130_wf
def scatter_S100000x30_S1600000x1_S1600000x30_1_0_0_1 : ScatterDims S100000x30 S1600000x1 S1600000x30 where
  updateWindowDims := [1]
  insertedWindowDims := [0]
  scatterDimsToOperandDims := [0]
  indexVectorDim := 1
  wf := scatter_S100000x30_S1600000x1_S1600000x30_1_0_0_1_wf
def dot_S50x2000x30_S50x2000x128_S50x30x128_1_1_2_2_0_0 : DotDims S50x2000x30 S50x2000x128 S50x30x128 where
  lhsContracting := [1]
  rhsContracting := [1]
  lhsNonContracting := [2]
  rhsNonContracting := [2]
  lhsBatch := [0]
  rhsBatch := [0]
  wf := dot_S50x2000x30_S50x2000x128_S50x30x128_1_1_2_2_0_0_wf
def dot_S50x128_S128x10_S50x10_1_0_0_1_n_n : DotDims S50x128 S128x10 S50x10 where
  lhsContracting := [1]
  rhsContracting := [0]
  lhsNonContracting := [0]
  rhsNonContracting := [1]
  lhsBatch := []
  rhsBatch := []
  wf := dot_S50x128_S128x10_S50x10_1_0_0_1_n_n_wf

class Facts : Prop extends Facts₀ where

variable [Facts]
-- ==== Proof.SpecDefs.lean ====
/-
  The mathematics both programs compute, over arrays of extended reals indexed by plain coordinates.

  A graph batch is 50 graphs of 2000 consecutive nodes each (100000 nodes), with 1600000 directed edges
  `src e → dst e` carrying a coefficient `coef e`, and a self-coefficient `sc i` per node.  One graph-convolution
  layer sends node features `h` to `agg + (h·W)·sc + b`, where `agg` adds, into every node, the transformed features of its
  in-neighbours weighted by the edge coefficients.  The reference adds them edge by edge (`aggR`); the kernel first
  adds the coefficients of parallel edges into a dense per-graph adjacency (`adj`: row = the edge's head, column = the
  tail's position inside its graph) and then multiplies each graph's 2000 × 2000 block with that graph's rows (`aggB`).
  After two rectified layers and a third one that gives 30 assignment logits per node, every graph is pooled: a row
  softmax of the logits, the 30 × 128 product of the transposed assignment with the node features, its mean over
  the 30 clusters, and a linear classifier (`headAt`).
-/
import Idealize.ShloMosaic.PureOps.Ideal
import Idealize.ShloMosaic.Lib.ValueIdx

noncomputable section

open scoped BigOperators

namespace Cert.Spec

open Idealize.ShloMosaic Idealize.ShloMosaic.ValueIdx

/-- A matrix of extended reals by row and column. -/
abbrev Mat (a b : ℕ) : Type := Fin a → Fin b → EReal
/-- A vector of extended reals. -/
abbrev Vc (a : ℕ) : Type := Fin a → EReal

/-- A rank-2 array read by its two coordinates. -/
def f2 {a b : ℕ} (v : (⟨2, ![a, b]⟩ : Shape).Idx → EReal) : Mat a b := fun i k => v (ix2 i k)
/-- A rank-1 array read by its coordinate. -/
def f1 {a : ℕ} (v : (⟨1, ![a]⟩ : Shape).Idx → EReal) : Vc a := fun i => v (ix1 i)
/-- A one-row array read by its column. -/
def frow {a : ℕ} (v : (⟨2, ![1, a]⟩ : Shape).Idx → EReal) : Vc a := fun i => v (ix2 (0 : Fin 1) i)
/-- A one-column array read by its row. -/
def fcol {a : ℕ} (v : (⟨2, ![a, 1]⟩ : Shape).Idx → EReal) : Vc a := fun i => v (ix2 i (0 : Fin 1))

/-- The matrix product `h · W`. -/
def lin {n d d' : ℕ} (h : Mat n d) (W : Mat d d') : Mat n d' := fun i f => ∑ k : Fin d, h i k * W k f
/-- One layer from its aggregation: `agg + hw · sc + b`, row by row. -/
def layer {n d : ℕ} (agg hw : Mat n d) (sc : Vc n) (b : Vc d) : Mat n d := fun i f => agg i f + hw i f * sc i + b f
/-- The rectifier, entry by entry. -/
def relu {n d : ℕ} (v : Mat n d) : Mat n d := fun i f => max (v i f) 0

/-- Node `r` of graph `b`. -/
def node (b : Fin 50) (r : Fin 2000) : Fin 100000 := ⟨b.val * 2000 + r.val, by have := b.isLt; have := r.isLt; omega⟩
/-- The rows of graph `b`. -/
def blk {d : ℕ} (v : Mat 100000 d) (b : Fin 50) : Mat 2000 d := fun r f => v (node b r) f
/-- The entries of graph `b`. -/
def blkv (v : Vc 100000) (b : Fin 50) : Vc 2000 := fun r => v (node b r)

/-- The reference's aggregation: into node `i`, every edge with head `i` adds its tail's features times its coefficient. -/
def aggR (src dst : Fin 1600000 → Fin 100000) (coef : Vc 1600000) {d : ℕ} (hw : Mat 100000 d) : Mat 100000 d :=
  fun i f => ∑ e ∈ Finset.univ.filter (fun e => dst e = i), hw (src e) f * coef e
/-- The dense adjacency: entry `(i, j)` adds the coefficients of the edges with head `i` whose tail sits at position `j` of
    its graph (the flat cell `head · 2000 + tail mod 2000`). -/
def adj (src dst : Fin 1600000 → Fin 100000) (coef : Vc 1600000) : Mat 100000 2000 :=
  fun i j => ∑ e ∈ Finset.univ.filter (fun e => (dst e).val * 2000 + (src e).val % 2000 = i.val * 2000 + j.val), coef e
/-- The kernel's aggregation inside one graph: the graph's adjacency block times the graph's rows. -/
def aggB {d : ℕ} (A : Mat 2000 2000) (hw : Mat 2000 d) : Mat 2000 d := fun r f => ∑ j : Fin 2000, A r j * hw j f

/-! ## The three layers -/

/-- The reference's first hidden features, over all nodes. -/
def h1R (src dst : Fin 1600000 → Fin 100000) (coef : Vc 1600000) (sc : Vc 100000) (x : Mat 100000 128) (W1 : Mat 128 128) (b1 : Vc 128) :
    Mat 100000 128 :=
  relu (layer (aggR src dst coef (lin x W1)) (lin x W1) sc b1)
/-- The reference's second hidden features. -/
def h2R (src dst : Fin 1600000 → Fin 100000) (coef : Vc 1600000) (sc : Vc 100000) (x : Mat 100000 128) (W1 : Mat 128 128) (b1 : Vc 128)
    (W2 : Mat 128 128) (b2 : Vc 128) : Mat 100000 128 :=
  relu (layer (aggR src dst coef (lin (h1R src dst coef sc x W1 b1) W2)) (lin (h1R src dst coef sc x W1 b1) W2) sc b2)
/-- The reference's assignment logits. -/
def sR (src dst : Fin 1600000 → Fin 100000) (coef : Vc 1600000) (sc : Vc 100000) (x : Mat 100000 128) (W1 : Mat 128 128) (b1 : Vc 128)
    (W2 : Mat 128 128) (b2 : Vc 128) (Wa : Mat 128 30) (ba : Vc 30) : Mat 100000 30 :=
  layer (aggR src dst coef (lin (h2R src dst coef sc x W1 b1 W2 b2) Wa)) (lin (h2R src dst coef sc x W1 b1 W2 b2) Wa) sc ba

/-- The kernel's first hidden features inside one graph, from the graph's adjacency block, rows and self-coefficients. -/
def h1B (A : Mat 2000 2000) (xb : Mat 2000 128) (scb : Vc 2000) (W1 : Mat 128 128) (b1 : Vc 128) : Mat 2000 128 :=
  relu (layer (aggB A (lin xb W1)) (lin xb W1) scb b1)
/-- The kernel's second hidden features inside one graph. -/
def h2B (A : Mat 2000 2000) (xb : Mat 2000 128) (scb : Vc 2000) (W1 : Mat 128 128) (b1 : Vc 128) (W2 : Mat 128 128) (b2 : Vc 128) :
    Mat 2000 128 :=
  relu (layer (aggB A (lin (h1B A xb scb W1 b1) W2)) (lin (h1B A xb scb W1 b1) W2) scb b2)
/-- The kernel's assignment logits inside one graph. -/
def sB (A : Mat 2000 2000) (xb : Mat 2000 128) (scb : Vc 2000) (W1 : Mat 128 128) (b1 : Vc 128) (W2 : Mat 128 128) (b2 : Vc 128)
    (Wa : Mat 128 30) (ba : Vc 30) : Mat 2000 30 :=
  layer (aggB A (lin (h2B A xb scb W1 b1 W2 b2) Wa)) (lin (h2B A xb scb W1 b1 W2 b2) Wa) scb ba

/-! ## Pooling one graph -/

/-- Minus infinity as both programs spell it. -/
def ninf : EReal := Ideal.ofBits .f32 0xFF800000#32
/-- The number of clusters, 30, as both programs spell it. -/
def thirty : EReal := Ideal.ofBits .f32 0x41F00000#32

/-- A row's maximum, from minus infinity. -/
def rowMax {n : ℕ} (S : Mat n 30) (r : Fin n) : EReal := max ninf ((Finset.univ : Finset (Fin 30)).fold max ninf (fun k => S r k))
/-- A row's shifted exponentials. -/
def rowExp {n : ℕ} (S : Mat n 30) (r : Fin n) (k : Fin 30) : EReal := Ideal.exp (S r k - rowMax S r)
/-- The row softmax. -/
def softmax {n : ℕ} (S : Mat n 30) : Mat n 30 := fun r k => Ideal.div (rowExp S r k) (∑ k' : Fin 30, rowExp S r k')
/-- The pooled features of one graph: the mean over the 30 clusters of (assignmentᵀ · features). -/
def pool (S : Mat 2000 30) (h2 : Mat 2000 128) : Vc 128 :=
  fun d => Ideal.div (∑ k : Fin 30, ∑ n : Fin 2000, softmax S n k * h2 n d) thirty
/-- One class logit of one graph, from the classifier's column `wl` and bias `blc` for that class. -/
def headAt (S : Mat 2000 30) (h2 : Mat 2000 128) (wl : Vc 128) (blc : EReal) : EReal :=
  (∑ d : Fin 128, pool S h2 d * wl d) + blc

/-! ## The two results -/

/-- The reference's logits: graph `b`, class `c`. -/
def refOut (src dst : Fin 1600000 → Fin 100000) (coef : Vc 1600000) (sc : Vc 100000) (x : Mat 100000 128) (W1 : Mat 128 128) (b1 : Vc 128)
    (W2 : Mat 128 128) (b2 : Vc 128) (Wa : Mat 128 30) (ba : Vc 30) (Wl : Mat 128 10) (bl : Vc 10) (b : Fin 50) (c : Fin 10) : EReal :=
  headAt (blk (sR src dst coef sc x W1 b1 W2 b2 Wa ba) b) (blk (h2R src dst coef sc x W1 b1 W2 b2) b) (fun d => Wl d c) (bl c)

/-- The kernel's logits from a dense adjacency `A`: graph `b`, class `c`. -/
def kerOut (A : Mat 100000 2000) (sc : Vc 100000) (x : Mat 100000 128) (W1 : Mat 128 128) (b1 : Vc 128)
    (W2 : Mat 128 128) (b2 : Vc 128) (Wa : Mat 128 30) (ba : Vc 30) (Wl : Mat 128 10) (bl : Vc 10) (b : Fin 50) (c : Fin 10) : EReal :=
  headAt (sB (blk A b) (blk x b) (blkv sc b) W1 b1 W2 b2 Wa ba) (h2B (blk A b) (blk x b) (blkv sc b) W1 b1 W2 b2) (fun d => Wl d c) (bl c)

/-! ## The edge list read off the index words -/

/-- The tail of edge `e`: the word in row 0, read signed and clamped into the node range. -/
def srcOf (ei : IVec ⟨2, ![2, 1600000]⟩ 32) (e : Fin 1600000) : Fin 100000 :=
  ⟨min (ei (ix2 (0 : Fin 2) e)).toInt.toNat 99999, by omega⟩
/-- The head of edge `e`: the word in row 1, read signed and clamped into the node range. -/
def dstOf (ei : IVec ⟨2, ![2, 1600000]⟩ 32) (e : Fin 1600000) : Fin 100000 :=
  ⟨min (ei (ix2 (1 : Fin 2) e)).toInt.toNat 99999, by omega⟩
/-- Every endpoint is a node index. -/
def InRange (ei : IVec ⟨2, ![2, 1600000]⟩ 32) : Prop := ∀ (r : Fin 2) (e : Fin 1600000), (ei (ix2 r e)).toNat < 100000
/-- Every edge stays inside one graph. -/
def Within (ei : IVec ⟨2, ![2, 1600000]⟩ 32) : Prop :=
  ∀ e : Fin 1600000, (ei (ix2 (0 : Fin 2) e)).toNat / 2000 = (ei (ix2 (1 : Fin 2) e)).toNat / 2000

end Cert.Spec

end
-- ==== Proof.LibWords.lean ====
/-
  Small non-negative 32-bit words computed with as their values: sums, products, truncating quotients and remainders
  that do not leave [0, 2³¹) are the natural-number operations on the values, and such a word reads the same signed and
  unsigned.  Also the two float words the programs spell whose values a proof needs: 0 and 1.
-/
import Idealize.ShloMosaic.PureOps.Ideal
import Idealize.ShloMosaic.Lib.ValueIdx
import Idealize.ShloMosaic.Lib.StableHlo.Predicate

noncomputable section

namespace Cert.LibWords

open Idealize.ShloMosaic Idealize.ShloMosaic.StableHlo.Predicate

/-- A word below 2³¹ read signed is its value. -/
theorem toInt_of_lt {a : BitVec 32} (ha : a.toNat < 2 ^ 31) : a.toInt = (a.toNat : ℤ) := toInt_eq_toNat_of_lt ha

/-- The truncating quotient of a small non-negative word by the word 2000 is the quotient of the values. -/
theorem divsi_2000 (u : ArithUnit) (a : BitVec 32) (ha : a.toNat < 2 ^ 31) : (IntOp.divsi u a 2000#32).toNat = a.toNat / 2000 := by
  -- the divisor is neither 0 nor -1, so no corner is met; both signs are +, so the signed quotient is the unsigned one
  have hcorner : ¬ IntOp.SDivCorner a 2000#32 := by
    rintro (hc | ⟨_, hc⟩) <;> exact absurd hc (by decide)
  have hm : a.msb = false := BitVec.msb_eq_false_iff_two_mul_lt.mpr (by omega)
  have hd : (2000#32 : BitVec 32).msb = false := by decide
  simp only [IntOp.divsi, if_neg hcorner, BitVec.sdiv_eq, hm, hd, BitVec.udiv_eq, BitVec.toNat_udiv, BitVec.toNat_ofNat]

/-- The truncating remainder of a small non-negative word by the word 2000 is the remainder of the values. -/
theorem remsi_2000 (u : ArithUnit) (a : BitVec 32) (ha : a.toNat < 2 ^ 31) : (IntOp.remsi u a 2000#32).toNat = a.toNat % 2000 := by
  have hcorner : ¬ IntOp.SDivCorner a 2000#32 := by
    rintro (hc | ⟨_, hc⟩) <;> exact absurd hc (by decide)
  have hm : a.msb = false := BitVec.msb_eq_false_iff_two_mul_lt.mpr (by omega)
  have hd : (2000#32 : BitVec 32).msb = false := by decide
  simp only [IntOp.remsi, if_neg hcorner, BitVec.srem_eq, hm, hd, BitVec.umod_eq, BitVec.toNat_umod, BitVec.toNat_ofNat]

/-- The float word of 1.0 denotes 1. -/
theorem ofBits_one : Ideal.ofBits .f32 0x3F800000#32 = 1 := by
  -- sign bit 0, exponent field 127 = the bias, fraction field 0: the value is 2²³ · 2⁻²³
  have hs : ((0x3F800000#32 : BitVec 32).extractLsb' (8 + 23) 1 == 1#1) = false := by decide
  have he : ((0x3F800000#32 : BitVec 32).extractLsb' 23 8).toNat = 127 := by decide
  have hf : ((0x3F800000#32 : BitVec 32).extractLsb' 0 23).toNat = 0 := by decide
  simp only [Ideal.ofBits, Ideal.ieee, hs, he, hf]
  norm_num

/-- Dividing an extended real by 1 changes nothing. -/
theorem div_one (x : EReal) : Ideal.div x 1 = x := by
  have h1 : (1 : EReal) ≠ 0 := one_ne_zero
  rw [Ideal.div, if_neg h1, inv_one, mul_one]

/-! ## Companions: sums, products and the sign test of small words -/

/-- The float word of +0.0 denotes 0. -/
theorem ofBits_zero : Ideal.ofBits .f32 0#32 = 0 := by
  have hs : ((0#32 : BitVec 32).extractLsb' (8 + 23) 1 == 1#1) = false := by decide
  have he : ((0#32 : BitVec 32).extractLsb' 23 8).toNat = 0 := by decide
  have hf : ((0#32 : BitVec 32).extractLsb' 0 23).toNat = 0 := by decide
  simp only [Ideal.ofBits, Ideal.ieee, hs, he, hf]
  norm_num

/-- A literal word below 2³² has its number as value. -/
theorem toNat_ofNat_small (n : ℕ) (hn : n < 2 ^ 32) : (BitVec.ofNat 32 n).toNat = n := by
  rw [BitVec.toNat_ofNat]; exact Nat.mod_eq_of_lt hn

/-- A sum of words that does not wrap is the sum of the values. -/
theorem toNat_addi (a b : BitVec 32) (h : a.toNat + b.toNat < 2 ^ 32) : (IntOp.addi a b).toNat = a.toNat + b.toNat := by
  rw [show IntOp.addi a b = a + b from rfl, BitVec.toNat_add]; exact Nat.mod_eq_of_lt h

/-- A difference of words that does not go below zero is the difference of the values. -/
theorem toNat_subi (a b : BitVec 32) (h : b.toNat ≤ a.toNat) : (IntOp.subi a b).toNat = a.toNat - b.toNat := by
  rw [show IntOp.subi a b = a - b from rfl, BitVec.toNat_sub]
  have := a.isLt; have := b.isLt; omega

/-- A product of words that does not wrap is the product of the values. -/
theorem toNat_muli (a b : BitVec 32) (h : a.toNat * b.toNat < 2 ^ 32) : (IntOp.muli a b).toNat = a.toNat * b.toNat := by
  rw [show IntOp.muli a b = a * b from rfl, BitVec.toNat_mul]; exact Nat.mod_eq_of_lt h

/-- A word times the word 2000, not wrapping, is 2000 times the value. -/
theorem toNat_muli_2000 (a : BitVec 32) (h : a.toNat * 2000 < 2 ^ 32) : (IntOp.muli a 2000#32).toNat = a.toNat * 2000 := by
  rw [toNat_muli a 2000#32 (by rw [BitVec.toNat_ofNat]; exact h), BitVec.toNat_ofNat]

/-- The word 2000 times a word, not wrapping, is 2000 times the value. -/
theorem toNat_muli_2000_left (a : BitVec 32) (h : 2000 * a.toNat < 2 ^ 32) : (IntOp.muli 2000#32 a).toNat = 2000 * a.toNat := by
  rw [toNat_muli 2000#32 a (by rw [BitVec.toNat_ofNat]; exact h), BitVec.toNat_ofNat]

/-- A small non-negative word is not below zero, read signed. -/
theorem cmpi_slt_zero (a : BitVec 32) (ha : a.toNat < 2 ^ 31) : IntOp.cmpi .slt a 0#32 = 0#1 := by
  have h : ¬ IntOp.cmpi .slt a 0#32 = 1#1 := by
    rw [slt_iff_toNat ha (by decide)]; exact Nat.not_lt_zero _
  rcases BitVec.eq_zero_or_eq_one (IntOp.cmpi .slt a 0#32) with h0 | h1
  · exact h0
  · exact absurd h1 h

/-- A word below 2³¹ is not below zero: the signed comparison, as a boolean. -/
theorem slt_zero_eq_false (a : BitVec 32) (ha : a.toNat < 2 ^ 31) : a.slt 0#32 = false := by
  have h0 : (0#32 : BitVec 32).toInt = 0 := by decide
  simp only [BitVec.slt, toInt_of_lt ha, h0, decide_eq_false_iff_not, not_lt]
  exact Int.natCast_nonneg _

/-- The quotient by 2000 of a small non-negative word is again a small non-negative word. -/
theorem divsi_2000_lt (u : ArithUnit) (a : BitVec 32) (ha : a.toNat < 2 ^ 31) : (IntOp.divsi u a 2000#32).toNat < 2 ^ 31 := by
  rw [divsi_2000 u a ha]; omega

/-- The remainder by 2000 of a small non-negative word is below 2000. -/
theorem remsi_2000_lt (u : ArithUnit) (a : BitVec 32) (ha : a.toNat < 2 ^ 31) : (IntOp.remsi u a 2000#32).toNat < 2000 := by
  rw [remsi_2000 u a ha]; omega

end Cert.LibWords

end
-- ==== Proof.EdgeFacts.lean ====
/-
  Under the range condition the two endpoints of an edge, read off the index words signed and clamped into the node range,
  are the words' values; so the within-graph condition on the words is the within-graph condition on the endpoints.
-/
import proofs.«425410_j807453851818_3_alg».proof.Proof.SpecDefs
import proofs.«425410_j807453851818_3_alg».proof.Proof.LibWords

noncomputable section

namespace Cert.Spec

open Idealize.ShloMosaic Idealize.ShloMosaic.ValueIdx

/-- A word below 100000 read signed and clamped into [0, 99999] is its value. -/
theorem clamp_of_lt (w : BitVec 32) (h : w.toNat < 100000) : min w.toInt.toNat 99999 = w.toNat := by
  rw [Cert.LibWords.toInt_of_lt (by omega), Int.toNat_natCast]
  omega

/-- The tail of an edge is the value of its word. -/
theorem srcOf_val (ei : IVec ⟨2, ![2, 1600000]⟩ 32) (hr : InRange ei) (e : Fin 1600000) :
    (srcOf ei e).val = (ei (ix2 (0 : Fin 2) e)).toNat :=
  clamp_of_lt _ (hr 0 e)

/-- The head of an edge is the value of its word. -/
theorem dstOf_val (ei : IVec ⟨2, ![2, 1600000]⟩ 32) (hr : InRange ei) (e : Fin 1600000) :
    (dstOf ei e).val = (ei (ix2 (1 : Fin 2) e)).toNat :=
  clamp_of_lt _ (hr 1 e)

/-- Every edge's endpoints lie in the same block of 2000 nodes. -/
theorem within_of (ei : IVec ⟨2, ![2, 1600000]⟩ 32) (hr : InRange ei) (hw : Within ei) (e : Fin 1600000) :
    (srcOf ei e).val / 2000 = (dstOf ei e).val / 2000 := by
  rw [srcOf_val ei hr e, dstOf_val ei hr e]
  exact hw e

end Cert.Spec

end
-- ==== Proof.SpecBridge.lean ====
/-
  The dense adjacency computes the reference's aggregation, graph by graph, when every edge stays inside its graph.

  For a node i = (graph b, position r): the adjacency's row i, column j adds the coefficients of the edges with head i and
  tail at position j (the flat cell head · 2000 + tail mod 2000 determines both, since a position is below 2000).  So
  row i of (adjacency block of b) · (rows of b) is the sum over j of (sum of those coefficients) · (row j of graph b);
  distributing each product over its sum — valid on the extended reals because the coefficients are non-negative —
  and collecting the edges over j leaves the sum, over the edges with head i, of coefficient · (row of graph b at the tail's
  position), and that row IS the tail's row because the tail lies in the head's graph.  Everything after the
  aggregation is the same function of a graph's rows on both sides, so the three layers and the pooled logits agree.
-/
import proofs.«425410_j807453851818_3_alg».proof.Proof.SpecDefs

noncomputable section

open scoped BigOperators

namespace Cert.Spec

/-- The flat position of node `r` of graph `b`. -/
theorem node_val (b : Fin 50) (r : Fin 2000) : (node b r).val = b.val * 2000 + r.val := rfl

/-- A sum of non-negative extended reals times a factor is the sum of the products. -/
theorem sum_mul_of_nonneg {ι : Type} [DecidableEq ι] (s : Finset ι) (a : ι → EReal) (ha : ∀ e ∈ s, 0 ≤ a e) (c : EReal) :
    (∑ e ∈ s, a e) * c = ∑ e ∈ s, a e * c := by
  induction s using Finset.induction_on with
  | empty => simp
  | insert x s hx ih =>
    have hs : ∀ e ∈ s, 0 ≤ a e := fun e he => ha e (Finset.mem_insert_of_mem he)
    rw [Finset.sum_insert hx, Finset.sum_insert hx,
      EReal.right_distrib_of_nonneg (ha x (Finset.mem_insert_self x s)) (Finset.sum_nonneg hs), ih hs]

/-- The adjacency block of graph b times the rows of graph b is the reference's aggregation read on graph b. -/
theorem aggB_adj (src dst : Fin 1600000 → Fin 100000) (coef : Vc 1600000)
    (hwithin : ∀ e, (src e).val / 2000 = (dst e).val / 2000) (hcoef : ∀ e, 0 ≤ coef e)
    {d : ℕ} (hw : Mat 100000 d) (b : Fin 50) :
    aggB (blk (adj src dst coef) b) (blk hw b) = blk (aggR src dst coef hw) b := by
  funext r f
  simp only [aggB, blk, adj, aggR]
  -- the position of an edge's tail inside its graph
  have hg : ∀ e : Fin 1600000, (src e).val % 2000 < 2000 := fun e => Nat.mod_lt _ (by norm_num)
  -- split the edges with head (b, r) by the position of their tail
  rw [← Finset.sum_fiberwise_of_maps_to (s := Finset.univ.filter (fun e => dst e = node b r))
    (t := (Finset.univ : Finset (Fin 2000))) (g := fun e => (⟨(src e).val % 2000, hg e⟩ : Fin 2000))
    (fun _ _ => Finset.mem_univ _)]
  refine Finset.sum_congr rfl (fun j _ => ?_)
  rw [sum_mul_of_nonneg _ _ (fun e _ => hcoef e)]
  -- the flat cell determines the head and the tail's position, both ways
  have hset : (Finset.univ.filter (fun e => (dst e).val * 2000 + (src e).val % 2000 = (node b r).val * 2000 + j.val))
      = (Finset.univ.filter (fun e => dst e = node b r)).filter
          (fun e => (⟨(src e).val % 2000, hg e⟩ : Fin 2000) = j) := by
    ext e
    simp only [Finset.mem_filter, Finset.mem_univ, true_and, Fin.ext_iff]
    have hj := j.isLt
    have he := hg e
    constructor
    · intro h
      constructor <;> omega
    · rintro ⟨h1, h2⟩
      rw [h1, h2]
  rw [hset]
  refine Finset.sum_congr rfl (fun e he => ?_)
  obtain ⟨he1, he2⟩ := Finset.mem_filter.mp he
  have hd : dst e = node b r := (Finset.mem_filter.mp he1).2
  -- the tail is the node at its position in the head's graph
  have hsrc : node b j = src e := by
    apply Fin.ext
    have h1 : (dst e).val = b.val * 2000 + r.val := by rw [hd, node_val]
    have h2 : (src e).val % 2000 = j.val := congrArg Fin.val he2
    have h3 := hwithin e
    have hr := r.isLt
    rw [node_val]
    omega
  rw [hsrc, mul_comm]

/-- The product with a weight matrix reads graph by graph. -/
theorem lin_blk {d d' : ℕ} (h : Mat 100000 d) (W : Mat d d') (b : Fin 50) : lin (blk h b) W = blk (lin h W) b := rfl

/-- A layer reads graph by graph. -/
theorem layer_blk {d : ℕ} (agg hw : Mat 100000 d) (sc : Vc 100000) (bias : Vc d) (b : Fin 50) :
    layer (blk agg b) (blk hw b) (blkv sc b) bias = blk (layer agg hw sc bias) b := rfl

/-- The rectifier reads graph by graph. -/
theorem relu_blk {d : ℕ} (v : Mat 100000 d) (b : Fin 50) : relu (blk v b) = blk (relu v) b := rfl

/-- One layer of the kernel inside graph b, fed the rows of graph b, is the reference's layer read on graph b. -/
theorem layerB_eq (src dst : Fin 1600000 → Fin 100000) (coef : Vc 1600000) (sc : Vc 100000)
    (hwithin : ∀ e, (src e).val / 2000 = (dst e).val / 2000) (hcoef : ∀ e, 0 ≤ coef e)
    {d d' : ℕ} (h : Mat 100000 d) (W : Mat d d') (bias : Vc d') (b : Fin 50) :
    layer (aggB (blk (adj src dst coef) b) (lin (blk h b) W)) (lin (blk h b) W) (blkv sc b) bias
      = blk (layer (aggR src dst coef (lin h W)) (lin h W) sc bias) b := by
  rw [lin_blk, aggB_adj src dst coef hwithin hcoef, layer_blk]

/-- The first hidden features agree on graph b. -/
theorem h1B_eq (src dst : Fin 1600000 → Fin 100000) (coef : Vc 1600000) (sc : Vc 100000)
    (x : Mat 100000 128) (W1 : Mat 128 128) (b1 : Vc 128)
    (hwithin : ∀ e, (src e).val / 2000 = (dst e).val / 2000) (hcoef : ∀ e, 0 ≤ coef e) (b : Fin 50) :
    h1B (blk (adj src dst coef) b) (blk x b) (blkv sc b) W1 b1 = blk (h1R src dst coef sc x W1 b1) b := by
  unfold h1B h1R
  rw [layerB_eq src dst coef sc hwithin hcoef, relu_blk]

/-- The second hidden features agree on graph b. -/
theorem h2B_eq (src dst : Fin 1600000 → Fin 100000) (coef : Vc 1600000) (sc : Vc 100000)
    (x : Mat 100000 128) (W1 : Mat 128 128) (b1 : Vc 128) (W2 : Mat 128 128) (b2 : Vc 128)
    (hwithin : ∀ e, (src e).val / 2000 = (dst e).val / 2000) (hcoef : ∀ e, 0 ≤ coef e) (b : Fin 50) :
    h2B (blk (adj src dst coef) b) (blk x b) (blkv sc b) W1 b1 W2 b2 = blk (h2R src dst coef sc x W1 b1 W2 b2) b := by
  unfold h2B h2R
  rw [h1B_eq src dst coef sc x W1 b1 hwithin hcoef, layerB_eq src dst coef sc hwithin hcoef, relu_blk]

/-- The assignment logits agree on graph b. -/
theorem sB_eq (src dst : Fin 1600000 → Fin 100000) (coef : Vc 1600000) (sc : Vc 100000)
    (x : Mat 100000 128) (W1 : Mat 128 128) (b1 : Vc 128) (W2 : Mat 128 128) (b2 : Vc 128) (Wa : Mat 128 30) (ba : Vc 30)
    (hwithin : ∀ e, (src e).val / 2000 = (dst e).val / 2000) (hcoef : ∀ e, 0 ≤ coef e) (b : Fin 50) :
    sB (blk (adj src dst coef) b) (blk x b) (blkv sc b) W1 b1 W2 b2 Wa ba
      = blk (sR src dst coef sc x W1 b1 W2 b2 Wa ba) b := by
  unfold sB sR
  rw [h2B_eq src dst coef sc x W1 b1 W2 b2 hwithin hcoef, layerB_eq src dst coef sc hwithin hcoef]

/-- The kernel's logits from the dense adjacency are the reference's. -/
theorem kerOut_eq_refOut (src dst : Fin 1600000 → Fin 100000) (coef : Vc 1600000) (sc : Vc 100000)
    (x : Mat 100000 128) (W1 : Mat 128 128) (b1 : Vc 128) (W2 : Mat 128 128) (b2 : Vc 128) (Wa : Mat 128 30) (ba : Vc 30)
    (Wl : Mat 128 10) (bl : Vc 10)
    (hwithin : ∀ e, (src e).val / 2000 = (dst e).val / 2000) (hcoef : ∀ e, 0 ≤ coef e) (b : Fin 50) (c : Fin 10) :
    kerOut (adj src dst coef) sc x W1 b1 W2 b2 Wa ba Wl bl b c = refOut src dst coef sc x W1 b1 W2 b2 Wa ba Wl bl b c := by
  unfold kerOut refOut
  rw [sB_eq src dst coef sc x W1 b1 W2 b2 Wa ba hwithin hcoef, h2B_eq src dst coef sc x W1 b1 W2 b2 hwithin hcoef]

end Cert.Spec

end
-- ==== Proof.PreDecode.lean ====
/-
  What the precondition says about the index words.  The printed predicate is a conjunction (one bit) whose two outermost
  conjuncts are: every word w of the edge list satisfies 0 ≤ w and w < 100000 (signed), and, edge by edge, the
  truncating quotients by 2000 of the two endpoints are equal.  On words in [0, 100000) signed and unsigned readings
  agree and the truncating quotient is the floor, so the predicate being all ones gives: every endpoint is a node number,
  and the two endpoints of every edge lie in the same block of 2000 nodes.
-/
import proofs.«425410_j807453851818_3_alg».proof.Proof.Gen.Pre_finite_inputs
import proofs.«425410_j807453851818_3_alg».proof.Proof.SpecDefs
import proofs.«425410_j807453851818_3_alg».proof.Proof.LibWords
import Idealize.ShloMosaic.Lib.ReduceAll
import Idealize.ShloMosaic.Lib.StableHlo.Predicate
import Idealize.ShloMosaic.Lib.Pipeline.Value

noncomputable section

namespace Cert.PreDecode

open Idealize.ShloMosaic Idealize.ShloMosaic.ValueIdx Idealize.ShloMosaic.StableHlo.Predicate
open Cert.Pre_finite_inputs Cert.Spec

variable {F : FTy → Type} [FloatOps F]

/-- The scalar shape has one index. -/
instance : Subsingleton S_.Idx := ⟨fun a b => funext fun d => d.elim0⟩

/-- A word that tests 0 ≤ w and w < 100000, both read signed, spells a natural number below 100000. -/
theorem toNat_lt_of_signed {w : BitVec 32} (h0 : IntOp.cmpi .sge w 0#32 = 1#1) (h1 : IntOp.cmpi .slt w 100000#32 = 1#1) :
    w.toNat < 100000 := by
  rw [IntOp.cmpi_sge, show (0#32 : BitVec 32).toInt = 0 from by decide] at h0
  rw [IntOp.cmpi_slt, show (100000#32 : BitVec 32).toInt = 100000 from by decide] at h1
  have hlt : w.toNat < 2 ^ 31 := by have := BitVec.toInt_pos_iff.1 h0; omega
  rw [toInt_eq_toNat_of_lt hlt] at h1
  omega

/-- Row `r` of the edge list, cut out as a one-row block and flattened, read at `e`, is the word at (r, e). -/
theorem row_apply (a1 : IVec S2x1600000 32) (o : ℕ) (r : Fin 2) (hr : r.val = o) (hs : S2x1600000.Slices ![o, 0] S1x1600000)
    (hc : S1x1600000.ShapeCasts S1600000) (e : Fin 1600000) :
    shapeCast S1600000 (extractStridedSlice S1x1600000 ![o, 0] a1 hs) hc (ix1 e) = a1 (ix2 r e) := by
  rw [shapeCast_apply _ hc (ix1 e) (ix2 (0 : Fin 1) e) (by
    rw [Shape.rowMajor_val_two, Shape.rowMajor_val_one]; show 0 * 1600000 + e.val = e.val; omega)]
  exact extractStridedSlice_apply _ a1 hs _ (ix2 r e) (by
    intro a
    match a with
    | ⟨0, _⟩ => show r.val = o + 0; omega
    | ⟨1, _⟩ => show e.val = 0 + e.val; omega)

/-- The precondition being all ones makes every endpoint a node number and keeps every edge inside one graph. -/
theorem inRange_within_of_pre (a0 : FVec F S100000x128 .f32) (a1 : IVec S2x1600000 32) (a2 : IVec S100000 32)
    (a3 : FVec F S128x128 .f32) (a4 : FVec F S128 .f32) (a5 : FVec F S128x128 .f32) (a6 : FVec F S128 .f32)
    (a7 : FVec F S128x30 .f32) (a8 : FVec F S30 .f32) (a9 : FVec F S128x10 .f32) (a10 : FVec F S10 .f32)
    (h : Cert.Pre_finite_inputs.fn (F := F) a0 a1 a2 a3 a4 a5 a6 a7 a8 a9 a10 = fun _ => 1#1) :
    InRange a1 ∧ Within a1 := by
  -- the predicate at its one index: ((float conjuncts ∧ range test) ∧ same-block test)
  have h0 := congrFun h ix0
  dsimp only [fn, fn_part1, fn_part2, fn_part3] at h0
  obtain ⟨h50, h60⟩ := IntOp.andi_eq_one.1 h0
  obtain ⟨-, h49⟩ := IntOp.andi_eq_one.1 h50
  -- every word passes both signed tests, so it spells a node number
  have hIn : InRange a1 := by
    intro r e
    have he := Host.reduce_andi_all _ _ _ _ ix0 h49 (ix2 r e)
    obtain ⟨hge, hlt⟩ := IntOp.andi_eq_one.1 he
    exact toNat_lt_of_signed (w := a1 (ix2 r e)) hge hlt
  refine ⟨hIn, ?_⟩
  -- edge by edge the two truncating quotients are the same word; on node numbers they are the floors
  intro e
  have he := Host.reduce_andi_all _ _ _ _ ix0 h60 (ix1 e)
  have hq := IntOp.cmpi_eq.1 he
  have e0 := row_apply a1 0 0 rfl Facts.slices_S2x1600000_S1x1600000_0_0 Facts.shapeCasts_S1x1600000_S1600000 e
  have e1 := row_apply a1 1 1 rfl Facts.slices_S2x1600000_S1x1600000_1_0 Facts.shapeCasts_S1x1600000_S1600000 e
  have hq' : IntOp.divsi .host (a1 (ix2 (0 : Fin 2) e)) 2000#32 = IntOp.divsi .host (a1 (ix2 (1 : Fin 2) e)) 2000#32 := by
    rw [← e0, ← e1]; exact hq
  have hn := congrArg BitVec.toNat hq'
  have b0 := hIn 0 e
  have b1 := hIn 1 e
  rw [Cert.LibWords.divsi_2000 .host _ (by omega), Cert.LibWords.divsi_2000 .host _ (by omega)] at hn
  exact hn

end Cert.PreDecode

end
-- ==== Proof.LibScatterGather.lean ====
/-
  Three host operations read at one element, for any extents: a gather of whole rows of a matrix at a column of row
  numbers, and an accumulating scatter into a vector or into the rows of a matrix at a column of positions.

  A gather clamps the row number it reads (signed) into the matrix; a scatter reads the position signed and does NOT
  clamp it: an update whose position is outside the target is dropped.  At the exact (extended-real) instance the
  accumulating scatter is the target's entry plus the sum of the updates that land on it.
-/
import Idealize.ShloMosaic.PureOps.Ideal
import Idealize.ShloMosaic.PureOps.Contract
import Idealize.ShloMosaic.Lib.ValueIdx
import Idealize.ShloMosaic.Lib.StableHlo.Predicate

noncomputable section

open scoped BigOperators

namespace Cert.LibSG

open Idealize.ShloMosaic Idealize.ShloMosaic.ValueIdx Idealize.ShloMosaic.StableHlo.Predicate

/-- Rows gathered from an [N × D] matrix at an [n × 1] column of row numbers: entry (p, f) of the result is the matrix's
    entry (row p's number read signed and clamped into [0, N − 1], f). -/
theorem gather_rows {α : Type} {N D n w : ℕ} (d : GatherDims ⟨2, ![N, D]⟩ ⟨2, ![n, 1]⟩ ⟨2, ![n, D]⟩)
    (hoff : d.offsetDims = [1]) (hcoll : d.collapsedSliceDims = [0]) (hob : d.operandBatchingDims = [])
    (hsb : d.startIndicesBatchingDims = []) (hsim : d.startIndexMap = [0]) (hivd : d.indexVectorDim = 1)
    (hss : d.sliceSizes = ![1, D])
    (x : (⟨2, ![N, D]⟩ : Shape).Idx → α) (idx : IVec ⟨2, ![n, 1]⟩ w) (p : Fin n) (f : Fin D) (hN : 0 < N) :
    Host.gather d x idx (ix2 p f) = x (ix2 (⟨min (idx (ixP p)).toInt.toNat (N - 1), by omega⟩ : Fin N) f) := by
  obtain ⟨od, cd, ob, sb, sm, iv, ss, wf⟩ := d
  dsimp only at hoff hcoll hob hsb hsim hivd hss
  subst hoff hcoll hob hsb hsim hivd hss
  unfold Host.gather
  congr 1
  funext a
  refine Fin.ext ?_
  match a with
  | ⟨0, _⟩ =>
    show GatherDims.start _ _ idx 0 + GatherDims.batchCoord _ _ 0 + GatherDims.offCoord _ _ 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsi : ∀ (c : Fin 1), (GatherDims.mk (s := ⟨2, ![N, D]⟩) (si := ⟨2, ![n, 1]⟩) (t := ⟨2, ![n, D]⟩) [1] [0] [] [] [0] 1 ![1, D] wf).siIdx (ix2 p f) c = ixP p := by
      intro c
      funext b; refine Fin.ext ?_
      match b with
      | ⟨0, _⟩ => rfl
      | ⟨1, _⟩ => exact Nat.lt_one_iff.mp c.isLt
    rw [hsi]
    rfl
  | ⟨1, _⟩ =>
    show GatherDims.start _ _ idx 1 + GatherDims.batchCoord _ _ 1 + GatherDims.offCoord _ _ 1 = _
    rw [GatherDims.batchCoord_eq_zero _ _ _ List.not_mem_nil]
    unfold GatherDims.start
    rw [dif_neg (show (1 : Fin 2) ∉ [0] by decide)]
    simp only [Nat.zero_add]
    rfl

/-- An update lands on operand index i exactly when, on every axis, its start plus its window coordinate is i's coordinate. -/
theorem resultIdx?_eq_some_iff {s si u : Shape} (d : ScatterDims s si u) {w : ℕ} (j : u.Idx) (idx : IVec si w) (i : s.Idx) :
    d.resultIdx? j idx = some i ↔ ∀ a, d.start j idx a + (d.window j a : ℤ) = ((i a).val : ℤ) := by
  unfold ScatterDims.resultIdx?
  split
  · next h =>
    constructor
    · intro e a
      have e' := congrArg (fun g : s.Idx => (g a).val) (Option.some.inj e)
      simp only at e'
      have := h a
      omega
    · intro e
      congr 1
      funext a
      refine Fin.ext ?_
      have := e a
      simp only
      omega
  · next h =>
    constructor
    · intro e; cases e
    · intro e
      exfalso
      apply h
      intro a
      have := e a
      have := (i a).isLt
      omega

/-- An accumulating scatter into an [N] vector at an [n × 1] column of positions, at the exact instance: entry i is the
    target's entry plus the sum of the updates whose position, read signed, is i. -/
theorem scatterAdd_flat {N n w : ℕ} (d : ScatterDims ⟨1, ![N]⟩ ⟨2, ![n, 1]⟩ ⟨1, ![n]⟩)
    (huw : d.updateWindowDims = []) (hiw : d.insertedWindowDims = [0]) (hsd : d.scatterDimsToOperandDims = [0])
    (hivd : d.indexVectorDim = 1)
    (x : FVec Ideal ⟨1, ![N]⟩ .f32) (idx : IVec ⟨2, ![n, 1]⟩ w) (upd : FVec Ideal ⟨1, ![n]⟩ .f32) (i : Fin N) :
    Host.scatterAdd (F := Ideal) d x idx upd (ix1 i)
      = x (ix1 i) + ∑ e ∈ Finset.univ.filter (fun e : Fin n => (idx (ixP e)).toInt = (i.val : ℤ)), upd (ix1 e) := by
  obtain ⟨uw, iw, sd, iv, wf⟩ := d
  dsimp only at huw hiw hsd hivd
  subst huw hiw hsd hivd
  have hstart : ∀ j : (⟨1, ![n]⟩ : Shape).Idx,
      (ScatterDims.mk (s := ⟨1, ![N]⟩) (si := ⟨2, ![n, 1]⟩) (u := ⟨1, ![n]⟩) [] [0] [0] 1 wf).start j idx 0 = (idx (ixP (j 0))).toInt := by
    intro j
    unfold ScatterDims.start
    rw [dif_pos (List.mem_singleton.mpr rfl)]
    congr 2
    funext b; refine Fin.ext ?_
    match b with
    | ⟨0, _⟩ => rfl
    | ⟨1, _⟩ => rfl
  have hwin : ∀ j : (⟨1, ![n]⟩ : Shape).Idx,
      (ScatterDims.mk (s := ⟨1, ![N]⟩) (si := ⟨2, ![n, 1]⟩) (u := ⟨1, ![n]⟩) [] [0] [0] 1 wf).window j 0 = 0 := by
    intro j
    unfold ScatterDims.window
    exact dif_neg (show (0 : Fin 1) ∉ (List.finRange 1).filter (fun a => a ∉ [(0 : Fin 1)]) by decide)
  have hiff : ∀ j : (⟨1, ![n]⟩ : Shape).Idx,
      (ScatterDims.mk (s := ⟨1, ![N]⟩) (si := ⟨2, ![n, 1]⟩) (u := ⟨1, ![n]⟩) [] [0] [0] 1 wf).resultIdx? j idx = some (ix1 i)
        ↔ (idx (ixP (j 0))).toInt = (i.val : ℤ) := by
    intro j
    rw [resultIdx?_eq_some_iff, Fin.forall_fin_one, hstart, hwin]
    simp
  show x (ix1 i) + _ = _
  congr 1
  refine Finset.sum_nbij' (fun j => j 0) (fun e => ix1 e) ?_ ?_ ?_ ?_ ?_
  · intro j hj
    exact Finset.mem_filter.2 ⟨Finset.mem_univ _, (hiff j).1 (Finset.mem_filter.1 hj).2⟩
  · intro e he
    exact Finset.mem_filter.2 ⟨Finset.mem_univ _, (hiff (ix1 e)).2 (Finset.mem_filter.1 he).2⟩
  · intro j _
    exact (eq_ix1 j).symm
  · intro e _
    rfl
  · intro j _
    exact congrArg upd (eq_ix1 j)

/-- An accumulating scatter of [n × D] rows into the rows of an [N × D] matrix at an [n × 1] column of row positions, at
    the exact instance: entry (i, f) is the target's entry plus the sum, over the update rows whose position read signed
    is i, of their entry f. -/
theorem scatterAdd_rows {N D n w : ℕ} (d : ScatterDims ⟨2, ![N, D]⟩ ⟨2, ![n, 1]⟩ ⟨2, ![n, D]⟩)
    (huw : d.updateWindowDims = [1]) (hiw : d.insertedWindowDims = [0]) (hsd : d.scatterDimsToOperandDims = [0])
    (hivd : d.indexVectorDim = 1)
    (x : FVec Ideal ⟨2, ![N, D]⟩ .f32) (idx : IVec ⟨2, ![n, 1]⟩ w) (upd : FVec Ideal ⟨2, ![n, D]⟩ .f32) (i : Fin N) (f : Fin D) :
    Host.scatterAdd (F := Ideal) d x idx upd (ix2 i f)
      = x (ix2 i f) + ∑ e ∈ Finset.univ.filter (fun e : Fin n => (idx (ixP e)).toInt = (i.val : ℤ)), upd (ix2 e f) := by
  obtain ⟨uw, iw, sd, iv, wf⟩ := d
  dsimp only at huw hiw hsd hivd
  subst huw hiw hsd hivd
  have hstart0 : ∀ j : (⟨2, ![n, D]⟩ : Shape).Idx,
      (ScatterDims.mk (s := ⟨2, ![N, D]⟩) (si := ⟨2, ![n, 1]⟩) (u := ⟨2, ![n, D]⟩) [1] [0] [0] 1 wf).start j idx 0 = (idx (ixP (j 0))).toInt := by
    intro j
    unfold ScatterDims.start
    rw [dif_pos (List.mem_singleton.mpr rfl)]
    congr 2
    funext b; refine Fin.ext ?_
    match b with
    | ⟨0, _⟩ => rfl
    | ⟨1, _⟩ => rfl
  have hstart1 : ∀ j : (⟨2, ![n, D]⟩ : Shape).Idx,
      (ScatterDims.mk (s := ⟨2, ![N, D]⟩) (si := ⟨2, ![n, 1]⟩) (u := ⟨2, ![n, D]⟩) [1] [0] [0] 1 wf).start j idx 1 = 0 := by
    intro j
    unfold ScatterDims.start
    rw [dif_neg (show (1 : Fin 2) ∉ [0] by decide)]
  have hwin0 : ∀ j : (⟨2, ![n, D]⟩ : Shape).Idx,
      (ScatterDims.mk (s := ⟨2, ![N, D]⟩) (si := ⟨2, ![n, 1]⟩) (u := ⟨2, ![n, D]⟩) [1] [0] [0] 1 wf).window j 0 = 0 := by
    intro j
    unfold ScatterDims.window
    exact dif_neg (show (0 : Fin 2) ∉ (List.finRange 2).filter (fun a => a ∉ [(0 : Fin 2)]) by decide)
  have hwin1 : ∀ j : (⟨2, ![n, D]⟩ : Shape).Idx,
      (ScatterDims.mk (s := ⟨2, ![N, D]⟩) (si := ⟨2, ![n, 1]⟩) (u := ⟨2, ![n, D]⟩) [1] [0] [0] 1 wf).window j 1 = (j 1).val := by
    intro j
    unfold ScatterDims.window
    exact (dif_pos (show (1 : Fin 2) ∈ (List.finRange 2).filter (fun a => a ∉ [(0 : Fin 2)]) by decide)).trans rfl
  have hiff : ∀ j : (⟨2, ![n, D]⟩ : Shape).Idx,
      (ScatterDims.mk (s := ⟨2, ![N, D]⟩) (si := ⟨2, ![n, 1]⟩) (u := ⟨2, ![n, D]⟩) [1] [0] [0] 1 wf).resultIdx? j idx = some (ix2 i f)
        ↔ (idx (ixP (j 0))).toInt = (i.val : ℤ) ∧ j 1 = f := by
    intro j
    rw [resultIdx?_eq_some_iff, Fin.forall_fin_two, hstart0, hwin0, hstart1, hwin1]
    show (idx (ixP (j 0))).toInt + ((0 : ℕ) : ℤ) = (i.val : ℤ) ∧ (0 : ℤ) + ((j 1).val : ℤ) = (f.val : ℤ) ↔ _
    constructor
    · rintro ⟨h0, h1⟩
      exact ⟨by omega, Fin.ext (by omega)⟩
    · rintro ⟨h0, h1⟩
      subst h1
      exact ⟨by omega, by omega⟩
  show x (ix2 i f) + _ = _
  congr 1
  refine Finset.sum_nbij' (fun j => j 0) (fun e => ix2 e f) ?_ ?_ ?_ ?_ ?_
  · intro j hj
    exact Finset.mem_filter.2 ⟨Finset.mem_univ _, ((hiff j).1 (Finset.mem_filter.1 hj).2).1⟩
  · intro e he
    exact Finset.mem_filter.2 ⟨Finset.mem_univ _, (hiff (ix2 e f)).2 ⟨(Finset.mem_filter.1 he).2, rfl⟩⟩
  · intro j hj
    have h1 := ((hiff j).1 (Finset.mem_filter.1 hj).2).2
    rw [← h1]
    exact (eq_ix2 j).symm
  · intro e _
    rfl
  · intro j hj
    have h1 := ((hiff j).1 (Finset.mem_filter.1 hj).2).2
    rw [← h1]
    exact congrArg upd (eq_ix2 j)

end Cert.LibSG

end
-- ==== Proof.Shared.lean ====
/-
  The edge coefficients and the self-coefficients, as both programs compute them from the index words: the degree of a
  node is one plus the number of edges whose head it is, `isq` is its reciprocal square root, an edge's coefficient is
  `isq (tail) · isq (head)` and a node's self-coefficient `isq · isq`.  A degree is at least one, so `isq` is a
  positive real and every coefficient is non-negative.
-/
import proofs.«425410_j807453851818_3_alg».proof.Proof.Gen.ReferenceIdeal.Read
import proofs.«425410_j807453851818_3_alg».proof.Proof.SpecDefs
import proofs.«425410_j807453851818_3_alg».proof.Proof.LibScatterGather
import proofs.«425410_j807453851818_3_alg».proof.Proof.LibWords
import Idealize.ShloMosaic.Lib.StableHlo.Predicate

noncomputable section

open scoped BigOperators

namespace Cert.Shared

open Idealize.ShloMosaic Idealize.ShloMosaic.TcCoe Idealize.ShloMosaic.ValueIdx Idealize.SL.Sem
open Cert.ReferenceIdeal Cert.ReferenceIdeal.Gen Cert.ReferenceIdeal.Read Cert.Spec

/-- The edge coefficients, by edge. -/
def coefT (x1 : IVec S2x1600000 32) : Vc 1600000 := f1 (a := 1600000) (val_main_v25 (F := Ideal) x1)
/-- The self-coefficients, by node. -/
def scT (x1 : IVec S2x1600000 32) : Vc 100000 := fcol (a := 100000) (val_main_v27 (F := Ideal) x1)

/-- The reciprocal square root of a non-negative extended real is non-negative: 0 at ⊤, ⊤ at 0, (√r)⁻¹ at a real r > 0. -/
theorem rsqrt_nonneg (y : EReal) (hy : 0 ≤ y) : 0 ≤ Ideal.rsqrt y := by
  induction y using EReal.rec with
  | bot => exact absurd hy (by simp)
  | top => rw [Ideal.rsqrt_top]
  | coe r =>
    have hr : 0 ≤ r := by exact_mod_cast hy
    rw [Ideal.rsqrt_coe, if_neg (not_lt.mpr hr)]
    split
    · exact le_top
    · exact_mod_cast inv_nonneg.mpr (Real.sqrt_nonneg r)

/-- The scatter that counts heads, at node k: 0 plus the sum of a one for every edge whose head word, read signed, is k. -/
theorem deg_eq (x1 : IVec S2x1600000 32) (k : Fin 100000) :
    val_main_v7 (F := Ideal) x1 (ix1 k)
      = val_main_v5 (F := Ideal) (ix1 k) + ∑ e ∈ Finset.univ.filter (fun e : Fin 1600000 =>
          (val_main_v6 (F := Ideal) x1 (Idealize.ShloMosaic.StableHlo.Predicate.ixP e)).toInt = (k.val : ℤ)), val_main_v4 (F := Ideal) (ix1 e) :=
  Cert.LibSG.scatterAdd_flat (N := 100000) (n := 1600000) (w := 32)
    scatter_S100000_S1600000x1_S1600000_n_0_0_1 rfl rfl rfl rfl
    (val_main_v5 (F := Ideal)) (val_main_v6 (F := Ideal) x1) (val_main_v4 (F := Ideal)) k

/-- The number of edges whose head is a node, as the scatter computes it, is non-negative. -/
theorem deg_nonneg (x1 : IVec S2x1600000 32) (i : S100000.Idx) : 0 ≤ val_main_v7 (F := Ideal) x1 i := by
  obtain ⟨k, rfl⟩ : ∃ k : Fin 100000, i = ix1 k := ⟨i 0, eq_ix1 i⟩
  have h0 : val_main_v5 (F := Ideal) (ix1 k) = 0 := by
    rw [val_main_v5_apply, val_main_cst_0_apply, Ideal.ofBits_def]
    exact Cert.LibWords.ofBits_zero
  have h1 : ∀ e : Fin 1600000, val_main_v4 (F := Ideal) (ix1 e) = 1 := by
    intro e
    rw [val_main_v4_apply, val_main_cst_apply, Ideal.ofBits_def]
    exact Cert.LibWords.ofBits_one
  rw [deg_eq, h0, zero_add]
  refine Finset.sum_nonneg fun e _ => ?_
  rw [h1 e]
  exact zero_le_one

/-- Every entry of the reciprocal square root of the degrees is non-negative: a degree is 1 plus a sum of ones. -/
theorem isq_nonneg (x1 : IVec S2x1600000 32) (i : S100000.Idx) : 0 ≤ val_main_v10 (F := Ideal) x1 i := by
  rw [val_main_v10_apply, Ideal.hostUnary_rsqrt_def]
  refine rsqrt_nonneg _ ?_
  rw [val_main_v9_apply, Ideal.addf_def]
  refine add_nonneg (deg_nonneg x1 i) ?_
  rw [val_main_v8_apply, val_main_cst_1_apply, Ideal.ofBits_def, Cert.LibWords.ofBits_one]
  exact zero_le_one

/-- Every edge coefficient is non-negative: a product of two entries of the reciprocal square root. -/
theorem coefT_nonneg (x1 : IVec S2x1600000 32) (e : Fin 1600000) : 0 ≤ coefT x1 e := by
  show 0 ≤ val_main_v25 (F := Ideal) x1 (ix1 e)
  rw [val_main_v25_apply, Ideal.mulf_def]
  -- each factor is a gathered entry of the reciprocal square root, whichever entry it is
  refine mul_nonneg ?_ ?_
  · unfold val_main_v17 Host.gather
    exact isq_nonneg x1 _
  · unfold val_main_v24 Host.gather
    exact isq_nonneg x1 _

end Cert.Shared

end
-- ==== Proof.RefLayers.lean ====
/-
  The reference's three layers, read entry by entry.  In each layer the transformed features `h · W` are gathered at the
  edges' tails, multiplied by the edge coefficients, and added into the edges' heads by an accumulating scatter into zeros;
  the self term and the bias are added and (in the first two layers) the result is rectified.  With every index word a
  node number, the gather reads the tail's row, and the scatter's sum runs over the edges whose head is the row.
-/
import proofs.«425410_j807453851818_3_alg».proof.Proof.Shared
import proofs.«425410_j807453851818_3_alg».proof.Proof.LibScatterGather
import proofs.«425410_j807453851818_3_alg».proof.Proof.LibWords

noncomputable section

open scoped BigOperators

namespace Cert.RefLayers

open Idealize.ShloMosaic Idealize.ShloMosaic.TcCoe Idealize.ShloMosaic.ValueIdx Idealize.SL.Sem
open Cert.ReferenceIdeal Cert.ReferenceIdeal.Gen Cert.ReferenceIdeal.Read Cert.Spec

open Cert.Shared

/-! ## Words -/

/-- The negative-index wrap keeps a small non-negative word: it is not below zero, so the select takes the word itself. -/
theorem wrap_keep (w c : BitVec 32) (hw : w.toNat < 2 ^ 31) :
    Scalar.select (IntOp.cmpi .slt w 0#32) (IntOp.addi w c) w = w := by
  rw [Cert.LibWords.cmpi_slt_zero w hw]
  exact select_zero _ _

/-- The flattened first row of the index words, at e: the tail word of edge e. -/
theorem tailw (x1 : IVec S2x1600000 32) (e : Fin 1600000) : val_main_v1 (F := Ideal) x1 (ix1 e) = x1 (ix2 (0 : Fin 2) e) := by
  rw [val_main_v1_apply, val_main_v0_apply]
  congr 1
  funext a
  match a with
  | ⟨0, _⟩ => rfl
  | ⟨1, _⟩ => exact Fin.ext (Nat.mod_eq_of_lt e.isLt)

/-- The flattened second row of the index words, at e: the head word of edge e. -/
theorem headw (x1 : IVec S2x1600000 32) (e : Fin 1600000) : val_main_v3 (F := Ideal) x1 (ix1 e) = x1 (ix2 (1 : Fin 2) e) := by
  rw [val_main_v3_apply, val_main_v2_apply]
  congr 1
  funext a
  match a with
  | ⟨0, _⟩ => rfl
  | ⟨1, _⟩ => exact Fin.ext (Nat.mod_eq_of_lt e.isLt)

/-! ## One layer, for any width -/

/-- The aggregation: gathering the rows of hw at the tails, weighting by the edge coefficients and adding into zeros at the
    heads gives, at (i, f), the sum over the edges with head i of hw (tail, f) · coefficient. -/
theorem agg_eq {D : ℕ} (dg : GatherDims ⟨2, ![100000, D]⟩ ⟨2, ![1600000, 1]⟩ ⟨2, ![1600000, D]⟩)
    (hoff : dg.offsetDims = [1]) (hcoll : dg.collapsedSliceDims = [0]) (hob : dg.operandBatchingDims = [])
    (hsb : dg.startIndicesBatchingDims = []) (hsim : dg.startIndexMap = [0]) (hivd : dg.indexVectorDim = 1)
    (hss : dg.sliceSizes = ![1, D])
    (ds : ScatterDims ⟨2, ![100000, D]⟩ ⟨2, ![1600000, 1]⟩ ⟨2, ![1600000, D]⟩)
    (huw : ds.updateWindowDims = [1]) (hiw : ds.insertedWindowDims = [0]) (hsd : ds.scatterDimsToOperandDims = [0])
    (hivd' : ds.indexVectorDim = 1)
    (x1 : IVec S2x1600000 32) (hr : InRange x1)
    (hw z : FVec Ideal ⟨2, ![100000, D]⟩ .f32) (scol dcol : IVec ⟨2, ![1600000, 1]⟩ 32)
    (cf : FVec Ideal ⟨2, ![1600000, D]⟩ .f32)
    (hz : ∀ i f, z (ix2 i f) = 0)
    (hs : ∀ e, scol (Idealize.ShloMosaic.StableHlo.Predicate.ixP e) = x1 (ix2 (0 : Fin 2) e))
    (hd : ∀ e, dcol (Idealize.ShloMosaic.StableHlo.Predicate.ixP e) = x1 (ix2 (1 : Fin 2) e))
    (hc : ∀ e f, cf (ix2 e f) = coefT x1 e) (i : Fin 100000) (f : Fin D) :
    Host.scatterAdd (F := Ideal) ds z dcol (mulf (Host.gather dg hw scol) cf) (ix2 i f)
      = aggR (srcOf x1) (dstOf x1) (coefT x1) (f2 (a := 100000) (b := D) hw) i f := by
  rw [Cert.LibSG.scatterAdd_rows ds huw hiw hsd hivd', hz, zero_add]
  unfold aggR
  -- an edge's head word, read signed, is i exactly when the edge's head is i
  have hfilt : ∀ e : Fin 1600000,
      (dcol (Idealize.ShloMosaic.StableHlo.Predicate.ixP e)).toInt = (i.val : ℤ) ↔ dstOf x1 e = i := by
    intro e
    have hlt := hr 1 e
    have hti : (x1 (ix2 (1 : Fin 2) e)).toInt = ((x1 (ix2 (1 : Fin 2) e)).toNat : ℤ) :=
      Cert.LibWords.toInt_of_lt (by omega)
    rw [hd e, Fin.ext_iff]
    show _ ↔ min (x1 (ix2 (1 : Fin 2) e)).toInt.toNat 99999 = i.val
    rw [hti, Int.toNat_natCast]
    omega
  refine Finset.sum_congr (Finset.filter_congr fun e _ => hfilt e) fun e _ => ?_
  rw [mulf_apply, Cert.LibSG.gather_rows dg hoff hcoll hob hsb hsim hivd hss hw scol e f (by omega), hc]
  congr 1
  -- the row read is the tail: the tail word read signed and clamped
  show hw (ix2 _ f) = hw (ix2 (srcOf x1 e) f)
  refine congrArg (fun r : Fin 100000 => hw (ix2 r f)) (Fin.ext ?_)
  show min (scol (Idealize.ShloMosaic.StableHlo.Predicate.ixP e)).toInt.toNat (100000 - 1) = min (x1 (ix2 (0 : Fin 2) e)).toInt.toNat 99999
  rw [hs e]

/-- One layer before the rectifier: aggregation plus self term plus bias. -/
theorem layer_eq {D : ℕ} (dg : GatherDims ⟨2, ![100000, D]⟩ ⟨2, ![1600000, 1]⟩ ⟨2, ![1600000, D]⟩)
    (hoff : dg.offsetDims = [1]) (hcoll : dg.collapsedSliceDims = [0]) (hob : dg.operandBatchingDims = [])
    (hsb : dg.startIndicesBatchingDims = []) (hsim : dg.startIndexMap = [0]) (hivd : dg.indexVectorDim = 1)
    (hss : dg.sliceSizes = ![1, D])
    (ds : ScatterDims ⟨2, ![100000, D]⟩ ⟨2, ![1600000, 1]⟩ ⟨2, ![1600000, D]⟩)
    (huw : ds.updateWindowDims = [1]) (hiw : ds.insertedWindowDims = [0]) (hsd : ds.scatterDimsToOperandDims = [0])
    (hivd' : ds.indexVectorDim = 1)
    (x1 : IVec S2x1600000 32) (hr : InRange x1)
    (hw z : FVec Ideal ⟨2, ![100000, D]⟩ .f32) (scol dcol : IVec ⟨2, ![1600000, 1]⟩ 32)
    (cf : FVec Ideal ⟨2, ![1600000, D]⟩ .f32) (scb bb : FVec Ideal ⟨2, ![100000, D]⟩ .f32) (b : Vc D)
    (hz : ∀ i f, z (ix2 i f) = 0)
    (hs : ∀ e, scol (Idealize.ShloMosaic.StableHlo.Predicate.ixP e) = x1 (ix2 (0 : Fin 2) e))
    (hd : ∀ e, dcol (Idealize.ShloMosaic.StableHlo.Predicate.ixP e) = x1 (ix2 (1 : Fin 2) e))
    (hc : ∀ e f, cf (ix2 e f) = coefT x1 e)
    (hsc : ∀ i f, scb (ix2 i f) = scT x1 i) (hb : ∀ i f, bb (ix2 i f) = b f) (i : Fin 100000) (f : Fin D) :
    addf (addf (Host.scatterAdd (F := Ideal) ds z dcol (mulf (Host.gather dg hw scol) cf)) (mulf hw scb)) bb (ix2 i f)
      = layer (aggR (srcOf x1) (dstOf x1) (coefT x1) (f2 (a := 100000) (b := D) hw)) (f2 (a := 100000) (b := D) hw) (scT x1) b i f := by
  rw [addf_apply, addf_apply, mulf_apply,
    agg_eq dg hoff hcoll hob hsb hsim hivd hss ds huw hiw hsd hivd' x1 hr hw z scol dcol cf hz hs hd hc i f, hsc, hb]
  rfl

/-! ## The first layer's pieces -/

/-- The first layer's gather reads, at edge e, the tail word: under the range hypothesis the negative-index wrap keeps it. -/
theorem scol1 (x1 : IVec S2x1600000 32) (hr : InRange x1) (e : Fin 1600000) :
    val_main_v34 (F := Ideal) x1 (Idealize.ShloMosaic.StableHlo.Predicate.ixP e) = x1 (ix2 (0 : Fin 2) e) := by
  have hi : idx_main_v34 (Idealize.ShloMosaic.StableHlo.Predicate.ixP e) = ix1 e := by
    funext a; match a with | ⟨0, _⟩ => rfl
  rw [val_main_v34_apply, hi, val_main_v33_apply, val_main_v30_apply, val_main_v32_apply, val_main_v29_apply,
    val_main_c_5_apply, tailw]
  exact wrap_keep _ _ (by have := hr 0 e; omega)

/-- The first layer's scatter lands, for edge e, at the head word. -/
theorem dcol1 (x1 : IVec S2x1600000 32) (e : Fin 1600000) :
    val_main_v40 (F := Ideal) x1 (Idealize.ShloMosaic.StableHlo.Predicate.ixP e) = x1 (ix2 (1 : Fin 2) e) := by
  have hi : idx_main_v40 (Idealize.ShloMosaic.StableHlo.Predicate.ixP e) = ix1 e := by
    funext a; match a with | ⟨0, _⟩ => rfl
  rw [val_main_v40_apply, hi, headw]

/-- The first layer's coefficient array is constant along a row: the edge's coefficient. -/
theorem cf1 (x1 : IVec S2x1600000 32) (e : Fin 1600000) (f : Fin 128) :
    val_main_v37 (F := Ideal) x1 (ix2 e f) = coefT x1 e := by
  have hi : idx_main_v36 (idx_main_v37 (ix2 e f)) = ix1 e := by
    funext a; match a with | ⟨0, _⟩ => rfl
  rw [val_main_v37_apply, val_main_v36_apply, hi]
  rfl

/-- The first layer's scatter target is zero everywhere. -/
theorem z1 (i : Fin 100000) (f : Fin 128) : val_main_v39 (F := Ideal) (ix2 i f) = 0 := by
  rw [val_main_v39_apply, val_main_cst_7_apply, Ideal.ofBits_def]
  exact Cert.LibWords.ofBits_zero

/-- The first layer's self-coefficient array is constant along a row: the node's self-coefficient. -/
theorem scb1 (x1 : IVec S2x1600000 32) (i : Fin 100000) (f : Fin 128) :
    val_main_v42 (F := Ideal) x1 (ix2 i f) = scT x1 i := by
  have hi : idx_main_v42 (ix2 i f) = ix2 i (0 : Fin 1) := by
    funext a; match a with | ⟨0, _⟩ => rfl | ⟨1, _⟩ => rfl
  rw [val_main_v42_apply, hi]
  rfl

/-- The first layer's bias array is constant along a column: the bias entry. -/
theorem bb1 (x4 : FVec Ideal S128 .f32) (i : Fin 100000) (f : Fin 128) :
    val_main_v46 (F := Ideal) x4 (ix2 i f) = f1 (a := 128) x4 f := by
  have hi : idx_main_v45 (idx_main_v46 (ix2 i f)) = ix1 f := by
    funext a; match a with | ⟨0, _⟩ => rfl
  rw [val_main_v46_apply, val_main_v45_apply, hi]
  rfl

/-- The first layer's transformed features are the matrix product of its input with its weights. -/
theorem lin1 (x0 : FVec Ideal S100000x128 .f32) (x3 : FVec Ideal S128x128 .f32) :
    f2 (a := 100000) (b := 128) (val_main_v28 (F := Ideal) x0 x3)
      = lin (f2 (a := 100000) (b := 128) x0) (f2 (a := 128) (b := 128) x3) := by
  funext i f
  show val_main_v28 (F := Ideal) x0 x3 (ix2 i f) = ∑ k : Fin 128, x0 (ix2 i k) * x3 (ix2 k f)
  rw [val_main_v28_apply]
  refine Finset.sum_congr rfl fun k _ => ?_
  have hl : lidx_main_v28 (ix2 i f) k = ix2 i k := by
    funext a; match a with | ⟨0, _⟩ => rfl | ⟨1, _⟩ => rfl
  have hr' : ridx_main_v28 (ix2 i f) k = ix2 k f := by
    funext a; match a with | ⟨0, _⟩ => rfl | ⟨1, _⟩ => rfl
  rw [hl, hr']

/-- The first layer before the rectifier, entry by entry: aggregation plus self term plus bias. -/
theorem pre1 (x0 : FVec Ideal S100000x128 .f32) (x1 : IVec S2x1600000 32) (x3 : FVec Ideal S128x128 .f32) (x4 : FVec Ideal S128 .f32) (hr : InRange x1) (i : Fin 100000) (f : Fin 128) :
    val_main_v47 (F := Ideal) x0 x1 x3 x4 (ix2 i f)
      = layer (aggR (srcOf x1) (dstOf x1) (coefT x1) (f2 (a := 100000) (b := 128) (val_main_v28 (F := Ideal) x0 x3)))
          (f2 (a := 100000) (b := 128) (val_main_v28 (F := Ideal) x0 x3)) (scT x1) (f1 (a := 128) x4) i f := by
  unfold val_main_v47 val_main_v44 val_main_v41 val_main_v38 val_main_v35 val_main_v43
  exact layer_eq (D := 128) gather_S100000x128_S1600000x1_S1600000x128_1_0_n_n_0_1_1128 rfl rfl rfl rfl rfl rfl rfl
    scatter_S100000x128_S1600000x1_S1600000x128_1_0_0_1 rfl rfl rfl rfl x1 hr
    (val_main_v28 (F := Ideal) x0 x3) (val_main_v39 (F := Ideal)) (val_main_v34 (F := Ideal) x1) (val_main_v40 (F := Ideal) x1)
    (val_main_v37 (F := Ideal) x1) (val_main_v42 (F := Ideal) x1) (val_main_v46 (F := Ideal) x4) (f1 (a := 128) x4)
    z1 (scol1 x1 hr) (dcol1 x1) (cf1 x1) (scb1 x1) (bb1 x4) i f

/-- The first layer's rectifier compares with zero everywhere. -/
theorem relu0_1 (i : S100000x128.Idx) : val_main_call0_v0 (F := Ideal) i = 0 := by
  rw [val_main_call0_v0_apply, val_main_call0_cst_apply, Ideal.ofBits_def]
  exact Cert.LibWords.ofBits_zero

/-! ## The second layer's pieces -/

/-- The second layer's gather reads, at edge e, the tail word: under the range hypothesis the negative-index wrap keeps it. -/
theorem scol2 (x1 : IVec S2x1600000 32) (hr : InRange x1) (e : Fin 1600000) :
    val_main_v55 (F := Ideal) x1 (Idealize.ShloMosaic.StableHlo.Predicate.ixP e) = x1 (ix2 (0 : Fin 2) e) := by
  have hi : idx_main_v55 (Idealize.ShloMosaic.StableHlo.Predicate.ixP e) = ix1 e := by
    funext a; match a with | ⟨0, _⟩ => rfl
  rw [val_main_v55_apply, hi, val_main_v54_apply, val_main_v51_apply, val_main_v53_apply, val_main_v50_apply,
    val_main_c_8_apply, tailw]
  exact wrap_keep _ _ (by have := hr 0 e; omega)

/-- The second layer's scatter lands, for edge e, at the head word. -/
theorem dcol2 (x1 : IVec S2x1600000 32) (e : Fin 1600000) :
    val_main_v61 (F := Ideal) x1 (Idealize.ShloMosaic.StableHlo.Predicate.ixP e) = x1 (ix2 (1 : Fin 2) e) := by
  have hi : idx_main_v61 (Idealize.ShloMosaic.StableHlo.Predicate.ixP e) = ix1 e := by
    funext a; match a with | ⟨0, _⟩ => rfl
  rw [val_main_v61_apply, hi, headw]

/-- The second layer's coefficient array is constant along a row: the edge's coefficient. -/
theorem cf2 (x1 : IVec S2x1600000 32) (e : Fin 1600000) (f : Fin 128) :
    val_main_v58 (F := Ideal) x1 (ix2 e f) = coefT x1 e := by
  have hi : idx_main_v57 (idx_main_v58 (ix2 e f)) = ix1 e := by
    funext a; match a with | ⟨0, _⟩ => rfl
  rw [val_main_v58_apply, val_main_v57_apply, hi]
  rfl

/-- The second layer's scatter target is zero everywhere. -/
theorem z2 (i : Fin 100000) (f : Fin 128) : val_main_v60 (F := Ideal) (ix2 i f) = 0 := by
  rw [val_main_v60_apply, val_main_cst_10_apply, Ideal.ofBits_def]
  exact Cert.LibWords.ofBits_zero

/-- The second layer's self-coefficient array is constant along a row: the node's self-coefficient. -/
theorem scb2 (x1 : IVec S2x1600000 32) (i : Fin 100000) (f : Fin 128) :
    val_main_v63 (F := Ideal) x1 (ix2 i f) = scT x1 i := by
  have hi : idx_main_v63 (ix2 i f) = ix2 i (0 : Fin 1) := by
    funext a; match a with | ⟨0, _⟩ => rfl | ⟨1, _⟩ => rfl
  rw [val_main_v63_apply, hi]
  rfl

/-- The second layer's bias array is constant along a column: the bias entry. -/
theorem bb2 (x6 : FVec Ideal S128 .f32) (i : Fin 100000) (f : Fin 128) :
    val_main_v67 (F := Ideal) x6 (ix2 i f) = f1 (a := 128) x6 f := by
  have hi : idx_main_v66 (idx_main_v67 (ix2 i f)) = ix1 f := by
    funext a; match a with | ⟨0, _⟩ => rfl
  rw [val_main_v67_apply, val_main_v66_apply, hi]
  rfl

/-- The second layer's transformed features are the matrix product of its input with its weights. -/
theorem lin2 (x0 : FVec Ideal S100000x128 .f32) (x1 : IVec S2x1600000 32) (x3 : FVec Ideal S128x128 .f32) (x4 : FVec Ideal S128 .f32) (x5 : FVec Ideal S128x128 .f32) :
    f2 (a := 100000) (b := 128) (val_main_v49 (F := Ideal) x0 x1 x3 x4 x5)
      = lin (f2 (a := 100000) (b := 128) (val_main_v48 (F := Ideal) x0 x1 x3 x4)) (f2 (a := 128) (b := 128) x5) := by
  funext i f
  show val_main_v49 (F := Ideal) x0 x1 x3 x4 x5 (ix2 i f) = ∑ k : Fin 128, (val_main_v48 (F := Ideal) x0 x1 x3 x4) (ix2 i k) * x5 (ix2 k f)
  rw [val_main_v49_apply]
  refine Finset.sum_congr rfl fun k _ => ?_
  have hl : lidx_main_v49 (ix2 i f) k = ix2 i k := by
    funext a; match a with | ⟨0, _⟩ => rfl | ⟨1, _⟩ => rfl
  have hr' : ridx_main_v49 (ix2 i f) k = ix2 k f := by
    funext a; match a with | ⟨0, _⟩ => rfl | ⟨1, _⟩ => rfl
  rw [hl, hr']

/-- The second layer before the rectifier, entry by entry: aggregation plus self term plus bias. -/
theorem pre2 (x0 : FVec Ideal S100000x128 .f32) (x1 : IVec S2x1600000 32) (x3 : FVec Ideal S128x128 .f32) (x4 : FVec Ideal S128 .f32) (x5 : FVec Ideal S128x128 .f32) (x6 : FVec Ideal S128 .f32) (hr : InRange x1) (i : Fin 100000) (f : Fin 128) :
    val_main_v68 (F := Ideal) x0 x1 x3 x4 x5 x6 (ix2 i f)
      = layer (aggR (srcOf x1) (dstOf x1) (coefT x1) (f2 (a := 100000) (b := 128) (val_main_v49 (F := Ideal) x0 x1 x3 x4 x5)))
          (f2 (a := 100000) (b := 128) (val_main_v49 (F := Ideal) x0 x1 x3 x4 x5)) (scT x1) (f1 (a := 128) x6) i f := by
  unfold val_main_v68 val_main_v65 val_main_v62 val_main_v59 val_main_v56 val_main_v64
  exact layer_eq (D := 128) gather_S100000x128_S1600000x1_S1600000x128_1_0_n_n_0_1_1128 rfl rfl rfl rfl rfl rfl rfl
    scatter_S100000x128_S1600000x1_S1600000x128_1_0_0_1 rfl rfl rfl rfl x1 hr
    (val_main_v49 (F := Ideal) x0 x1 x3 x4 x5) (val_main_v60 (F := Ideal)) (val_main_v55 (F := Ideal) x1) (val_main_v61 (F := Ideal) x1)
    (val_main_v58 (F := Ideal) x1) (val_main_v63 (F := Ideal) x1) (val_main_v67 (F := Ideal) x6) (f1 (a := 128) x6)
    z2 (scol2 x1 hr) (dcol2 x1) (cf2 x1) (scb2 x1) (bb2 x6) i f

/-- The second layer's rectifier compares with zero everywhere. -/
theorem relu0_2 (i : S100000x128.Idx) : val_main_call1_v0 (F := Ideal) i = 0 := by
  rw [val_main_call1_v0_apply, val_main_call1_cst_apply, Ideal.ofBits_def]
  exact Cert.LibWords.ofBits_zero

/-! ## The third layer's pieces -/

/-- The third layer's gather reads, at edge e, the tail word: under the range hypothesis the negative-index wrap keeps it. -/
theorem scol3 (x1 : IVec S2x1600000 32) (hr : InRange x1) (e : Fin 1600000) :
    val_main_v76 (F := Ideal) x1 (Idealize.ShloMosaic.StableHlo.Predicate.ixP e) = x1 (ix2 (0 : Fin 2) e) := by
  have hi : idx_main_v76 (Idealize.ShloMosaic.StableHlo.Predicate.ixP e) = ix1 e := by
    funext a; match a with | ⟨0, _⟩ => rfl
  rw [val_main_v76_apply, hi, val_main_v75_apply, val_main_v72_apply, val_main_v74_apply, val_main_v71_apply,
    val_main_c_11_apply, tailw]
  exact wrap_keep _ _ (by have := hr 0 e; omega)

/-- The third layer's scatter lands, for edge e, at the head word. -/
theorem dcol3 (x1 : IVec S2x1600000 32) (e : Fin 1600000) :
    val_main_v82 (F := Ideal) x1 (Idealize.ShloMosaic.StableHlo.Predicate.ixP e) = x1 (ix2 (1 : Fin 2) e) := by
  have hi : idx_main_v82 (Idealize.ShloMosaic.StableHlo.Predicate.ixP e) = ix1 e := by
    funext a; match a with | ⟨0, _⟩ => rfl
  rw [val_main_v82_apply, hi, headw]

/-- The third layer's coefficient array is constant along a row: the edge's coefficient. -/
theorem cf3 (x1 : IVec S2x1600000 32) (e : Fin 1600000) (f : Fin 30) :
    val_main_v79 (F := Ideal) x1 (ix2 e f) = coefT x1 e := by
  have hi : idx_main_v78 (idx_main_v79 (ix2 e f)) = ix1 e := by
    funext a; match a with | ⟨0, _⟩ => rfl
  rw [val_main_v79_apply, val_main_v78_apply, hi]
  rfl

/-- The third layer's scatter target is zero everywhere. -/
theorem z3 (i : Fin 100000) (f : Fin 30) : val_main_v81 (F := Ideal) (ix2 i f) = 0 := by
  rw [val_main_v81_apply, val_main_cst_13_apply, Ideal.ofBits_def]
  exact Cert.LibWords.ofBits_zero

/-- The third layer's self-coefficient array is constant along a row: the node's self-coefficient. -/
theorem scb3 (x1 : IVec S2x1600000 32) (i : Fin 100000) (f : Fin 30) :
    val_main_v84 (F := Ideal) x1 (ix2 i f) = scT x1 i := by
  have hi : idx_main_v84 (ix2 i f) = ix2 i (0 : Fin 1) := by
    funext a; match a with | ⟨0, _⟩ => rfl | ⟨1, _⟩ => rfl
  rw [val_main_v84_apply, hi]
  rfl

/-- The third layer's bias array is constant along a column: the bias entry. -/
theorem bb3 (x8 : FVec Ideal S30 .f32) (i : Fin 100000) (f : Fin 30) :
    val_main_v88 (F := Ideal) x8 (ix2 i f) = f1 (a := 30) x8 f := by
  have hi : idx_main_v87 (idx_main_v88 (ix2 i f)) = ix1 f := by
    funext a; match a with | ⟨0, _⟩ => rfl
  rw [val_main_v88_apply, val_main_v87_apply, hi]
  rfl

/-- The third layer's transformed features are the matrix product of its input with its weights. -/
theorem lin3 (x0 : FVec Ideal S100000x128 .f32) (x1 : IVec S2x1600000 32) (x3 : FVec Ideal S128x128 .f32) (x4 : FVec Ideal S128 .f32) (x5 : FVec Ideal S128x128 .f32) (x6 : FVec Ideal S128 .f32) (x7 : FVec Ideal S128x30 .f32) :
    f2 (a := 100000) (b := 30) (val_main_v70 (F := Ideal) x0 x1 x3 x4 x5 x6 x7)
      = lin (f2 (a := 100000) (b := 128) (val_main_v69 (F := Ideal) x0 x1 x3 x4 x5 x6)) (f2 (a := 128) (b := 30) x7) := by
  funext i f
  show val_main_v70 (F := Ideal) x0 x1 x3 x4 x5 x6 x7 (ix2 i f) = ∑ k : Fin 128, (val_main_v69 (F := Ideal) x0 x1 x3 x4 x5 x6) (ix2 i k) * x7 (ix2 k f)
  rw [val_main_v70_apply]
  refine Finset.sum_congr rfl fun k _ => ?_
  have hl : lidx_main_v70 (ix2 i f) k = ix2 i k := by
    funext a; match a with | ⟨0, _⟩ => rfl | ⟨1, _⟩ => rfl
  have hr' : ridx_main_v70 (ix2 i f) k = ix2 k f := by
    funext a; match a with | ⟨0, _⟩ => rfl | ⟨1, _⟩ => rfl
  rw [hl, hr']

/-- The third layer before the rectifier, entry by entry: aggregation plus self term plus bias. -/
theorem pre3 (x0 : FVec Ideal S100000x128 .f32) (x1 : IVec S2x1600000 32) (x3 : FVec Ideal S128x128 .f32) (x4 : FVec Ideal S128 .f32) (x5 : FVec Ideal S128x128 .f32) (x6 : FVec Ideal S128 .f32) (x7 : FVec Ideal S128x30 .f32) (x8 : FVec Ideal S30 .f32) (hr : InRange x1) (i : Fin 100000) (f : Fin 30) :
    val_main_v89 (F := Ideal) x0 x1 x3 x4 x5 x6 x7 x8 (ix2 i f)
      = layer (aggR (srcOf x1) (dstOf x1) (coefT x1) (f2 (a := 100000) (b := 30) (val_main_v70 (F := Ideal) x0 x1 x3 x4 x5 x6 x7)))
          (f2 (a := 100000) (b := 30) (val_main_v70 (F := Ideal) x0 x1 x3 x4 x5 x6 x7)) (scT x1) (f1 (a := 30) x8) i f := by
  unfold val_main_v89 val_main_v86 val_main_v83 val_main_v80 val_main_v77 val_main_v85
  exact layer_eq (D := 30) gather_S100000x30_S1600000x1_S1600000x30_1_0_n_n_0_1_130 rfl rfl rfl rfl rfl rfl rfl
    scatter_S100000x30_S1600000x1_S1600000x30_1_0_0_1 rfl rfl rfl rfl x1 hr
    (val_main_v70 (F := Ideal) x0 x1 x3 x4 x5 x6 x7) (val_main_v81 (F := Ideal)) (val_main_v76 (F := Ideal) x1) (val_main_v82 (F := Ideal) x1)
    (val_main_v79 (F := Ideal) x1) (val_main_v84 (F := Ideal) x1) (val_main_v88 (F := Ideal) x8) (f1 (a := 30) x8)
    z3 (scol3 x1 hr) (dcol3 x1) (cf3 x1) (scb3 x1) (bb3 x8) i f

/-! ## The three layers -/

/-- The first hidden features are the specification's. -/
theorem h1_eq (x0 : FVec Ideal S100000x128 .f32) (x1 : IVec S2x1600000 32) (x3 : FVec Ideal S128x128 .f32) (x4 : FVec Ideal S128 .f32)
    (hr : InRange x1) :
    f2 (a := 100000) (b := 128) (val_main_v48 (F := Ideal) x0 x1 x3 x4)
      = h1R (srcOf x1) (dstOf x1) (coefT x1) (scT x1) (f2 (a := 100000) (b := 128) x0) (f2 (a := 128) (b := 128) x3) (f1 (a := 128) x4) := by
  rw [h1R, ← lin1 x0 x3]
  funext i f
  show val_main_v48 (F := Ideal) x0 x1 x3 x4 (ix2 i f) = max (layer _ _ _ _ i f) 0
  rw [val_main_v48_apply, Ideal.maximumf_def, relu0_1, pre1 x0 x1 x3 x4 hr i f]

/-- The second hidden features are the specification's. -/
theorem h2_eq (x0 : FVec Ideal S100000x128 .f32) (x1 : IVec S2x1600000 32) (x3 : FVec Ideal S128x128 .f32) (x4 : FVec Ideal S128 .f32)
    (x5 : FVec Ideal S128x128 .f32) (x6 : FVec Ideal S128 .f32) (hr : InRange x1) :
    f2 (a := 100000) (b := 128) (val_main_v69 (F := Ideal) x0 x1 x3 x4 x5 x6)
      = h2R (srcOf x1) (dstOf x1) (coefT x1) (scT x1) (f2 (a := 100000) (b := 128) x0) (f2 (a := 128) (b := 128) x3) (f1 (a := 128) x4)
          (f2 (a := 128) (b := 128) x5) (f1 (a := 128) x6) := by
  rw [h2R, ← h1_eq x0 x1 x3 x4 hr, ← lin2 x0 x1 x3 x4 x5]
  funext i f
  show val_main_v69 (F := Ideal) x0 x1 x3 x4 x5 x6 (ix2 i f) = max (layer _ _ _ _ i f) 0
  rw [val_main_v69_apply, Ideal.maximumf_def, relu0_2, pre2 x0 x1 x3 x4 x5 x6 hr i f]

/-- The assignment logits are the specification's. -/
theorem s_eq (x0 : FVec Ideal S100000x128 .f32) (x1 : IVec S2x1600000 32) (x3 : FVec Ideal S128x128 .f32) (x4 : FVec Ideal S128 .f32)
    (x5 : FVec Ideal S128x128 .f32) (x6 : FVec Ideal S128 .f32) (x7 : FVec Ideal S128x30 .f32) (x8 : FVec Ideal S30 .f32) (hr : InRange x1) :
    f2 (a := 100000) (b := 30) (val_main_v89 (F := Ideal) x0 x1 x3 x4 x5 x6 x7 x8)
      = sR (srcOf x1) (dstOf x1) (coefT x1) (scT x1) (f2 (a := 100000) (b := 128) x0) (f2 (a := 128) (b := 128) x3) (f1 (a := 128) x4)
          (f2 (a := 128) (b := 128) x5) (f1 (a := 128) x6) (f2 (a := 128) (b := 30) x7) (f1 (a := 30) x8) := by
  rw [sR, ← h2_eq x0 x1 x3 x4 x5 x6 hr, ← lin3 x0 x1 x3 x4 x5 x6 x7]
  funext i f
  exact pre3 x0 x1 x3 x4 x5 x6 x7 x8 hr i f

end Cert.RefLayers

end
-- ==== Proof.RefHead.lean ====
/-
  The reference's pooling, read at one logit.  The node features and the assignment logits are cut into 50 graphs of
  2000 rows (row (b, n) of the cut is row b · 2000 + n); each row of logits is divided by the temperature 1, shifted
  by its maximum, exponentiated and normalised; the transposed assignment times the features is averaged over the 30
  clusters and sent through the classifier.
-/
import proofs.«425410_j807453851818_3_alg».proof.Proof.Gen.ReferenceIdeal.Read
import proofs.«425410_j807453851818_3_alg».proof.Proof.SpecDefs
import proofs.«425410_j807453851818_3_alg».proof.Proof.LibWords
import Idealize.ShloMosaic.Lib.Pipeline.Value
import Idealize.ShloMosaic.PureOps.Ideal.Laws

noncomputable section

open scoped BigOperators

namespace Cert.RefHead

open Idealize.ShloMosaic Idealize.ShloMosaic.TcCoe Idealize.ShloMosaic.ValueIdx Idealize.SL.Sem
open Cert.ReferenceIdeal Cert.ReferenceIdeal.Gen Cert.ReferenceIdeal.Read Cert.Spec

section Stages

variable (x0 : FVec Ideal S100000x128 .f32) (x1 : IVec S2x1600000 32) (x3 : FVec Ideal S128x128 .f32) (x4 : FVec Ideal S128 .f32)
  (x5 : FVec Ideal S128x128 .f32) (x6 : FVec Ideal S128 .f32) (x7 : FVec Ideal S128x30 .f32) (x8 : FVec Ideal S30 .f32)

/-! ### The cut into graphs: row (b, n) of the cut is row `node b n` -/

/-- Column k of row (b, n) of the cut logits is column k of row b · 2000 + n. -/
theorem idx91 (b : Fin 50) (n : Fin 2000) (k : Fin 30) : idx_main_v91 (ix3 b n k) = ix2 (node b n) k := by
  funext a
  apply Fin.ext
  have hk := k.isLt
  match a with
  | ⟨0, _⟩ => show ((b.val * 2000 + n.val) * 30 + k.val) / 30 = b.val * 2000 + n.val; omega
  | ⟨1, _⟩ => show ((b.val * 2000 + n.val) * 30 + k.val) % 30 = k.val; omega

/-- Column d of row (b, n) of the cut features is column d of row b · 2000 + n. -/
theorem idx90 (b : Fin 50) (n : Fin 2000) (d : Fin 128) : idx_main_v90 (ix3 b n d) = ix2 (node b n) d := by
  funext a
  apply Fin.ext
  have hd := d.isLt
  match a with
  | ⟨0, _⟩ => show ((b.val * 2000 + n.val) * 128 + d.val) / 128 = b.val * 2000 + n.val; omega
  | ⟨1, _⟩ => show ((b.val * 2000 + n.val) * 128 + d.val) % 128 = d.val; omega

/-- The cut features at (b, n, d). -/
theorem r90 (b : Fin 50) (n : Fin 2000) (d : Fin 128) :
    val_main_v90 (F := Ideal) x0 x1 x3 x4 x5 x6 (ix3 b n d) = val_main_v69 (F := Ideal) x0 x1 x3 x4 x5 x6 (ix2 (node b n) d) := by
  rw [val_main_v90_apply, idx90]

/-- The cut logits, divided by the temperature 1, at (b, n, k). -/
theorem r93 (b : Fin 50) (n : Fin 2000) (k : Fin 30) :
    val_main_v93 (F := Ideal) x0 x1 x3 x4 x5 x6 x7 x8 (ix3 b n k) = val_main_v89 (F := Ideal) x0 x1 x3 x4 x5 x6 x7 x8 (ix2 (node b n) k) := by
  rw [val_main_v93_apply, val_main_v92_apply, val_main_cst_14_apply, Ideal.hostDivf_def, Ideal.ofBits_def,
    Cert.LibWords.ofBits_one, Cert.LibWords.div_one, val_main_v91_apply, idx91]

/-! ### The row softmax -/

/-- The cluster coordinate put back into (b, n) is (b, n, k). -/
theorem lift94 (h : S50x2000x30.Reduces [2] S50x2000) (b : Fin 50) (n : Fin 2000) (k : Fin (S50x2000x30.size 2)) :
    h.lift (ix2 b n) k = ix3 b n (⟨k.val, k.isLt⟩ : Fin 30) :=
  funext fun a => Fin.ext (by match a with | ⟨0, _⟩ => rfl | ⟨1, _⟩ => rfl | ⟨2, _⟩ => rfl)

/-- The maximum of row (b, n) over the 30 clusters, from minus infinity. -/
theorem r94 (b : Fin 50) (n : Fin 2000) :
    val_main_v94 (F := Ideal) x0 x1 x3 x4 x5 x6 x7 x8 (ix2 b n)
      = (Finset.univ : Finset (Fin 30)).fold max ninf (fun k => val_main_v93 (F := Ideal) x0 x1 x3 x4 x5 x6 x7 x8 (ix3 b n k)) := by
  unfold val_main_v94
  generalize val_main_v93 (F := Ideal) x0 x1 x3 x4 x5 x6 x7 x8 = y
  have h : S50x2000x30.Reduces [2] S50x2000 := by decide
  refine (Host.reduce_eq_fold_single (FloatOps.maximumf (F := Ideal) (φ := .f32)) y _ reducesTo_S50x2000x30_S50x2000_d2 h h_S_
    (ix2 b n)).trans ?_
  have hf : (y ∘ h.lift (ix2 b n)) = fun k : Fin 30 => y (ix3 b n k) := funext fun k => congrArg y (lift94 h b n k)
  exact congrArg (fun f => Finset.fold max ninf f (Finset.univ : Finset (Fin 30))) hf

/-- The row maximum, once more against minus infinity, is the specification's. -/
theorem r96 (b : Fin 50) (n : Fin 2000) :
    val_main_v96 (F := Ideal) x0 x1 x3 x4 x5 x6 x7 x8 (ix2 b n) = rowMax (blk (f2 (a := 100000) (b := 30) (val_main_v89 (F := Ideal) x0 x1 x3 x4 x5 x6 x7 x8)) b) n := by
  rw [val_main_v96_apply, val_main_v95_apply, val_main_cst_16_apply, Ideal.maximumf_def, Ideal.ofBits_def, r94]
  simp only [r93]
  generalize val_main_v89 (F := Ideal) x0 x1 x3 x4 x5 x6 x7 x8 = L
  rfl

theorem idx98 (b : Fin 50) (n : Fin 2000) (k : Fin 30) : idx_main_v97 (idx_main_v98 (ix3 b n k)) = ix2 b n :=
  funext fun a => Fin.ext (by match a with | ⟨0, _⟩ => rfl | ⟨1, _⟩ => rfl)

theorem idx103 (b : Fin 50) (n : Fin 2000) (k : Fin 30) : idx_main_v102 (idx_main_v103 (ix3 b n k)) = ix2 b n :=
  funext fun a => Fin.ext (by match a with | ⟨0, _⟩ => rfl | ⟨1, _⟩ => rfl)

theorem idx101 (b : Fin 50) (n : Fin 2000) (k : Fin 30) : idx_main_v101 (ix2 b n) k = ix3 b n k :=
  funext fun a => Fin.ext (by match a with | ⟨0, _⟩ => rfl | ⟨1, _⟩ => rfl | ⟨2, _⟩ => rfl)

/-- The shifted exponential at (b, n, k). -/
theorem r100 (b : Fin 50) (n : Fin 2000) (k : Fin 30) :
    val_main_v100 (F := Ideal) x0 x1 x3 x4 x5 x6 x7 x8 (ix3 b n k) = rowExp (blk (f2 (a := 100000) (b := 30) (val_main_v89 (F := Ideal) x0 x1 x3 x4 x5 x6 x7 x8)) b) n k := by
  rw [val_main_v100_apply, val_main_v99_apply, Ideal.hostUnary_exp_def, Ideal.subf_def, r93, val_main_v98_apply,
    val_main_v97_apply, idx98, r96]
  generalize val_main_v89 (F := Ideal) x0 x1 x3 x4 x5 x6 x7 x8 = L
  rfl

/-- The row's sum of exponentials. -/
theorem r101 (b : Fin 50) (n : Fin 2000) :
    val_main_v101 (F := Ideal) x0 x1 x3 x4 x5 x6 x7 x8 (ix2 b n) = ∑ k : Fin 30, rowExp (blk (f2 (a := 100000) (b := 30) (val_main_v89 (F := Ideal) x0 x1 x3 x4 x5 x6 x7 x8)) b) n k := by
  rw [val_main_v101_apply, val_main_cst_17_apply, Ideal.ofBits_def, Cert.LibWords.ofBits_zero, zero_add]
  exact Finset.sum_congr rfl (fun k _ => by rw [idx101, r100])

/-- The assignment at (b, n, k). -/
theorem r104 (b : Fin 50) (n : Fin 2000) (k : Fin 30) :
    val_main_v104 (F := Ideal) x0 x1 x3 x4 x5 x6 x7 x8 (ix3 b n k) = softmax (blk (f2 (a := 100000) (b := 30) (val_main_v89 (F := Ideal) x0 x1 x3 x4 x5 x6 x7 x8)) b) n k := by
  rw [val_main_v104_apply, Ideal.hostDivf_def, r100, val_main_v103_apply, val_main_v102_apply, idx103, r101]
  generalize val_main_v89 (F := Ideal) x0 x1 x3 x4 x5 x6 x7 x8 = L
  rfl

/-! ### Pooling -/

theorem lidx105 (b : Fin 50) (k : Fin 30) (d : Fin 128) (n : Fin 2000) : lidx_main_v105 (ix3 b k d) n = ix3 b n k :=
  funext fun a => Fin.ext (by match a with | ⟨0, _⟩ => rfl | ⟨1, _⟩ => rfl | ⟨2, _⟩ => rfl)

theorem ridx105 (b : Fin 50) (k : Fin 30) (d : Fin 128) (n : Fin 2000) : ridx_main_v105 (ix3 b k d) n = ix3 b n d :=
  funext fun a => Fin.ext (by match a with | ⟨0, _⟩ => rfl | ⟨1, _⟩ => rfl | ⟨2, _⟩ => rfl)

theorem idx106 (b : Fin 50) (d : Fin 128) (k : Fin 30) : idx_main_v106 (ix2 b d) k = ix3 b k d :=
  funext fun a => Fin.ext (by match a with | ⟨0, _⟩ => rfl | ⟨1, _⟩ => rfl | ⟨2, _⟩ => rfl)

/-- The transposed assignment times the features at (b, k, d). -/
theorem r105 (b : Fin 50) (k : Fin 30) (d : Fin 128) :
    val_main_v105 (F := Ideal) x0 x1 x3 x4 x5 x6 x7 x8 (ix3 b k d) = ∑ n : Fin 2000, softmax (blk (f2 (a := 100000) (b := 30) (val_main_v89 (F := Ideal) x0 x1 x3 x4 x5 x6 x7 x8)) b) n k * (blk (f2 (a := 100000) (b := 128) (val_main_v69 (F := Ideal) x0 x1 x3 x4 x5 x6)) b) n d := by
  rw [val_main_v105_apply]
  refine Finset.sum_congr rfl (fun n _ => ?_)
  rw [lidx105, ridx105, r104, r90]
  generalize val_main_v89 (F := Ideal) x0 x1 x3 x4 x5 x6 x7 x8 = L
  generalize val_main_v69 (F := Ideal) x0 x1 x3 x4 x5 x6 = H
  rfl

/-- Its sum over the clusters at (b, d). -/
theorem r106 (b : Fin 50) (d : Fin 128) :
    val_main_v106 (F := Ideal) x0 x1 x3 x4 x5 x6 x7 x8 (ix2 b d) = ∑ k : Fin 30, ∑ n : Fin 2000, softmax (blk (f2 (a := 100000) (b := 30) (val_main_v89 (F := Ideal) x0 x1 x3 x4 x5 x6 x7 x8)) b) n k * (blk (f2 (a := 100000) (b := 128) (val_main_v69 (F := Ideal) x0 x1 x3 x4 x5 x6)) b) n d := by
  rw [val_main_v106_apply, val_main_cst_18_apply, Ideal.ofBits_def, Cert.LibWords.ofBits_zero, zero_add]
  exact Finset.sum_congr rfl (fun k _ => by rw [idx106, r105])

/-- The pooled features at (b, d). -/
theorem r108 (b : Fin 50) (d : Fin 128) :
    val_main_v108 (F := Ideal) x0 x1 x3 x4 x5 x6 x7 x8 (ix2 b d) = pool (blk (f2 (a := 100000) (b := 30) (val_main_v89 (F := Ideal) x0 x1 x3 x4 x5 x6 x7 x8)) b) (blk (f2 (a := 100000) (b := 128) (val_main_v69 (F := Ideal) x0 x1 x3 x4 x5 x6)) b) d := by
  rw [val_main_v108_apply, val_main_v107_apply, val_main_cst_19_apply, Ideal.hostDivf_def, Ideal.ofBits_def, r106]
  generalize val_main_v89 (F := Ideal) x0 x1 x3 x4 x5 x6 x7 x8 = L
  generalize val_main_v69 (F := Ideal) x0 x1 x3 x4 x5 x6 = H
  rfl

/-! ### The classifier -/

theorem lidx109 (b : Fin 50) (c : Fin 10) (d : Fin 128) : lidx_main_v109 (ix2 b c) d = ix2 b d :=
  funext fun a => Fin.ext (by match a with | ⟨0, _⟩ => rfl | ⟨1, _⟩ => rfl)

theorem ridx109 (b : Fin 50) (c : Fin 10) (d : Fin 128) : ridx_main_v109 (ix2 b c) d = ix2 d c :=
  funext fun a => Fin.ext (by match a with | ⟨0, _⟩ => rfl | ⟨1, _⟩ => rfl)

theorem idx111 (b : Fin 50) (c : Fin 10) : idx_main_v110 (idx_main_v111 (ix2 b c)) = ix1 c :=
  funext fun a => Fin.ext (by match a with | ⟨0, _⟩ => rfl)

end Stages

/-- Logit (b, c) of the reference is the specification's pooling of graph b's logits and features. -/
theorem head_eq (x0 : FVec Ideal S100000x128 .f32) (x1 : IVec S2x1600000 32) (x3 : FVec Ideal S128x128 .f32) (x4 : FVec Ideal S128 .f32)
    (x5 : FVec Ideal S128x128 .f32) (x6 : FVec Ideal S128 .f32) (x7 : FVec Ideal S128x30 .f32) (x8 : FVec Ideal S30 .f32)
    (x9 : FVec Ideal S128x10 .f32) (x10 : FVec Ideal S10 .f32) (b : Fin 50) (c : Fin 10) :
    val_main_v112 (F := Ideal) x0 x1 x3 x4 x5 x6 x7 x8 x9 x10 (ix2 b c)
      = headAt (blk (f2 (a := 100000) (b := 30) (val_main_v89 (F := Ideal) x0 x1 x3 x4 x5 x6 x7 x8)) b)
          (blk (f2 (a := 100000) (b := 128) (val_main_v69 (F := Ideal) x0 x1 x3 x4 x5 x6)) b)
          (fun d => f2 (a := 128) (b := 10) x9 d c) (f1 (a := 10) x10 c) := by
  rw [val_main_v112_apply, Ideal.addf_def, val_main_v109_apply, val_main_v111_apply, val_main_v110_apply, idx111]
  have hs : ∀ d : Fin 128, val_main_v108 (F := Ideal) x0 x1 x3 x4 x5 x6 x7 x8 (lidx_main_v109 (ix2 b c) d) * x9 (ridx_main_v109 (ix2 b c) d)
      = pool (blk (f2 (a := 100000) (b := 30) (val_main_v89 (F := Ideal) x0 x1 x3 x4 x5 x6 x7 x8)) b) (blk (f2 (a := 100000) (b := 128) (val_main_v69 (F := Ideal) x0 x1 x3 x4 x5 x6)) b) d * f2 (a := 128) (b := 10) x9 d c := by
    intro d
    rw [lidx109, ridx109, r108]
    rfl
  rw [Finset.sum_congr rfl (fun d _ => hs d)]
  generalize val_main_v89 (F := Ideal) x0 x1 x3 x4 x5 x6 x7 x8 = L
  generalize val_main_v69 (F := Ideal) x0 x1 x3 x4 x5 x6 = H
  rfl

end Cert.RefHead

end
-- ==== Proof.RefValue.lean ====
/-
  The reference's logits are the specification's `refOut` of the argument arrays: the three layers, then the pooling.
-/
import proofs.«425410_j807453851818_3_alg».proof.Proof.RefLayers
import proofs.«425410_j807453851818_3_alg».proof.Proof.RefHead

noncomputable section

open scoped BigOperators

namespace Cert.RefValue

open Idealize.ShloMosaic Idealize.ShloMosaic.TcCoe Idealize.ShloMosaic.ValueIdx Idealize.SL.Sem
open Cert.ReferenceIdeal Cert.ReferenceIdeal.Gen Cert.ReferenceIdeal.Read Cert.Spec

open Cert.Shared

/-- Logit (b, c) of the reference, when every index word is a node number. -/
theorem ref_value (x0 : FVec Ideal S100000x128 .f32) (x1 : IVec S2x1600000 32) (x3 : FVec Ideal S128x128 .f32) (x4 : FVec Ideal S128 .f32)
    (x5 : FVec Ideal S128x128 .f32) (x6 : FVec Ideal S128 .f32) (x7 : FVec Ideal S128x30 .f32) (x8 : FVec Ideal S30 .f32)
    (x9 : FVec Ideal S128x10 .f32) (x10 : FVec Ideal S10 .f32) (hr : InRange x1) (b : Fin 50) (c : Fin 10) :
    val_main_v112 (F := Ideal) x0 x1 x3 x4 x5 x6 x7 x8 x9 x10 (ix2 b c)
      = refOut (srcOf x1) (dstOf x1) (coefT x1) (scT x1) (f2 (a := 100000) (b := 128) x0) (f2 (a := 128) (b := 128) x3) (f1 (a := 128) x4)
          (f2 (a := 128) (b := 128) x5) (f1 (a := 128) x6) (f2 (a := 128) (b := 30) x7) (f1 (a := 30) x8)
          (f2 (a := 128) (b := 10) x9) (f1 (a := 10) x10) b c := by
  rw [Cert.RefHead.head_eq, Cert.RefLayers.s_eq _ _ _ _ _ _ _ _ hr, Cert.RefLayers.h2_eq _ _ _ _ _ _ hr]
  rfl

end Cert.RefValue

end
-- ==== Proof.KerBlocks.lean ====
/-
  From the blocks to the arrays.  Grid point b of the launch fetches graph b's blocks — rows b · 2000 … b · 2000 + 1999 of the
  adjacency, of the features and of the self-coefficients, and the whole of every weight and bias — and writes tile b of the
  50 × 8 × 128 output; the tiles are disjoint and cover the output, so after the launch entry (b, r, l) of the output is
  entry (0, r, l) of what point b stored.  The lines after the launch keep row 0 and the first 10 lanes of every tile.
-/
import proofs.«425410_j807453851818_3_alg».proof.Proof.Gen.KernelIdeal.Frame
import proofs.«425410_j807453851818_3_alg».proof.Proof.SpecDefs
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KerBlocks

open Idealize.ShloMosaic Idealize.ShloMosaic.TcCoe Idealize.ShloMosaic.ValueIdx Idealize.SL.Sem
open Cert.KernelIdeal Cert.KernelIdeal.Gen Cert.Spec

variable (m : (ℓ : Loc nD τ sig) → Buf (Elt Ideal) ℓ) (c : Dev nD)

/-- The launch has one grid point per graph. -/
theorem N_eq : cfg0.N = 50 := by decide

/-- The grid point of graph b. -/
def pt (b : Fin 50) : Fin cfg0.N := ⟨b.val, by rw [N_eq]; exact b.isLt⟩

/-- The index maps over the grid: the adjacency, the features, the self-coefficients and the output move with the point along
    their first axis and stay at block 0 on the others. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_11.index t (0 : Fin 3) = t.val ∧ win0_11.index t (1 : Fin 3) = 0 ∧ win0_11.index t (2 : Fin 3) = 0 :=
  (by decide +kernel : ∀ t : Fin grid0.N, _)

/-- The index maps of the weights and biases are constantly block (0, 0). -/
theorem idx_whole : ∀ t : Fin cfg0.N,
    (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0) :=
  (by decide +kernel : ∀ t : Fin grid0.N, _)

/-- The input blocks of a grid point, at their literal types. -/
abbrev bA (t : Fin cfg0.N) : Vec Ideal S2000x2000 .bf16 := iblk (F := Ideal) m c 0 t
abbrev bX (t : Fin cfg0.N) : Vec Ideal S2000x128 .f32 := iblk (F := Ideal) m c 1 t
abbrev bSc (t : Fin cfg0.N) : Vec Ideal S2000x1 .f32 := iblk (F := Ideal) m c 2 t
abbrev bW1 (t : Fin cfg0.N) : Vec Ideal S128x128 .f32 := iblk (F := Ideal) m c 3 t
abbrev bB1 (t : Fin cfg0.N) : Vec Ideal S1x128 .f32 := iblk (F := Ideal) m c 4 t
abbrev bW2 (t : Fin cfg0.N) : Vec Ideal S128x128 .f32 := iblk (F := Ideal) m c 5 t
abbrev bB2 (t : Fin cfg0.N) : Vec Ideal S1x128 .f32 := iblk (F := Ideal) m c 6 t
abbrev bWa (t : Fin cfg0.N) : Vec Ideal S128x30 .f32 := iblk (F := Ideal) m c 7 t
abbrev bBa (t : Fin cfg0.N) : Vec Ideal S1x30 .f32 := iblk (F := Ideal) m c 8 t
abbrev bWl (t : Fin cfg0.N) : Vec Ideal S128x128 .f32 := iblk (F := Ideal) m c 9 t
abbrev bBl (t : Fin cfg0.N) : Vec Ideal S1x128 .f32 := iblk (F := Ideal) m c 10 t

/-- The arrays the region is launched on, at their literal types. -/
abbrev aA : Vec Ideal S100000x2000 .bf16 := V (F := Ideal) m c main_v41
abbrev aX : Vec Ideal S100000x128 .f32 := V (F := Ideal) m c main_arg0
abbrev aSc : Vec Ideal S100000x1 .f32 := V (F := Ideal) m c main_v27

/-! A window's block read off ANY contents of its array: the contents at the place the block's view sends the index. -/
theorem blk_readA (A : Vec Ideal S100000x2000 .bf16) (t : Fin cfg0.N) (y : S2000x2000.Idx) :
    ((cfg0.win 0).blk t).view.read (Elt Ideal) A y = A (((cfg0.win 0).blk t).view.emb y) := rfl
theorem blk_readX (A : Vec Ideal S100000x128 .f32) (t : Fin cfg0.N) (y : S2000x128.Idx) :
    ((cfg0.win 1).blk t).view.read (Elt Ideal) A y = A (((cfg0.win 1).blk t).view.emb y) := rfl
theorem blk_readSc (A : Vec Ideal S100000x1 .f32) (t : Fin cfg0.N) (y : S2000x1.Idx) :
    ((cfg0.win 2).blk t).view.read (Elt Ideal) A y = A (((cfg0.win 2).blk t).view.emb y) := rfl
theorem blk_readW1 (A : Vec Ideal S128x128 .f32) (t : Fin cfg0.N) (y : S128x128.Idx) :
    ((cfg0.win 3).blk t).view.read (Elt Ideal) A y = A (((cfg0.win 3).blk t).view.emb y) := rfl
theorem blk_readB1 (A : Vec Ideal S1x128 .f32) (t : Fin cfg0.N) (y : S1x128.Idx) :
    ((cfg0.win 4).blk t).view.read (Elt Ideal) A y = A (((cfg0.win 4).blk t).view.emb y) := rfl
theorem blk_readW2 (A : Vec Ideal S128x128 .f32) (t : Fin cfg0.N) (y : S128x128.Idx) :
    ((cfg0.win 5).blk t).view.read (Elt Ideal) A y = A (((cfg0.win 5).blk t).view.emb y) := rfl
theorem blk_readB2 (A : Vec Ideal S1x128 .f32) (t : Fin cfg0.N) (y : S1x128.Idx) :
    ((cfg0.win 6).blk t).view.read (Elt Ideal) A y = A (((cfg0.win 6).blk t).view.emb y) := rfl
theorem blk_readWa (A : Vec Ideal S128x30 .f32) (t : Fin cfg0.N) (y : S128x30.Idx) :
    ((cfg0.win 7).blk t).view.read (Elt Ideal) A y = A (((cfg0.win 7).blk t).view.emb y) := rfl
theorem blk_readBa (A : Vec Ideal S1x30 .f32) (t : Fin cfg0.N) (y : S1x30.Idx) :
    ((cfg0.win 8).blk t).view.read (Elt Ideal) A y = A (((cfg0.win 8).blk t).view.emb y) := rfl
theorem blk_readWl (A : Vec Ideal S128x128 .f32) (t : Fin cfg0.N) (y : S128x128.Idx) :
    ((cfg0.win 9).blk t).view.read (Elt Ideal) A y = A (((cfg0.win 9).blk t).view.emb y) := rfl
theorem blk_readBl (A : Vec Ideal S1x128 .f32) (t : Fin cfg0.N) (y : S1x128.Idx) :
    ((cfg0.win 10).blk t).view.read (Elt Ideal) A y = A (((cfg0.win 10).blk t).view.emb y) := rfl

/-- Entry (r, k) of point t's adjacency block is entry (t · 2000 + r, k) of the adjacency. -/
theorem bA_apply (t : Fin cfg0.N) (r : Fin 2000) (k : Fin 2000) (i : Fin 100000) (hi : i.val = t.val * 2000 + r.val) :
    bA m c t (ix2 r k) = aA m c (ix2 i k) := by
  obtain ⟨e0, e1, -⟩ := idx_facts t
  have he : ((cfg0.win 0).blk t).view.emb (ix2 r k : S2000x2000.Idx) = (ix2 i k : S100000x2000.Idx) := by
    funext a
    apply Fin.ext
    match a with
    | ⟨0, _⟩ => show win0_0.index t (0 : Fin 2) * 2000 + 1 * r.val = i.val; omega
    | ⟨1, _⟩ => show win0_0.index t (1 : Fin 2) * 2000 + 1 * k.val = k.val; omega
  exact (blk_readA (aA m c) t (ix2 r k)).trans (congrArg (aA m c) he)
/-- Entry (r, k) of point t's feature block is entry (t · 2000 + r, k) of the features. -/
theorem bX_apply (t : Fin cfg0.N) (r : Fin 2000) (k : Fin 128) (i : Fin 100000) (hi : i.val = t.val * 2000 + r.val) :
    bX m c t (ix2 r k) = aX m c (ix2 i k) := by
  obtain ⟨-, -, e0, e1, -⟩ := idx_facts t
  have he : ((cfg0.win 1).blk t).view.emb (ix2 r k : S2000x128.Idx) = (ix2 i k : S100000x128.Idx) := by
    funext a
    apply Fin.ext
    match a with
    | ⟨0, _⟩ => show win0_1.index t (0 : Fin 2) * 2000 + 1 * r.val = i.val; omega
    | ⟨1, _⟩ => show win0_1.index t (1 : Fin 2) * 128 + 1 * k.val = k.val; omega
  exact (blk_readX (aX m c) t (ix2 r k)).trans (congrArg (aX m c) he)
/-- Entry r of point t's self-coefficient block is entry t · 2000 + r of the self-coefficients. -/
theorem bSc_apply (t : Fin cfg0.N) (r : Fin 2000) (i : Fin 100000) (hi : i.val = t.val * 2000 + r.val) :
    bSc m c t (ix2 r (0 : Fin 1)) = aSc m c (ix2 i (0 : Fin 1)) := by
  obtain ⟨-, -, -, -, e0, e1, -⟩ := idx_facts t
  have he : ((cfg0.win 2).blk t).view.emb (ix2 r (0 : Fin 1) : S2000x1.Idx) = (ix2 i (0 : Fin 1) : S100000x1.Idx) := by
    funext a
    apply Fin.ext
    match a with
    | ⟨0, _⟩ => show win0_2.index t (0 : Fin 2) * 2000 + 1 * r.val = i.val; omega
    | ⟨1, _⟩ => show win0_2.index t (1 : Fin 2) * 1 + 1 * 0 = 0; omega
  exact (blk_readSc (aSc m c) t (ix2 r (0 : Fin 1))).trans (congrArg (aSc m c) he)

/-- Graph b's adjacency block is rows b · 2000 … of the adjacency. -/
theorem blockA (b : Fin 50) : f2 (a := 2000) (b := 2000) (bA m c (pt b)) = blk (f2 (a := 100000) (b := 2000) (aA m c)) b := by
  funext r k
  unfold blk f2
  exact bA_apply m c (pt b) r k (node b r) rfl
/-- Graph b's feature block. -/
theorem blockX (b : Fin 50) : f2 (a := 2000) (b := 128) (bX m c (pt b)) = blk (f2 (a := 100000) (b := 128) (aX m c)) b := by
  funext r k
  unfold blk f2
  exact bX_apply m c (pt b) r k (node b r) rfl
/-- Graph b's self-coefficient block. -/
theorem blockSc (b : Fin 50) : fcol (a := 2000) (bSc m c (pt b)) = blkv (fcol (a := 100000) (aSc m c)) b := by
  funext r
  unfold blkv fcol
  exact bSc_apply m c (pt b) r (node b r) rfl
/-- The weights and biases are fetched whole at every point. -/
theorem blockW1 (t : Fin cfg0.N) : bW1 m c t = V (F := Ideal) m c main_arg3 := by
  obtain ⟨⟨e0, e1⟩, -⟩ := idx_whole t
  funext y
  have he : ((cfg0.win 3).blk t).view.emb y = y := by
    funext a
    apply Fin.ext
    match a with
    | ⟨0, _⟩ => show win0_3.index t (0 : Fin 2) * 128 + 1 * (y 0).val = (y 0).val; omega
    | ⟨1, _⟩ => show win0_3.index t (1 : Fin 2) * 128 + 1 * (y 1).val = (y 1).val; omega
  exact (blk_readW1 (V (F := Ideal) m c main_arg3) t y).trans (congrArg (V (F := Ideal) m c main_arg3) he)
theorem blockB1 (t : Fin cfg0.N) : bB1 m c t = V (F := Ideal) m c main_v45 := by
  obtain ⟨-, ⟨e0, e1⟩, -⟩ := idx_whole t
  funext y
  have he : ((cfg0.win 4).blk t).view.emb y = y := by
    funext a
    apply Fin.ext
    match a with
    | ⟨0, _⟩ => show win0_4.index t (0 : Fin 2) * 1 + 1 * (y 0).val = (y 0).val; omega
    | ⟨1, _⟩ => show win0_4.index t (1 : Fin 2) * 128 + 1 * (y 1).val = (y 1).val; omega
  exact (blk_readB1 (V (F := Ideal) m c main_v45) t y).trans (congrArg (V (F := Ideal) m c main_v45) he)
theorem blockW2 (t : Fin cfg0.N) : bW2 m c t = V (F := Ideal) m c main_arg5 := by
  obtain ⟨-, -, ⟨e0, e1⟩, -⟩ := idx_whole t
  funext y
  have he : ((cfg0.win 5).blk t).view.emb y = y := by
    funext a
    apply Fin.ext
    match a with
    | ⟨0, _⟩ => show win0_5.index t (0 : Fin 2) * 128 + 1 * (y 0).val = (y 0).val; omega
    | ⟨1, _⟩ => show win0_5.index t (1 : Fin 2) * 128 + 1 * (y 1).val = (y 1).val; omega
  exact (blk_readW2 (V (F := Ideal) m c main_arg5) t y).trans (congrArg (V (F := Ideal) m c main_arg5) he)
theorem blockB2 (t : Fin cfg0.N) : bB2 m c t = V (F := Ideal) m c main_v46 := by
  obtain ⟨-, -, -, ⟨e0, e1⟩, -⟩ := idx_whole t
  funext y
  have he : ((cfg0.win 6).blk t).view.emb y = y := by
    funext a
    apply Fin.ext
    match a with
    | ⟨0, _⟩ => show win0_6.index t (0 : Fin 2) * 1 + 1 * (y 0).val = (y 0).val; omega
    | ⟨1, _⟩ => show win0_6.index t (1 : Fin 2) * 128 + 1 * (y 1).val = (y 1).val; omega
  exact (blk_readB2 (V (F := Ideal) m c main_v46) t y).trans (congrArg (V (F := Ideal) m c main_v46) he)
theorem blockWa (t : Fin cfg0.N) : bWa m c t = V (F := Ideal) m c main_arg7 := by
  obtain ⟨-, -, -, -, ⟨e0, e1⟩, -⟩ := idx_whole t
  funext y
  have he : ((cfg0.win 7).blk t).view.emb y = y := by
    funext a
    apply Fin.ext
    match a with
    | ⟨0, _⟩ => show win0_7.index t (0 : Fin 2) * 128 + 1 * (y 0).val = (y 0).val; omega
    | ⟨1, _⟩ => show win0_7.index t (1 : Fin 2) * 30 + 1 * (y 1).val = (y 1).val; omega
  exact (blk_readWa (V (F := Ideal) m c main_arg7) t y).trans (congrArg (V (F := Ideal) m c main_arg7) he)
theorem blockBa (t : Fin cfg0.N) : bBa m c t = V (F := Ideal) m c main_v47 := by
  obtain ⟨-, -, -, -, -, ⟨e0, e1⟩, -⟩ := idx_whole t
  funext y
  have he : ((cfg0.win 8).blk t).view.emb y = y := by
    funext a
    apply Fin.ext
    match a with
    | ⟨0, _⟩ => show win0_8.index t (0 : Fin 2) * 1 + 1 * (y 0).val = (y 0).val; omega
    | ⟨1, _⟩ => show win0_8.index t (1 : Fin 2) * 30 + 1 * (y 1).val = (y 1).val; omega
  exact (blk_readBa (V (F := Ideal) m c main_v47) t y).trans (congrArg (V (F := Ideal) m c main_v47) he)
theorem blockWl (t : Fin cfg0.N) : bWl m c t = V (F := Ideal) m c main_v42 := by
  obtain ⟨-, -, -, -, -, -, ⟨e0, e1⟩, -⟩ := idx_whole t
  funext y
  have he : ((cfg0.win 9).blk t).view.emb y = y := by
    funext a
    apply Fin.ext
    match a with
    | ⟨0, _⟩ => show win0_9.index t (0 : Fin 2) * 128 + 1 * (y 0).val = (y 0).val; omega
    | ⟨1, _⟩ => show win0_9.index t (1 : Fin 2) * 128 + 1 * (y 1).val = (y 1).val; omega
  exact (blk_readWl (V (F := Ideal) m c main_v42) t y).trans (congrArg (V (F := Ideal) m c main_v42) he)
theorem blockBl (t : Fin cfg0.N) : bBl m c t = V (F := Ideal) m c main_v44 := by
  obtain ⟨-, -, -, -, -, -, -, e0, e1⟩ := idx_whole t
  funext y
  have he : ((cfg0.win 10).blk t).view.emb y = y := by
    funext a
    apply Fin.ext
    match a with
    | ⟨0, _⟩ => show win0_10.index t (0 : Fin 2) * 1 + 1 * (y 0).val = (y 0).val; omega
    | ⟨1, _⟩ => show win0_10.index t (1 : Fin 2) * 128 + 1 * (y 1).val = (y 1).val; omega
  exact (blk_readBl (V (F := Ideal) m c main_v44) t y).trans (congrArg (V (F := Ideal) m c main_v44) he)

/-- The output window's block index at point t is (t, 0, 0). -/
theorem ob_index : ∀ t : Fin cfg0.N, win0_11.index t (0 : Fin 3) = t.val ∧ win0_11.index t (1 : Fin 3) = 0
    ∧ win0_11.index t (2 : Fin 3) = 0 :=
  (by decide +kernel : ∀ t : Fin grid0.N, _)

/-- Distinct points write distinct tiles. -/
theorem ob_index_inj : ∀ t t' : Fin cfg0.N, win0_11.index t = win0_11.index t' → t = t' := by
  intro t t' h
  have h0 := congrFun h (0 : Fin 3)
  rw [(ob_index t).1, (ob_index t').1] at h0
  exact Fin.ext h0

/-- So two points' tiles share no entry. -/
theorem ob_disjoint : ∀ t t' : Fin cfg0.N, (cfg0.win 11).flush t = true → (cfg0.win 11).flush t' = true → t ≠ t' →
    Disjoint ((cfg0.win 11).blk t).view.set ((cfg0.win 11).blk t').view.set :=
  fun t t' _ _ hne => (cfg0.win 11).disjoint_blk fun h => hne (ob_index_inj t t' h)

/-- Entry (0, r, l) of tile b sits at (b, r, l) in the array. -/
theorem ob_emb (b : Fin 50) (r : Fin 8) (l : Fin 128) (y : ((cfg0.win 11).xblock (cfg0.grid.coords (pt b))).Idx)
    (hy1 : (y 1).val = r.val) (hy2 : (y 2).val = l.val) :
    ((cfg0.win 11).blk (pt b)).view.emb y = (ix3 b r l : S50x8x128.Idx) := by
  obtain ⟨e0, e1, e2⟩ := ob_index (pt b)
  funext a
  apply Fin.ext
  match a with
  | ⟨0, _⟩ =>
    show win0_11.index (pt b) (0 : Fin 3) * 1 + 1 * (y 0).val = b.val
    have hy : (y 0).val < 1 := (y 0).isLt
    have hb : (pt b).val = b.val := rfl
    omega
  | ⟨1, _⟩ =>
    show win0_11.index (pt b) (1 : Fin 3) * 8 + 1 * (y 1).val = r.val
    omega
  | ⟨2, _⟩ =>
    show win0_11.index (pt b) (2 : Fin 3) * 128 + 1 * (y 2).val = l.val
    omega

/-- After the launch, entry (b, r, l) of the output is entry (0, r, l) of the tile point b stored. -/
theorem out_block (b : Fin 50) (r : Fin 8) (l : Fin 128) :
    ((dats (F := Ideal) m 0 c).arrAt 11 cfg0.N : S50x8x128.Idx → EReal) (ix3 b r l)
      = out0_11 (F := Ideal) (bA m c (pt b)) (bX m c (pt b)) (bSc m c (pt b)) (bW1 m c (pt b)) (bB1 m c (pt b)) (bW2 m c (pt b))
          (bB2 m c (pt b)) (bWa m c (pt b)) (bBa m c (pt b)) (bWl m c (pt b)) (bBl m c (pt b)) (ix3 (0 : Fin 1) r l) := by
  -- the entry inside the tile, at the window's own index type
  let y : ((cfg0.win 11).xblock (cfg0.grid.coords (pt b))).Idx := (ix3 (0 : Fin 1) r l : S1x8x128.Idx)
  have h := (dats (F := Ideal) m 0 c).arrAt_emb_eq_flushed 11 ob_disjoint (pt b) (flush0_11 (pt b)) y
  rw [ob_emb b r l y rfl rfl] at h
  refine h.trans ?_
  show (cfg0.win 11).cut (grid0.coords (pt b)) ((dats (F := Ideal) m 0 c).after 11 (pt b)) y = _
  rw [after0_11]
  rfl

/-- The lines after the launch: the program's result is the output array sliced to [0:50, 0:1, 0:10] and read as 50 × 10. -/
theorem tail_arr :
    (Pipeline.afterTail₀ cfgs (dats (F := Ideal) m) 0 (V0 (F := Ideal) m) [hostOps1] c main_v50 : S50x10.Idx → EReal)
      = shapeCast S50x10 (extractStridedSlice S50x1x10 ![0, 0, 0]
          ((dats (F := Ideal) m 0 c).arrAt 11 cfg0.N : S50x8x128.Idx → EReal) slices_S50x8x128_S50x1x10_0_0_0)
          shapeCasts_S50x1x10_S50x10 := by
  unfold Pipeline.afterTail₀
  show StableHlo.after hostOps1 _ (Proc.devRef .tc main_v50) = _
  after_results
  have h : Pipeline.withArrays (cfgs 0).spec c (V0 (F := Ideal) m c) (fun w => (dats (F := Ideal) m 0 c).arrAt w (cfgs 0).N) (Proc.devRef .tc main_v48)
      = (dats (F := Ideal) m 0 c).arrAt 11 cfg0.N :=
    Pipeline.withArrays_arr spec0 launch0.win.arr_inj c _ _ 11
  rw [h]
  rfl

/-- The program's result: logit (b, cl) is row 0, lane cl of tile b of the launch's output. -/
theorem tail_eq (b : Fin 50) (cl : Fin 10) :
    (Pipeline.afterTail₀ cfgs (dats (F := Ideal) m) 0 (V0 (F := Ideal) m) [hostOps1] c main_v50 : S50x10.Idx → EReal) (ix2 b cl)
      = ((dats (F := Ideal) m 0 c).arrAt 11 cfg0.N : S50x8x128.Idx → EReal) (ix3 b (0 : Fin 8) (Fin.castLE (by omega) cl : Fin 128)) := by
  rw [tail_arr]
  rw [shapeCast_apply _ _ (ix2 b cl) (ix3 b (0 : Fin 1) cl) (by
    rw [Shape.rowMajor_val_two, Shape.rowMajor_val_three]
    show ((b.val * 1 + 0) * 10 + cl.val) = b.val * 10 + cl.val
    omega)]
  refine extractStridedSlice_apply _ _ _ _ _ (fun a => ?_)
  match a with
  | ⟨0, _⟩ => show b.val = 0 + b.val; omega
  | ⟨1, _⟩ => show 0 = 0 + 0; rfl
  | ⟨2, _⟩ => show cl.val = 0 + cl.val; omega

end Cert.KerBlocks

end
-- ==== Proof.KerPay3.lean ====
/-
  The first half of the kernel body, as one pure function of the blocks it loads, read entry by entry: two rectified
  layers inside one graph.  Each layer multiplies the graph's rows by the weight matrix, multiplies the graph's
  2000 × 2000 adjacency block by the result, adds the rows scaled by the self-coefficients and the bias, and takes the
  maximum with zero.  Format changes are the identity on extended reals and a matrix product into a zero accumulator is
  the plain sum over the contracted coordinate.
-/
import proofs.«425410_j807453851818_3_alg».proof.Proof.Gen.KernelIdeal.Skeleton
import proofs.«425410_j807453851818_3_alg».proof.Proof.SpecDefs
import proofs.«425410_j807453851818_3_alg».proof.Proof.LibWords
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KerPay3

open Idealize.ShloMosaic Idealize.ShloMosaic.TcCoe Idealize.ShloMosaic.ValueIdx Idealize.SL.Sem
open Cert.KernelIdeal Cert.KernelIdeal.Gen Cert.Spec

/-! ## The two matrix products at coordinates -/

theorem lhsW_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhsW_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem rhsW_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhsW_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- Rows times a weight matrix into a zero accumulator: the sum over the 128 contracted coordinates. -/
theorem mmW_apply {φ₁ φ₂ : FTy} (x : FVec Ideal S2000x128 φ₁) (w : FVec Ideal S128x128 φ₂) (r : Fin 2000) (f : Fin 128) :
    matmul dot_S2000x128_S128x128_S2000x128_1_0_0_1_n_n none x w (constant S2000x128 .f32 0x00000000#32) (ix2 r f)
      = ∑ k : Fin 128, x (ix2 r k) * w (ix2 k f) := by
  refine (Ideal.matmul_constant_zero_apply dot_S2000x128_S128x128_S2000x128_1_0_0_1_n_n none x w (ix2 r f)).trans ?_
  rw [← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ix2 r f) ((ValueIdx.contrEquiv1 dot_S2000x128_S128x128_S2000x128_1_0_0_1_n_n 128 rfl rfl).symm k) = ix2 r k := funext fun a => Fin.ext (by
    match a with
    | ⟨0, _⟩ => exact lhsW_0 _ _
    | ⟨1, _⟩ => exact (lhsW_1 _ _).trans hk)
  have er : dot_S2000x128_S128x128_S2000x128_1_0_0_1_n_n.rhsIdx (ix2 r f) ((ValueIdx.contrEquiv1 dot_S2000x128_S128x128_S2000x128_1_0_0_1_n_n 128 rfl rfl).symm k) = ix2 k f := funext fun a => Fin.ext (by
    match a with
    | ⟨0, _⟩ => exact (rhsW_0 _ _).trans hk
    | ⟨1, _⟩ => exact rhsW_1 _ _)
  rw [el, er]

theorem lhsA_0 (i : S2000x128.Idx) (q : dot_S2000x2000_S2000x128_S2000x128_1_0_0_1_n_n.contr.Idx) :
    (dot_S2000x2000_S2000x128_S2000x128_1_0_0_1_n_n.lhsIdx i q 0).val = (i 0).val := by
  unfold DotDims.lhsIdx
  rw [dif_neg (show ¬(0 : Fin S2000x2000.rank) ∈ dot_S2000x2000_S2000x128_S2000x128_1_0_0_1_n_n.lhsBatch by decide), dif_pos (show (0 : Fin S2000x2000.rank) ∈ dot_S2000x2000_S2000x128_S2000x128_1_0_0_1_n_n.lhsNonContracting by decide)]
  rfl
theorem lhsA_1 (i : S2000x128.Idx) (q : dot_S2000x2000_S2000x128_S2000x128_1_0_0_1_n_n.contr.Idx) :
    (dot_S2000x2000_S2000x128_S2000x128_1_0_0_1_n_n.lhsIdx i q 1).val = (q ⟨0, by decide⟩).val :=
  dot_S2000x2000_S2000x128_S2000x128_1_0_0_1_n_n.lhsIdx_val_of_single rfl i q
theorem rhsA_0 (i : S2000x128.Idx) (q : dot_S2000x2000_S2000x128_S2000x128_1_0_0_1_n_n.contr.Idx) :
    (dot_S2000x2000_S2000x128_S2000x128_1_0_0_1_n_n.rhsIdx i q 0).val = (q ⟨0, by decide⟩).val :=
  dot_S2000x2000_S2000x128_S2000x128_1_0_0_1_n_n.rhsIdx_val_of_single rfl i q
theorem rhsA_1 (i : S2000x128.Idx) (q : dot_S2000x2000_S2000x128_S2000x128_1_0_0_1_n_n.contr.Idx) :
    (dot_S2000x2000_S2000x128_S2000x128_1_0_0_1_n_n.rhsIdx i q 1).val = (i 1).val := by
  unfold DotDims.rhsIdx
  rw [dif_neg (show ¬(1 : Fin S2000x128.rank) ∈ dot_S2000x2000_S2000x128_S2000x128_1_0_0_1_n_n.rhsBatch by decide), dif_pos (show (1 : Fin S2000x128.rank) ∈ dot_S2000x2000_S2000x128_S2000x128_1_0_0_1_n_n.rhsNonContracting by decide)]
  rfl

/-- The adjacency block times rows into a zero accumulator: the sum over the 2000 contracted coordinates. -/
theorem mmA_apply {φ₁ φ₂ : FTy} (A : FVec Ideal S2000x2000 φ₁) (y : FVec Ideal S2000x128 φ₂) (r : Fin 2000) (f : Fin 128) :
    matmul dot_S2000x2000_S2000x128_S2000x128_1_0_0_1_n_n none A y (constant S2000x128 .f32 0x00000000#32) (ix2 r f)
      = ∑ j : Fin 2000, A (ix2 r j) * y (ix2 j f) := by
  refine (Ideal.matmul_constant_zero_apply dot_S2000x2000_S2000x128_S2000x128_1_0_0_1_n_n none A y (ix2 r f)).trans ?_
  rw [← Equiv.sum_comp (ValueIdx.contrEquiv1 dot_S2000x2000_S2000x128_S2000x128_1_0_0_1_n_n 2000 rfl rfl).symm]
  refine Finset.sum_congr rfl fun k _ => ?_
  have hk := ValueIdx.contrEquiv1_symm_val dot_S2000x2000_S2000x128_S2000x128_1_0_0_1_n_n 2000 rfl rfl k
  have el : dot_S2000x2000_S2000x128_S2000x128_1_0_0_1_n_n.lhsIdx (ix2 r f) ((ValueIdx.contrEquiv1 dot_S2000x2000_S2000x128_S2000x128_1_0_0_1_n_n 2000 rfl rfl).symm k) = ix2 r k := funext fun a => Fin.ext (by
    match a with
    | ⟨0, _⟩ => exact lhsA_0 _ _
    | ⟨1, _⟩ => exact (lhsA_1 _ _).trans hk)
  have er : dot_S2000x2000_S2000x128_S2000x128_1_0_0_1_n_n.rhsIdx (ix2 r f) ((ValueIdx.contrEquiv1 dot_S2000x2000_S2000x128_S2000x128_1_0_0_1_n_n 2000 rfl rfl).symm k) = ix2 k f := funext fun a => Fin.ext (by
    match a with
    | ⟨0, _⟩ => exact (rhsA_0 _ _).trans hk
    | ⟨1, _⟩ => exact rhsA_1 _ _)
  rw [el, er]

/-! ## The two broadcasts at coordinates -/

/-- A `[2000, 1]` column broadcast to `[2000, 128]` reads, at `(r, f)`, the column at row `r`. -/
theorem bcol_apply {α : Type} (c : S2000x1.Idx → α) (r : Fin 2000) (f : Fin 128) :
    broadcastTo S2000x128 c broadcasts_S2000x1_S2000x128 (ix2 r f) = c (ix2 r (0 : Fin 1)) := by
  refine broadcastTo_apply c broadcasts_S2000x1_S2000x128 (ix2 r f) (ix2 r (0 : Fin 1)) fun ax => ?_
  match ax with
  | ⟨0, _⟩ =>
    show r.val = if (2000 : ℕ) = 1 then 0 else r.val
    rw [if_neg (by decide)]
  | ⟨1, _⟩ => rfl

/-- A `[1, 128]` row broadcast to `[2000, 128]` reads, at `(r, f)`, the row at column `f`. -/
theorem brow_apply {α : Type} (b : S1x128.Idx → α) (r : Fin 2000) (f : Fin 128) :
    broadcastTo S2000x128 b broadcasts_S1x128_S2000x128 (ix2 r f) = b (ix2 (0 : Fin 1) f) :=
  broadcastTo_1b_ab_apply b broadcasts_S1x128_S2000x128 r f

/-! ## One rectified layer -/

/-- One layer as the kernel computes it, from the adjacency block, the self-coefficient column, the incoming rows, the
    weight matrix and the bias row. -/
def klayer (A : FVec Ideal S2000x2000 .bf16) (sc : FVec Ideal S2000x1 .f32) (hb : FVec Ideal S2000x128 .bf16)
    (W : FVec Ideal S128x128 .bf16) (b : FVec Ideal S1x128 .f32) : FVec Ideal S2000x128 .bf16 :=
  truncf .bf16
    (maximumf
      (addf
        (addf
          (matmul dot_S2000x2000_S2000x128_S2000x128_1_0_0_1_n_n none A
            (truncf .bf16 (matmul dot_S2000x128_S128x128_S2000x128_1_0_0_1_n_n none hb W (constant S2000x128 .f32 0x00000000#32)) bitsLt_bf16_f32)
            (constant S2000x128 .f32 0x00000000#32))
          (mulf (matmul dot_S2000x128_S128x128_S2000x128_1_0_0_1_n_n none hb W (constant S2000x128 .f32 0x00000000#32))
            (broadcastTo S2000x128 sc broadcasts_S2000x1_S2000x128)))
        (broadcastTo S2000x128 (shapeCast S1x128 b shapeCasts_S1x128_S1x128) broadcasts_S1x128_S2000x128))
      (broadcast S2000x128 (Scalar.ofBits (F := Ideal) .f32 0x00000000#32)))
    bitsLt_bf16_f32

/-- The kernel's layer, read by coordinates, is the rectified layer of the mathematics. -/
theorem klayer_eq (A : FVec Ideal S2000x2000 .bf16) (sc : FVec Ideal S2000x1 .f32) (hb : FVec Ideal S2000x128 .bf16)
    (W : FVec Ideal S128x128 .bf16) (b : FVec Ideal S1x128 .f32) :
    f2 (a := 2000) (b := 128) (klayer A sc hb W b)
      = relu (layer (aggB (f2 (a := 2000) (b := 2000) A) (lin (f2 (a := 2000) (b := 128) hb) (f2 (a := 128) (b := 128) W)))
          (lin (f2 (a := 2000) (b := 128) hb) (f2 (a := 128) (b := 128) W)) (fcol (a := 2000) sc) (frow (a := 128) b)) := by
  funext r f
  have hlin : ∀ (r' : Fin 2000) (f' : Fin 128),
      matmul dot_S2000x128_S128x128_S2000x128_1_0_0_1_n_n none hb W (constant S2000x128 .f32 0x00000000#32) (ix2 r' f')
        = lin (f2 (a := 2000) (b := 128) hb) (f2 (a := 128) (b := 128) W) r' f' := fun r' f' => mmW_apply hb W r' f'
  show max (matmul dot_S2000x2000_S2000x128_S2000x128_1_0_0_1_n_n none A
            (truncf .bf16 (matmul dot_S2000x128_S128x128_S2000x128_1_0_0_1_n_n none hb W (constant S2000x128 .f32 0x00000000#32)) bitsLt_bf16_f32)
            (constant S2000x128 .f32 0x00000000#32) (ix2 r f)
          + matmul dot_S2000x128_S128x128_S2000x128_1_0_0_1_n_n none hb W (constant S2000x128 .f32 0x00000000#32) (ix2 r f)
            * broadcastTo S2000x128 sc broadcasts_S2000x1_S2000x128 (ix2 r f)
          + broadcastTo S2000x128 (shapeCast S1x128 b shapeCasts_S1x128_S1x128) broadcasts_S1x128_S2000x128 (ix2 r f))
        (Ideal.ofBits .f32 0x00000000#32) = _
  rw [mmA_apply, bcol_apply, brow_apply, shapeCast_self, hlin, Cert.LibWords.ofBits_zero]
  refine congrArg (fun t => max (t + _ + _) 0) ?_
  refine Finset.sum_congr rfl fun j _ => ?_
  exact congrArg (fun t => A (ix2 r j) * t) (hlin j f)

/-! ## The payloads -/

/-- The adjacency block passes through its cast unchanged. -/
theorem pay1_val (v0 : Vec Ideal S2000x2000 .bf16) : k0_pay1 (F := Ideal) v0 = v0 :=
  shapeCast_self v0 shapeCasts_S2000x2000_S2000x2000

/-- The self-coefficient column passes through its cast unchanged. -/
theorem pay2_val (v2 : Vec Ideal S2000x1 .f32) : k0_pay2 (F := Ideal) v2 = v2 :=
  shapeCast_self v2 shapeCasts_S2000x1_S2000x1

/-- The first half of the kernel body is two of the kernel's layers, the second fed by the first. -/
theorem pay3_layers (v0 : Vec Ideal S2000x2000 .bf16) (v2 : Vec Ideal S2000x1 .f32) (v4 : Vec Ideal S2000x128 .f32)
    (v6 : Vec Ideal S128x128 .f32) (v14 : Vec Ideal S1x128 .f32) (v21 : Vec Ideal S128x128 .f32) (v29 : Vec Ideal S1x128 .f32) :
    k0_pay3 (F := Ideal) v0 v2 v4 v6 v14 v21 v29
      = klayer (k0_pay1 (F := Ideal) v0) (k0_pay2 (F := Ideal) v2)
          (klayer (k0_pay1 (F := Ideal) v0) (k0_pay2 (F := Ideal) v2) (truncf .bf16 v4 bitsLt_bf16_f32) (truncf .bf16 v6 bitsLt_bf16_f32) v14)
          (truncf .bf16 v21 bitsLt_bf16_f32) v29 := rfl

/-- The second hidden features of one graph, from the loaded blocks. -/
theorem pay3_eq (v0 : Vec Ideal S2000x2000 .bf16) (v2 : Vec Ideal S2000x1 .f32) (v4 : Vec Ideal S2000x128 .f32)
    (v6 : Vec Ideal S128x128 .f32) (v14 : Vec Ideal S1x128 .f32) (v21 : Vec Ideal S128x128 .f32) (v29 : Vec Ideal S1x128 .f32) :
    f2 (a := 2000) (b := 128) (k0_pay3 (F := Ideal) v0 v2 v4 v6 v14 v21 v29)
      = h2B (f2 (a := 2000) (b := 2000) v0) (f2 (a := 2000) (b := 128) v4) (fcol (a := 2000) v2) (f2 (a := 128) (b := 128) v6)
          (frow (a := 128) v14) (f2 (a := 128) (b := 128) v21) (frow (a := 128) v29) := by
  rw [pay3_layers, pay1_val, pay2_val, klayer_eq, klayer_eq]
  rfl

/-- The adjacency block passes through its cast unchanged. -/
theorem pay1_eq (v0 : Vec Ideal S2000x2000 .bf16) : f2 (a := 2000) (b := 2000) (k0_pay1 (F := Ideal) v0) = f2 (a := 2000) (b := 2000) v0 := by
  rw [pay1_val]

/-- The self-coefficient column passes through its cast unchanged. -/
theorem pay2_eq (v2 : Vec Ideal S2000x1 .f32) : fcol (a := 2000) (k0_pay2 (F := Ideal) v2) = fcol (a := 2000) v2 := by
  rw [pay2_val]

end Cert.KerPay3

end
-- ==== Proof.KerPay4.lean ====
/-
  The second half of the kernel body, read at one lane of the row it stores: the third layer gives one graph's 30
  assignment logits per node (times the temperature factor 1); each row is shifted by its maximum, exponentiated and
  normalised; the transposed assignment times the graph's features is summed over the 30 clusters and divided by 30; the
  pooled row times the classifier matrix plus the bias is row 0 of the stored 8 × 128 tile (rows 1 to 7 are zero).
-/
import proofs.«425410_j807453851818_3_alg».proof.Proof.Gen.KernelIdeal.Skeleton
import proofs.«425410_j807453851818_3_alg».proof.Proof.SpecDefs
import proofs.«425410_j807453851818_3_alg».proof.Proof.LibWords
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KerPay4

open Idealize.ShloMosaic Idealize.ShloMosaic.TcCoe Idealize.ShloMosaic.ValueIdx Idealize.SL.Sem
open Cert.KernelIdeal Cert.KernelIdeal.Gen Cert.Spec

/-! ## Layout operations at explicit coordinates -/

section Layout
variable {α : Type}

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Layout

/-! ## Reductions over one axis of a matrix, at explicit coordinates -/

/-- A sum over the columns of an `[a, b]` array, read at row `r`. -/
theorem reduceAdd_cols_apply {φ : FTy} {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction (F := Ideal) .add [1] ⟨1, ![a]⟩ src acc h hφ hacc (ix1 r) = ∑ k : Fin b, src (ix2 r k) := by
  refine (Ideal.multiReduction_add_single src acc h hφ hacc (ix1 r)).trans ?_
  refine Finset.sum_congr rfl fun k _ => congrArg src (funext fun c => Fin.ext ?_)
  match c with
  | ⟨0, _⟩ => rfl
  | ⟨1, _⟩ => rfl

/-- A sum over the rows of an `[a, b]` array, read at column `c`. -/
theorem reduceAdd_rows_apply {φ : FTy} {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (d : Fin b) :
    multiReduction (F := Ideal) .add [0] ⟨1, ![b]⟩ src acc h hφ hacc (ix1 d) = ∑ k : Fin a, src (ix2 k d) := by
  refine (Ideal.multiReduction_add_single src acc h hφ hacc (ix1 d)).trans ?_
  refine Finset.sum_congr rfl fun k _ => congrArg src (funext fun c => Fin.ext ?_)
  match c with
  | ⟨0, _⟩ => rfl
  | ⟨1, _⟩ => rfl

/-- A maximum over the columns of an `[a, b]` array, read at row `r`: the fold of `max` from the accumulator's value. -/
theorem reduceMax_cols_apply {φ : FTy} {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (r : Fin a) :
    multiReduction (F := Ideal) .maximumf [1] ⟨1, ![a]⟩ src acc h hφ hacc (ix1 r)
      = (Finset.univ : Finset (Fin b)).fold max (Ideal.ofBits φ acc) (fun k => src (ix2 r k)) := by
  refine (Ideal.multiReduction_maximumf_single src acc h hφ hacc (ix1 r)).trans ?_
  refine congrArg (fun g => (Finset.univ : Finset (Fin b)).fold max (Ideal.ofBits φ acc) g) (funext fun k => congrArg src (funext fun c => Fin.ext ?_))
  match c with
  | ⟨0, _⟩ => rfl
  | ⟨1, _⟩ => rfl

/-! ## The four products -/

/-! ### The product record `dot_S2000x128_S128x30_S2000x30_1_0_0_1_n_n`: operand indices by coordinates -/

theorem lhs_hw_0 (i : S2000x30.Idx) (q : dot_S2000x128_S128x30_S2000x30_1_0_0_1_n_n.contr.Idx) :
    (dot_S2000x128_S128x30_S2000x30_1_0_0_1_n_n.lhsIdx i q 0).val = (i 0).val := by
  unfold DotDims.lhsIdx
  rw [dif_neg (show ¬(0 : Fin S2000x128.rank) ∈ dot_S2000x128_S128x30_S2000x30_1_0_0_1_n_n.lhsBatch by decide), dif_pos (show (0 : Fin S2000x128.rank) ∈ dot_S2000x128_S128x30_S2000x30_1_0_0_1_n_n.lhsNonContracting by decide)]
  rfl
theorem lhs_hw_1 (i : S2000x30.Idx) (q : dot_S2000x128_S128x30_S2000x30_1_0_0_1_n_n.contr.Idx) :
    (dot_S2000x128_S128x30_S2000x30_1_0_0_1_n_n.lhsIdx i q 1).val = (q ⟨0, by decide⟩).val :=
  dot_S2000x128_S128x30_S2000x30_1_0_0_1_n_n.lhsIdx_val_of_single rfl i q
theorem rhs_hw_0 (i : S2000x30.Idx) (q : dot_S2000x128_S128x30_S2000x30_1_0_0_1_n_n.contr.Idx) :
    (dot_S2000x128_S128x30_S2000x30_1_0_0_1_n_n.rhsIdx i q 0).val = (q ⟨0, by decide⟩).val :=
  dot_S2000x128_S128x30_S2000x30_1_0_0_1_n_n.rhsIdx_val_of_single rfl i q
theorem rhs_hw_1 (i : S2000x30.Idx) (q : dot_S2000x128_S128x30_S2000x30_1_0_0_1_n_n.contr.Idx) :
    (dot_S2000x128_S128x30_S2000x30_1_0_0_1_n_n.rhsIdx i q 1).val = (i 1).val := by
  unfold DotDims.rhsIdx
  rw [dif_neg (show ¬(1 : Fin S128x30.rank) ∈ dot_S2000x128_S128x30_S2000x30_1_0_0_1_n_n.rhsBatch by decide), dif_pos (show (1 : Fin S128x30.rank) ∈ dot_S2000x128_S128x30_S2000x30_1_0_0_1_n_n.rhsNonContracting by decide)]
  rfl

/-- The features times the assignment weights, entry by entry. -/
theorem mm_hw_apply {φ₁ φ₂ : FTy} (A : FVec Ideal S2000x128 φ₁) (B : FVec Ideal S128x30 φ₂) (r : Fin 2000) (f : Fin 30) :
    matmul dot_S2000x128_S128x30_S2000x30_1_0_0_1_n_n none A B (constant S2000x30 .f32 0x00000000#32) (ix2 r f)
      = ∑ k : Fin 128, A (ix2 r k) * B (ix2 k f) := by
  refine (Ideal.matmul_constant_zero_apply dot_S2000x128_S128x30_S2000x30_1_0_0_1_n_n none A B (ix2 r f)).trans ?_
  rw [← Equiv.sum_comp (contrEquiv1 dot_S2000x128_S128x30_S2000x30_1_0_0_1_n_n 128 rfl rfl).symm]
  refine Finset.sum_congr rfl fun k _ => ?_
  have hk := contrEquiv1_symm_val dot_S2000x128_S128x30_S2000x30_1_0_0_1_n_n 128 rfl rfl k
  have el : dot_S2000x128_S128x30_S2000x30_1_0_0_1_n_n.lhsIdx (ix2 r f) ((contrEquiv1 dot_S2000x128_S128x30_S2000x30_1_0_0_1_n_n 128 rfl rfl).symm k) = ix2 r k := funext fun a => Fin.ext (by
    match a with
    | ⟨0, _⟩ => exact lhs_hw_0 _ _
    | ⟨1, _⟩ => exact (lhs_hw_1 _ _).trans hk)
  have er : dot_S2000x128_S128x30_S2000x30_1_0_0_1_n_n.rhsIdx (ix2 r f) ((contrEquiv1 dot_S2000x128_S128x30_S2000x30_1_0_0_1_n_n 128 rfl rfl).symm k) = ix2 k f := funext fun a => Fin.ext (by
    match a with
    | ⟨0, _⟩ => exact (rhs_hw_0 _ _).trans hk
    | ⟨1, _⟩ => exact rhs_hw_1 _ _)
  rw [el, er]

/-! ### The product record `dot_S2000x2000_S2000x30_S2000x30_1_0_0_1_n_n`: operand indices by coordinates -/

theorem lhs_agg_0 (i : S2000x30.Idx) (q : dot_S2000x2000_S2000x30_S2000x30_1_0_0_1_n_n.contr.Idx) :
    (dot_S2000x2000_S2000x30_S2000x30_1_0_0_1_n_n.lhsIdx i q 0).val = (i 0).val := by
  unfold DotDims.lhsIdx
  rw [dif_neg (show ¬(0 : Fin S2000x2000.rank) ∈ dot_S2000x2000_S2000x30_S2000x30_1_0_0_1_n_n.lhsBatch by decide), dif_pos (show (0 : Fin S2000x2000.rank) ∈ dot_S2000x2000_S2000x30_S2000x30_1_0_0_1_n_n.lhsNonContracting by decide)]
  rfl
theorem lhs_agg_1 (i : S2000x30.Idx) (q : dot_S2000x2000_S2000x30_S2000x30_1_0_0_1_n_n.contr.Idx) :
    (dot_S2000x2000_S2000x30_S2000x30_1_0_0_1_n_n.lhsIdx i q 1).val = (q ⟨0, by decide⟩).val :=
  dot_S2000x2000_S2000x30_S2000x30_1_0_0_1_n_n.lhsIdx_val_of_single rfl i q
theorem rhs_agg_0 (i : S2000x30.Idx) (q : dot_S2000x2000_S2000x30_S2000x30_1_0_0_1_n_n.contr.Idx) :
    (dot_S2000x2000_S2000x30_S2000x30_1_0_0_1_n_n.rhsIdx i q 0).val = (q ⟨0, by decide⟩).val :=
  dot_S2000x2000_S2000x30_S2000x30_1_0_0_1_n_n.rhsIdx_val_of_single rfl i q
theorem rhs_agg_1 (i : S2000x30.Idx) (q : dot_S2000x2000_S2000x30_S2000x30_1_0_0_1_n_n.contr.Idx) :
    (dot_S2000x2000_S2000x30_S2000x30_1_0_0_1_n_n.rhsIdx i q 1).val = (i 1).val := by
  unfold DotDims.rhsIdx
  rw [dif_neg (show ¬(1 : Fin S2000x30.rank) ∈ dot_S2000x2000_S2000x30_S2000x30_1_0_0_1_n_n.rhsBatch by decide), dif_pos (show (1 : Fin S2000x30.rank) ∈ dot_S2000x2000_S2000x30_S2000x30_1_0_0_1_n_n.rhsNonContracting by decide)]
  rfl

/-- The adjacency block times the transformed features, entry by entry. -/
theorem mm_agg_apply {φ₁ φ₂ : FTy} (A : FVec Ideal S2000x2000 φ₁) (B : FVec Ideal S2000x30 φ₂) (r : Fin 2000) (f : Fin 30) :
    matmul dot_S2000x2000_S2000x30_S2000x30_1_0_0_1_n_n none A B (constant S2000x30 .f32 0x00000000#32) (ix2 r f)
      = ∑ k : Fin 2000, A (ix2 r k) * B (ix2 k f) := by
  refine (Ideal.matmul_constant_zero_apply dot_S2000x2000_S2000x30_S2000x30_1_0_0_1_n_n none A B (ix2 r f)).trans ?_
  rw [← Equiv.sum_comp (contrEquiv1 dot_S2000x2000_S2000x30_S2000x30_1_0_0_1_n_n 2000 rfl rfl).symm]
  refine Finset.sum_congr rfl fun k _ => ?_
  have hk := contrEquiv1_symm_val dot_S2000x2000_S2000x30_S2000x30_1_0_0_1_n_n 2000 rfl rfl k
  have el : dot_S2000x2000_S2000x30_S2000x30_1_0_0_1_n_n.lhsIdx (ix2 r f) ((contrEquiv1 dot_S2000x2000_S2000x30_S2000x30_1_0_0_1_n_n 2000 rfl rfl).symm k) = ix2 r k := funext fun a => Fin.ext (by
    match a with
    | ⟨0, _⟩ => exact lhs_agg_0 _ _
    | ⟨1, _⟩ => exact (lhs_agg_1 _ _).trans hk)
  have er : dot_S2000x2000_S2000x30_S2000x30_1_0_0_1_n_n.rhsIdx (ix2 r f) ((contrEquiv1 dot_S2000x2000_S2000x30_S2000x30_1_0_0_1_n_n 2000 rfl rfl).symm k) = ix2 k f := funext fun a => Fin.ext (by
    match a with
    | ⟨0, _⟩ => exact (rhs_agg_0 _ _).trans hk
    | ⟨1, _⟩ => exact rhs_agg_1 _ _)
  rw [el, er]

/-! ### The product record `dot_S2000x30_S2000x128_S30x128_0_0_1_1_n_n` (both operands contracted on their rows): operand indices by coordinates -/

theorem lhs_pool_0 (i : S30x128.Idx) (q : dot_S2000x30_S2000x128_S30x128_0_0_1_1_n_n.contr.Idx) :
    (dot_S2000x30_S2000x128_S30x128_0_0_1_1_n_n.lhsIdx i q 0).val = (q ⟨0, by decide⟩).val :=
  dot_S2000x30_S2000x128_S30x128_0_0_1_1_n_n.lhsIdx_val_of_single rfl i q
theorem lhs_pool_1 (i : S30x128.Idx) (q : dot_S2000x30_S2000x128_S30x128_0_0_1_1_n_n.contr.Idx) :
    (dot_S2000x30_S2000x128_S30x128_0_0_1_1_n_n.lhsIdx i q 1).val = (i 0).val := by
  unfold DotDims.lhsIdx
  rw [dif_neg (show ¬(1 : Fin S2000x30.rank) ∈ dot_S2000x30_S2000x128_S30x128_0_0_1_1_n_n.lhsBatch by decide), dif_pos (show (1 : Fin S2000x30.rank) ∈ dot_S2000x30_S2000x128_S30x128_0_0_1_1_n_n.lhsNonContracting by decide)]
  rfl
theorem rhs_pool_0 (i : S30x128.Idx) (q : dot_S2000x30_S2000x128_S30x128_0_0_1_1_n_n.contr.Idx) :
    (dot_S2000x30_S2000x128_S30x128_0_0_1_1_n_n.rhsIdx i q 0).val = (q ⟨0, by decide⟩).val :=
  dot_S2000x30_S2000x128_S30x128_0_0_1_1_n_n.rhsIdx_val_of_single rfl i q
theorem rhs_pool_1 (i : S30x128.Idx) (q : dot_S2000x30_S2000x128_S30x128_0_0_1_1_n_n.contr.Idx) :
    (dot_S2000x30_S2000x128_S30x128_0_0_1_1_n_n.rhsIdx i q 1).val = (i 1).val := by
  unfold DotDims.rhsIdx
  rw [dif_neg (show ¬(1 : Fin S2000x128.rank) ∈ dot_S2000x30_S2000x128_S30x128_0_0_1_1_n_n.rhsBatch by decide), dif_pos (show (1 : Fin S2000x128.rank) ∈ dot_S2000x30_S2000x128_S30x128_0_0_1_1_n_n.rhsNonContracting by decide)]
  rfl

/-- The transposed assignment times the features: entry (k, d) sums over the nodes. -/
theorem mm_pool_apply {φ₁ φ₂ : FTy} (A : FVec Ideal S2000x30 φ₁) (B : FVec Ideal S2000x128 φ₂) (r : Fin 30) (f : Fin 128) :
    matmul dot_S2000x30_S2000x128_S30x128_0_0_1_1_n_n none A B (constant S30x128 .f32 0x00000000#32) (ix2 r f)
      = ∑ k : Fin 2000, A (ix2 k r) * B (ix2 k f) := by
  refine (Ideal.matmul_constant_zero_apply dot_S2000x30_S2000x128_S30x128_0_0_1_1_n_n none A B (ix2 r f)).trans ?_
  rw [← Equiv.sum_comp (contrEquiv1 dot_S2000x30_S2000x128_S30x128_0_0_1_1_n_n 2000 rfl rfl).symm]
  refine Finset.sum_congr rfl fun k _ => ?_
  have hk := contrEquiv1_symm_val dot_S2000x30_S2000x128_S30x128_0_0_1_1_n_n 2000 rfl rfl k
  have el : dot_S2000x30_S2000x128_S30x128_0_0_1_1_n_n.lhsIdx (ix2 r f) ((contrEquiv1 dot_S2000x30_S2000x128_S30x128_0_0_1_1_n_n 2000 rfl rfl).symm k) = ix2 k r := funext fun a => Fin.ext (by
    match a with
    | ⟨0, _⟩ => exact (lhs_pool_0 _ _).trans hk
    | ⟨1, _⟩ => exact lhs_pool_1 _ _)
  have er : dot_S2000x30_S2000x128_S30x128_0_0_1_1_n_n.rhsIdx (ix2 r f) ((contrEquiv1 dot_S2000x30_S2000x128_S30x128_0_0_1_1_n_n 2000 rfl rfl).symm k) = ix2 k f := funext fun a => Fin.ext (by
    match a with
    | ⟨0, _⟩ => exact (rhs_pool_0 _ _).trans hk
    | ⟨1, _⟩ => exact rhs_pool_1 _ _)
  rw [el, er]

/-! ### The product record `dot_S1x128_S128x128_S1x128_1_0_0_1_n_n`: operand indices by coordinates -/

theorem lhs_cls_0 (i : S1x128.Idx) (q : dot_S1x128_S128x128_S1x128_1_0_0_1_n_n.contr.Idx) :
    (dot_S1x128_S128x128_S1x128_1_0_0_1_n_n.lhsIdx i q 0).val = (i 0).val := by
  unfold DotDims.lhsIdx
  rw [dif_neg (show ¬(0 : Fin S1x128.rank) ∈ dot_S1x128_S128x128_S1x128_1_0_0_1_n_n.lhsBatch by decide), dif_pos (show (0 : Fin S1x128.rank) ∈ dot_S1x128_S128x128_S1x128_1_0_0_1_n_n.lhsNonContracting by decide)]
  rfl
theorem lhs_cls_1 (i : S1x128.Idx) (q : dot_S1x128_S128x128_S1x128_1_0_0_1_n_n.contr.Idx) :
    (dot_S1x128_S128x128_S1x128_1_0_0_1_n_n.lhsIdx i q 1).val = (q ⟨0, by decide⟩).val :=
  dot_S1x128_S128x128_S1x128_1_0_0_1_n_n.lhsIdx_val_of_single rfl i q
theorem rhs_cls_0 (i : S1x128.Idx) (q : dot_S1x128_S128x128_S1x128_1_0_0_1_n_n.contr.Idx) :
    (dot_S1x128_S128x128_S1x128_1_0_0_1_n_n.rhsIdx i q 0).val = (q ⟨0, by decide⟩).val :=
  dot_S1x128_S128x128_S1x128_1_0_0_1_n_n.rhsIdx_val_of_single rfl i q
theorem rhs_cls_1 (i : S1x128.Idx) (q : dot_S1x128_S128x128_S1x128_1_0_0_1_n_n.contr.Idx) :
    (dot_S1x128_S128x128_S1x128_1_0_0_1_n_n.rhsIdx i q 1).val = (i 1).val := by
  unfold DotDims.rhsIdx
  rw [dif_neg (show ¬(1 : Fin S128x128.rank) ∈ dot_S1x128_S128x128_S1x128_1_0_0_1_n_n.rhsBatch by decide), dif_pos (show (1 : Fin S128x128.rank) ∈ dot_S1x128_S128x128_S1x128_1_0_0_1_n_n.rhsNonContracting by decide)]
  rfl

/-- The pooled row times the classifier matrix, entry by entry. -/
theorem mm_cls_apply {φ₁ φ₂ : FTy} (A : FVec Ideal S1x128 φ₁) (B : FVec Ideal S128x128 φ₂) (r : Fin 1) (f : Fin 128) :
    matmul dot_S1x128_S128x128_S1x128_1_0_0_1_n_n none A B (constant S1x128 .f32 0x00000000#32) (ix2 r f)
      = ∑ k : Fin 128, A (ix2 r k) * B (ix2 k f) := by
  refine (Ideal.matmul_constant_zero_apply dot_S1x128_S128x128_S1x128_1_0_0_1_n_n none A B (ix2 r f)).trans ?_
  rw [← Equiv.sum_comp (contrEquiv1 dot_S1x128_S128x128_S1x128_1_0_0_1_n_n 128 rfl rfl).symm]
  refine Finset.sum_congr rfl fun k _ => ?_
  have hk := contrEquiv1_symm_val dot_S1x128_S128x128_S1x128_1_0_0_1_n_n 128 rfl rfl k
  have el : dot_S1x128_S128x128_S1x128_1_0_0_1_n_n.lhsIdx (ix2 r f) ((contrEquiv1 dot_S1x128_S128x128_S1x128_1_0_0_1_n_n 128 rfl rfl).symm k) = ix2 r k := funext fun a => Fin.ext (by
    match a with
    | ⟨0, _⟩ => exact lhs_cls_0 _ _
    | ⟨1, _⟩ => exact (lhs_cls_1 _ _).trans hk)
  have er : dot_S1x128_S128x128_S1x128_1_0_0_1_n_n.rhsIdx (ix2 r f) ((contrEquiv1 dot_S1x128_S128x128_S1x128_1_0_0_1_n_n 128 rfl rfl).symm k) = ix2 k f := funext fun a => Fin.ext (by
    match a with
    | ⟨0, _⟩ => exact (rhs_cls_0 _ _).trans hk
    | ⟨1, _⟩ => exact rhs_cls_1 _ _)
  rw [el, er]

/-! ## The kernel's second half, stage by stage

Each stage is the kernel's own term over the values before it; each lemma reads it at explicit coordinates as the
specification's function. -/

/-- The third layer's transformed features, the product of the features with the assignment weights. -/
def kHW (v35 : FVec Ideal S2000x128 .bf16) (v36 : Vec Ideal S128x30 .f32) : FVec Ideal S2000x30 .f32 :=
  matmul dot_S2000x128_S128x30_S2000x30_1_0_0_1_n_n none v35 (truncf .bf16 v36 bitsLt_bf16_f32) (constant S2000x30 .f32 0x00000000#32)

theorem kHW_apply (v35 : FVec Ideal S2000x128 .bf16) (v36 : Vec Ideal S128x30 .f32) (r : Fin 2000) (f : Fin 30) :
    kHW v35 v36 (ix2 r f) = lin (f2 (a := 2000) (b := 128) v35) (f2 (a := 128) (b := 30) v36) r f := by
  unfold kHW
  exact mm_hw_apply v35 (truncf .bf16 v36 bitsLt_bf16_f32) r f

/-- The assignment logits: aggregation plus self term plus bias, times the factor 1. -/
def kLogits (v1 : FVec Ideal S2000x2000 .bf16) (v3 : FVec Ideal S2000x1 .f32) (v35 : FVec Ideal S2000x128 .bf16)
    (v36 : Vec Ideal S128x30 .f32) (v44 : Vec Ideal S1x30 .f32) : FVec Ideal S2000x30 .f32 :=
  mulf (addf (addf (matmul dot_S2000x2000_S2000x30_S2000x30_1_0_0_1_n_n none v1 (truncf .bf16 (kHW v35 v36) bitsLt_bf16_f32) (constant S2000x30 .f32 0x00000000#32))
        (mulf (kHW v35 v36) (broadcastTo S2000x30 v3 broadcasts_S2000x1_S2000x30)))
      (broadcastTo S2000x30 (shapeCast S1x30 v44 shapeCasts_S1x30_S1x30) broadcasts_S1x30_S2000x30))
    (broadcast S2000x30 (Scalar.ofBits .f32 0x3F800000#32))

theorem kLogits_apply (v1 : FVec Ideal S2000x2000 .bf16) (v3 : FVec Ideal S2000x1 .f32) (v35 : FVec Ideal S2000x128 .bf16)
    (v36 : Vec Ideal S128x30 .f32) (v44 : Vec Ideal S1x30 .f32) (r : Fin 2000) (k : Fin 30) :
    kLogits v1 v3 v35 v36 v44 (ix2 r k)
      = layer (aggB (f2 (a := 2000) (b := 2000) v1) (lin (f2 (a := 2000) (b := 128) v35) (f2 (a := 128) (b := 30) v36)))
          (lin (f2 (a := 2000) (b := 128) v35) (f2 (a := 128) (b := 30) v36)) (fcol (a := 2000) v3) (frow (a := 30) v44) r k := by
  unfold kLogits
  rw [mulf_apply, addf_apply, addf_apply, mulf_apply, broadcast_apply, mm_agg_apply, broadcastTo_a1_ab_apply,
    broadcastTo_1b_ab_apply, shapeCast_self, kHW_apply]
  rw [show (Scalar.ofBits .f32 0x3F800000#32 : Ideal .f32) = 1 from Cert.LibWords.ofBits_one, mul_one]
  have hs : (∑ j : Fin 2000, v1 (ix2 r j) * (truncf .bf16 (kHW v35 v36) bitsLt_bf16_f32 : FVec Ideal S2000x30 .bf16) (ix2 j k))
      = aggB (f2 (a := 2000) (b := 2000) v1) (lin (f2 (a := 2000) (b := 128) v35) (f2 (a := 128) (b := 30) v36)) r k :=
    Finset.sum_congr rfl fun j _ => by rw [truncf_apply, kHW_apply]; rfl
  rw [hs]
  rfl

/-- The row maxima of the logits, from minus infinity. -/
def kMax (s : FVec Ideal S2000x30 .f32) : FVec Ideal S2000 .f32 :=
  maximumf (broadcast S2000 (Scalar.ofBits .f32 0xFF800000#32))
    (multiReduction .maximumf [1] S2000 s 0xFF800000#32 reduces_S2000x30_S2000 (.inl rfl) rfl)

theorem kMax_apply (s : FVec Ideal S2000x30 .f32) (r : Fin 2000) :
    kMax s (ix1 r) = rowMax (fun r k => s (ix2 r k)) r := by
  unfold kMax rowMax ninf
  exact congrArg (max (Ideal.ofBits .f32 0xFF800000#32)) (reduceMax_cols_apply s 0xFF800000#32 reduces_S2000x30_S2000 _ _ r)

/-- The shifted exponentials of the logits. -/
def kExp (s : FVec Ideal S2000x30 .f32) : FVec Ideal S2000x30 .f32 :=
  exp (subf s (broadcastTo S2000x30 (shapeCast S2000x1 (kMax s) shapeCasts_S2000_S2000x1) broadcasts_S2000x1_S2000x30))

theorem kExp_apply (s : FVec Ideal S2000x30 .f32) (r : Fin 2000) (k : Fin 30) :
    kExp s (ix2 r k) = rowExp (fun r k => s (ix2 r k)) r k := by
  unfold kExp rowExp
  show Ideal.exp (subf s _ (ix2 r k)) = _
  rw [subf_apply, broadcastTo_a1_ab_apply, shapeCast_a_a1_apply, kMax_apply]

/-- The row softmax of the logits. -/
def kSm (s : FVec Ideal S2000x30 .f32) : FVec Ideal S2000x30 .f32 :=
  divf (kExp s) (broadcastTo S2000x30 (shapeCast S2000x1
    (multiReduction .add [1] S2000 (kExp s) 0x00000000#32 reduces_S2000x30_S2000 (.inl rfl) rfl) shapeCasts_S2000_S2000x1) broadcasts_S2000x1_S2000x30)

theorem kSm_apply (s : FVec Ideal S2000x30 .f32) (r : Fin 2000) (k : Fin 30) :
    kSm s (ix2 r k) = softmax (fun r k => s (ix2 r k)) r k := by
  unfold kSm softmax
  rw [divf_apply, broadcastTo_a1_ab_apply, shapeCast_a_a1_apply, kExp_apply]
  refine congrArg (Ideal.div _) ?_
  refine (reduceAdd_cols_apply (kExp s) 0x00000000#32 reduces_S2000x30_S2000 _ _ r).trans ?_
  exact Finset.sum_congr rfl fun k' _ => kExp_apply s r k'

/-- The pooled features: the transposed assignment times the features, summed over the clusters, divided by 30. -/
def kPool (sm : FVec Ideal S2000x30 .f32) (v35 : FVec Ideal S2000x128 .bf16) : FVec Ideal S1x128 .f32 :=
  divf (shapeCast S1x128 (multiReduction .add [0] S128
      (matmul dot_S2000x30_S2000x128_S30x128_0_0_1_1_n_n none (truncf .bf16 sm bitsLt_bf16_f32) v35 (constant S30x128 .f32 0x00000000#32))
      0x00000000#32 reduces_S30x128_S128 (.inl rfl) rfl) shapeCasts_S128_S1x128)
    (broadcast S1x128 (Scalar.ofBits .f32 0x41F00000#32))

theorem kPool_apply (sm : FVec Ideal S2000x30 .f32) (v35 : FVec Ideal S2000x128 .bf16) (d : Fin 128) :
    kPool sm v35 (ix2 (0 : Fin 1) d) = Ideal.div (∑ k : Fin 30, ∑ n : Fin 2000, sm (ix2 n k) * v35 (ix2 n d)) thirty := by
  unfold kPool thirty
  rw [divf_apply, broadcast_apply, shapeCast_a_1a_apply]
  refine congrArg (fun x => Ideal.div x _) ?_
  refine (reduceAdd_rows_apply _ 0x00000000#32 reduces_S30x128_S128 _ _ d).trans ?_
  exact Finset.sum_congr rfl fun k _ => mm_pool_apply _ _ k d

/-- The classifier row: the pooled row times the classifier matrix plus the bias. -/
def kHead (p : FVec Ideal S1x128 .f32) (v67 : Vec Ideal S128x128 .f32) (v72 : Vec Ideal S1x128 .f32) : FVec Ideal S1x128 .f32 :=
  addf (matmul dot_S1x128_S128x128_S1x128_1_0_0_1_n_n none (truncf .bf16 p bitsLt_bf16_f32)
      (truncf .bf16 (shapeCast S128x128 v67 shapeCasts_S128x128_S128x128) bitsLt_bf16_f32) (constant S1x128 .f32 0x00000000#32))
    (shapeCast S1x128 v72 shapeCasts_S1x128_S1x128)

theorem kHead_apply (p : FVec Ideal S1x128 .f32) (v67 : Vec Ideal S128x128 .f32) (v72 : Vec Ideal S1x128 .f32) (l : Fin 128) :
    kHead p v67 v72 (ix2 (0 : Fin 1) l) = (∑ d : Fin 128, p (ix2 (0 : Fin 1) d) * v67 (ix2 d l)) + v72 (ix2 (0 : Fin 1) l) := by
  unfold kHead
  rw [addf_apply, mm_cls_apply, shapeCast_self, shapeCast_self]
  rfl

/-- The stored tile: the classifier row over seven zero rows, with a leading unit axis. -/
def kTile (row : FVec Ideal S1x128 .f32) : FVec Ideal S1x8x128 .f32 :=
  shapeCast S1x8x128 (concatenate S8x128 0 [⟨S1x128, row⟩, ⟨S7x128, broadcast S7x128 (Scalar.ofBits .f32 0x00000000#32)⟩]
    concatenates_S1x128_S7x128_S8x128_d0) shapeCasts_S8x128_S1x8x128

theorem kTile_apply (row : FVec Ideal S1x128 .f32) (l : Fin 128) :
    kTile row (ix3 (0 : Fin 1) (0 : Fin 8) l) = row (ix2 (0 : Fin 1) l) := by
  unfold kTile
  rw [shapeCast_ab_1ab_apply]
  refine concatenate_pair_apply_left (0 : Fin S8x128.rank) row _ concatenates_S1x128_S7x128_S8x128_d0 (ix2 (0 : Fin 8) l) rfl (ix2 (0 : Fin 1) l) fun b => ?_
  match b with
  | ⟨0, _⟩ => rfl
  | ⟨1, _⟩ => rfl

/-- The second half of the kernel body is the chain of these stages. -/
theorem k0_pay4_eq_chain (v1 : FVec Ideal S2000x2000 .bf16) (v3 : FVec Ideal S2000x1 .f32) (v35 : FVec Ideal S2000x128 .bf16)
    (v36 : Vec Ideal S128x30 .f32) (v44 : Vec Ideal S1x30 .f32) (v67 : Vec Ideal S128x128 .f32) (v72 : Vec Ideal S1x128 .f32) :
    k0_pay4 (F := Ideal) v1 v3 v35 v36 v44 v67 v72
      = kTile (kHead (kPool (kSm (kLogits v1 v3 v35 v36 v44)) v35) v67 v72) := rfl

/-- Lane l of row 0 of the stored tile is the specification's pooled logit for the classifier column l. -/
theorem pay4_eq (v1 : FVec Ideal S2000x2000 .bf16) (v3 : FVec Ideal S2000x1 .f32) (v35 : FVec Ideal S2000x128 .bf16)
    (v36 : Vec Ideal S128x30 .f32) (v44 : Vec Ideal S1x30 .f32) (v67 : Vec Ideal S128x128 .f32) (v72 : Vec Ideal S1x128 .f32) (l : Fin 128) :
    k0_pay4 (F := Ideal) v1 v3 v35 v36 v44 v67 v72 (ix3 (0 : Fin 1) (0 : Fin 8) l)
      = headAt (layer (aggB (f2 (a := 2000) (b := 2000) v1) (lin (f2 (a := 2000) (b := 128) v35) (f2 (a := 128) (b := 30) v36)))
            (lin (f2 (a := 2000) (b := 128) v35) (f2 (a := 128) (b := 30) v36)) (fcol (a := 2000) v3) (frow (a := 30) v44))
          (f2 (a := 2000) (b := 128) v35) (fun d => f2 (a := 128) (b := 128) v67 d l) (frow (a := 128) v72 l) := by
  rw [k0_pay4_eq_chain, kTile_apply, kHead_apply]
  have hS : (fun (r : Fin 2000) (k : Fin 30) => kLogits v1 v3 v35 v36 v44 (ix2 r k))
      = layer (aggB (f2 (a := 2000) (b := 2000) v1) (lin (f2 (a := 2000) (b := 128) v35) (f2 (a := 128) (b := 30) v36)))
          (lin (f2 (a := 2000) (b := 128) v35) (f2 (a := 128) (b := 30) v36)) (fcol (a := 2000) v3) (frow (a := 30) v44) :=
    funext fun r => funext fun k => kLogits_apply v1 v3 v35 v36 v44 r k
  unfold headAt
  refine congrArg (· + _) (Finset.sum_congr rfl fun d _ => congrArg (· * _) ?_)
  rw [kPool_apply]
  unfold Cert.Spec.pool
  rw [← hS]
  exact congrArg (fun x => Ideal.div x thirty) (Finset.sum_congr rfl fun k _ => Finset.sum_congr rfl fun n _ => by rw [kSm_apply]; rfl)

end Cert.KerPay4

end
-- ==== Proof.KerOut.lean ====
/-
  What one grid point stores, from its eleven input blocks: lane l of row 0 of the output tile is the specification's
  pooled logit of that graph for the classifier column l.
-/
import proofs.«425410_j807453851818_3_alg».proof.Proof.Gen.KernelIdeal.Frame
import proofs.«425410_j807453851818_3_alg».proof.Proof.KerPay3
import proofs.«425410_j807453851818_3_alg».proof.Proof.KerPay4

noncomputable section

open scoped BigOperators

namespace Cert.KerOut

open Idealize.ShloMosaic Idealize.ShloMosaic.TcCoe Idealize.ShloMosaic.ValueIdx Idealize.SL.Sem
open Cert.KernelIdeal Cert.KernelIdeal.Gen Cert.Spec

/-- The two zero offsets of a rank-2 whole-buffer rectangle. -/
theorem hz2 : (![0, 0] : Fin 2 → Nat) = fun _ => 0 := funext fun a => by
  match a with
  | ⟨0, _⟩ => rfl
  | ⟨1, _⟩ => rfl

/-- The three zero offsets of a rank-3 whole-buffer rectangle. -/
theorem hz3 : (![0, 0, 0] : Fin 3 → Nat) = fun _ => 0 := funext fun a => by
  match a with
  | ⟨0, _⟩ => rfl
  | ⟨1, _⟩ => rfl
  | ⟨2, _⟩ => rfl

/-- The output tile's row 0 at lane l. -/
theorem out_eq (x0 : Vec Ideal S2000x2000 .bf16) (x1 : Vec Ideal S2000x128 .f32) (x2 : Vec Ideal S2000x1 .f32) (x3 : Vec Ideal S128x128 .f32)
    (x4 : Vec Ideal S1x128 .f32) (x5 : Vec Ideal S128x128 .f32) (x6 : Vec Ideal S1x128 .f32) (x7 : Vec Ideal S128x30 .f32)
    (x8 : Vec Ideal S1x30 .f32) (x9 : Vec Ideal S128x128 .f32) (x10 : Vec Ideal S1x128 .f32) (l : Fin 128) :
    out0_11 (F := Ideal) x0 x1 x2 x3 x4 x5 x6 x7 x8 x9 x10 (ix3 (0 : Fin 1) (0 : Fin 8) l)
      = headAt (sB (f2 (a := 2000) (b := 2000) x0) (f2 (a := 2000) (b := 128) x1) (fcol (a := 2000) x2) (f2 (a := 128) (b := 128) x3)
            (frow (a := 128) x4) (f2 (a := 128) (b := 128) x5) (frow (a := 128) x6) (f2 (a := 128) (b := 30) x7) (frow (a := 30) x8))
          (h2B (f2 (a := 2000) (b := 2000) x0) (f2 (a := 2000) (b := 128) x1) (fcol (a := 2000) x2) (f2 (a := 128) (b := 128) x3)
            (frow (a := 128) x4) (f2 (a := 128) (b := 128) x5) (frow (a := 128) x6))
          (fun d => f2 (a := 128) (b := 128) x9 d l) (frow (a := 128) x10 l) := by
  unfold out0_11
  rw [View.canon_unit_zero hz3]
  simp only [View.ld_unit_zero (S := S2000x2000) hz2, View.ld_unit_zero (S := S2000x1) hz2,
    View.ld_unit_zero (S := S2000x128) hz2, View.ld_unit_zero (S := S128x128) hz2,
    View.ld_unit_zero (S := S1x128) hz2, View.ld_unit_zero (S := S128x30) hz2,
    View.ld_unit_zero (S := S1x30) hz2]
  rw [Cert.KerPay4.pay4_eq (k0_pay1 (F := Ideal) x0) (k0_pay2 (F := Ideal) x2)
    (k0_pay3 (F := Ideal) x0 x2 x1 x3 x4 x5 x6) x7 x8 x9 x10 l]
  rw [Cert.KerPay3.pay1_eq x0, Cert.KerPay3.pay2_eq x2, Cert.KerPay3.pay3_eq x0 x2 x1 x3 x4 x5 x6]
  rfl

end Cert.KerOut

end
-- ==== Proof.KerWords.lean ====
/-
  The flat cell of an edge, head · 2000 + (tail mod 2000), as the program computes it on 32-bit words.  The floor-mod by
  2000 is spelled as the truncating remainder followed by a correction that is made only when the remainder and the
  divisor have different signs; the cell is then moved up by 200000000 when it is negative.  When the two words are node
  numbers (below 100000) nothing wraps, no remainder and no cell is negative, no correction is made, and the cell read
  signed is head · 2000 + tail mod 2000 on the values.
-/
import proofs.«425410_j807453851818_3_alg».proof.Proof.LibWords
import Idealize.ShloMosaic.PureOps.Ideal
import Idealize.ShloMosaic.Lib.StableHlo.Predicate

noncomputable section

namespace Cert.KerWords

open Idealize.ShloMosaic Idealize.ShloMosaic.StableHlo.Predicate
open Cert.LibWords

/-! ## On single words -/

/-- Choosing on the bit 0 takes the second value. -/
theorem select_zero {α : Type} (a b : α) : Scalar.select 0#1 a b = b := by
  unfold Scalar.select; exact if_neg (by decide)

/-- Choosing on the bit 1 takes the first value. -/
theorem select_one {α : Type} (a b : α) : Scalar.select 1#1 a b = a := by
  unfold Scalar.select; exact if_pos rfl

/-- The divisor the floor-mod is computed with, "1 if the divisor is 0, else the divisor", is 2000. -/
theorem divisor_word : Scalar.select (IntOp.cmpi .eq 2000#32 0#32) 1#32 2000#32 = 2000#32 := by decide

/-- The floor-mod of a small non-negative word by 2000 is its truncating remainder: the remainder is not negative and
    neither is the divisor, so the correction is not made. -/
theorem floormod_word (a : BitVec 32) (ha : a.toNat < 2 ^ 31) :
    Scalar.select
        (IntOp.andi (IntOp.cmpi .ne (IntOp.cmpi .slt (IntOp.remsi .host a 2000#32) 0#32) (IntOp.cmpi .slt 2000#32 0#32))
          (IntOp.cmpi .ne (IntOp.remsi .host a 2000#32) 0#32))
        (IntOp.addi (IntOp.remsi .host a 2000#32) 2000#32) (IntOp.remsi .host a 2000#32)
      = IntOp.remsi .host a 2000#32 := by
  have hr := remsi_2000_lt .host a ha
  have h1 : IntOp.cmpi .slt 2000#32 0#32 = 0#1 := by decide
  have h2 : IntOp.cmpi .ne 0#1 0#1 = 0#1 := by decide
  have h3 : ∀ b : BitVec 1, IntOp.andi 0#1 b = 0#1 := by decide
  rw [cmpi_slt_zero _ (by omega), h1, h2, h3, select_zero]

/-- The flat cell of an edge with head word `h` and tail word `a`, both node numbers: the product, the sum and the
    remainder do not wrap, the cell is not negative and so is not moved, and read signed it is
    head · 2000 + tail mod 2000. -/
theorem cell_word (h a : BitVec 32) (hh : h.toNat < 100000) (ha : a.toNat < 100000) :
    (Scalar.select (IntOp.cmpi .slt (IntOp.addi (IntOp.muli h 2000#32) (IntOp.remsi .host a 2000#32)) 0#32)
        (IntOp.addi (IntOp.addi (IntOp.muli h 2000#32) (IntOp.remsi .host a 2000#32)) 200000000#32)
        (IntOp.addi (IntOp.muli h 2000#32) (IntOp.remsi .host a 2000#32))).toInt
      = ((h.toNat * 2000 + a.toNat % 2000 : ℕ) : ℤ) := by
  have hm := toNat_muli_2000 h (by omega)
  have hr := remsi_2000 .host a (by omega)
  have hc : (IntOp.addi (IntOp.muli h 2000#32) (IntOp.remsi .host a 2000#32)).toNat = h.toNat * 2000 + a.toNat % 2000 := by
    rw [toNat_addi _ _ (by rw [hm, hr]; omega), hm, hr]
  have hlt : (IntOp.addi (IntOp.muli h 2000#32) (IntOp.remsi .host a 2000#32)).toNat < 2 ^ 31 := by rw [hc]; omega
  rw [cmpi_slt_zero _ hlt, select_zero, toInt_of_lt hlt, hc]

/-- The same with the floor-mod and its divisor spelled as the program spells them. -/
theorem cell_word_spelled (h a : BitVec 32) (hh : h.toNat < 100000) (ha : a.toNat < 100000) :
    (Scalar.select
        (IntOp.cmpi .slt (IntOp.addi (IntOp.muli h 2000#32)
          (Scalar.select
            (IntOp.andi (IntOp.cmpi .ne (IntOp.cmpi .slt (IntOp.remsi .host a (Scalar.select (IntOp.cmpi .eq 2000#32 0#32) 1#32 2000#32)) 0#32) (IntOp.cmpi .slt (Scalar.select (IntOp.cmpi .eq 2000#32 0#32) 1#32 2000#32) 0#32))
              (IntOp.cmpi .ne (IntOp.remsi .host a (Scalar.select (IntOp.cmpi .eq 2000#32 0#32) 1#32 2000#32)) 0#32))
            (IntOp.addi (IntOp.remsi .host a (Scalar.select (IntOp.cmpi .eq 2000#32 0#32) 1#32 2000#32)) (Scalar.select (IntOp.cmpi .eq 2000#32 0#32) 1#32 2000#32)) (IntOp.remsi .host a (Scalar.select (IntOp.cmpi .eq 2000#32 0#32) 1#32 2000#32)))) 0#32)
        (IntOp.addi (IntOp.addi (IntOp.muli h 2000#32)
          (Scalar.select
            (IntOp.andi (IntOp.cmpi .ne (IntOp.cmpi .slt (IntOp.remsi .host a (Scalar.select (IntOp.cmpi .eq 2000#32 0#32) 1#32 2000#32)) 0#32) (IntOp.cmpi .slt (Scalar.select (IntOp.cmpi .eq 2000#32 0#32) 1#32 2000#32) 0#32))
              (IntOp.cmpi .ne (IntOp.remsi .host a (Scalar.select (IntOp.cmpi .eq 2000#32 0#32) 1#32 2000#32)) 0#32))
            (IntOp.addi (IntOp.remsi .host a (Scalar.select (IntOp.cmpi .eq 2000#32 0#32) 1#32 2000#32)) (Scalar.select (IntOp.cmpi .eq 2000#32 0#32) 1#32 2000#32)) (IntOp.remsi .host a (Scalar.select (IntOp.cmpi .eq 2000#32 0#32) 1#32 2000#32)))) 200000000#32)
        (IntOp.addi (IntOp.muli h 2000#32)
          (Scalar.select
            (IntOp.andi (IntOp.cmpi .ne (IntOp.cmpi .slt (IntOp.remsi .host a (Scalar.select (IntOp.cmpi .eq 2000#32 0#32) 1#32 2000#32)) 0#32) (IntOp.cmpi .slt (Scalar.select (IntOp.cmpi .eq 2000#32 0#32) 1#32 2000#32) 0#32))
              (IntOp.cmpi .ne (IntOp.remsi .host a (Scalar.select (IntOp.cmpi .eq 2000#32 0#32) 1#32 2000#32)) 0#32))
            (IntOp.addi (IntOp.remsi .host a (Scalar.select (IntOp.cmpi .eq 2000#32 0#32) 1#32 2000#32)) (Scalar.select (IntOp.cmpi .eq 2000#32 0#32) 1#32 2000#32)) (IntOp.remsi .host a (Scalar.select (IntOp.cmpi .eq 2000#32 0#32) 1#32 2000#32))))).toInt
      = ((h.toNat * 2000 + a.toNat % 2000 : ℕ) : ℤ) := by
  rw [divisor_word, floormod_word a (by omega)]
  exact cell_word h a hh ha

/-! ## On arrays of words: the printed operations, in order, over any shape -/

section Arrays

variable {s : Shape} (hb : (⟨0, ![]⟩ : Shape).BroadcastsInDim s ![])

/-- The divisor scalar: 2000 passed through "1 if it is 0, else itself". -/
def divisor : IVec ⟨0, ![]⟩ 32 :=
  select (cmpi .eq (constantI ⟨0, ![]⟩ 32 2000#32) (constantI ⟨0, ![]⟩ 32 0#32)) (constantI ⟨0, ![]⟩ 32 1#32) (constantI ⟨0, ![]⟩ 32 2000#32)

/-- The truncating remainders of the tail words by the divisor. -/
def trem (tl : IVec s 32) : IVec s 32 := Host.remsi tl (broadcastInDim s ![] hb divisor)

/-- The floor-mods of the tail words: the remainder, corrected where its sign differs from the divisor's and it is not 0. -/
def floormod (tl : IVec s 32) : IVec s 32 :=
  select
    (andi
      (cmpi .ne (cmpi .slt (trem hb tl) (broadcastInDim s ![] hb (constantI ⟨0, ![]⟩ 32 0#32)))
        (broadcastInDim s ![] hb (cmpi .slt divisor (constantI ⟨0, ![]⟩ 32 0#32))))
      (cmpi .ne (trem hb tl) (broadcastInDim s ![] hb (constantI ⟨0, ![]⟩ 32 0#32))))
    (addi (trem hb tl) (broadcastInDim s ![] hb divisor)) (trem hb tl)

/-- The cells before the move of the negative ones: head · 2000 + floor-mod of the tail. -/
def rawCells (tl hd : IVec s 32) : IVec s 32 :=
  addi (muli hd (broadcastInDim s ![] hb (constantI ⟨0, ![]⟩ 32 2000#32))) (floormod hb tl)

/-- The cells: a negative one moved up by 200000000. -/
def cells (tl hd : IVec s 32) : IVec s 32 :=
  select (cmpi .slt (rawCells hb tl hd) (broadcastInDim s ![] hb (constantI ⟨0, ![]⟩ 32 0#32)))
    (addi (rawCells hb tl hd) (broadcastInDim s ![] hb (constantI ⟨0, ![]⟩ 32 200000000#32))) (rawCells hb tl hd)

/-- At an edge whose two words are node numbers the cell, read signed, is head · 2000 + tail mod 2000. -/
theorem cells_toInt (tl hd : IVec s 32) (i : s.Idx) (ht : (tl i).toNat < 100000) (hh : (hd i).toNat < 100000) :
    (cells hb tl hd i).toInt = (((hd i).toNat * 2000 + (tl i).toNat % 2000 : ℕ) : ℤ) :=
  cell_word_spelled (hd i) (tl i) hh ht

end Arrays

end Cert.KerWords

end
-- ==== Proof.KerHost.lean ====
/-
  The arrays the region is launched on, as functions of the arguments.  The dense adjacency is built by one
  accumulating scatter of the edge coefficients into 200000000 zeros at the flat cells head · 2000 + (tail mod 2000), read as a
  100000 × 2000 matrix; with every index word a node number none of that arithmetic wraps, no cell is negative, and the
  matrix is the specification's `adj`.  The biases are re-laid as one-row matrices and the classifier is padded with zero
  columns from 10 to 128 lanes, which leaves its first 10 columns as they were.
-/
import proofs.«425410_j807453851818_3_alg».proof.Proof.Gen.KernelIdeal.Frame
import proofs.«425410_j807453851818_3_alg».proof.Proof.SpecDefs
import proofs.«425410_j807453851818_3_alg».proof.Proof.LibScatterGather
import proofs.«425410_j807453851818_3_alg».proof.Proof.LibWords
import proofs.«425410_j807453851818_3_alg».proof.Proof.EdgeFacts
import proofs.«425410_j807453851818_3_alg».proof.Proof.KerWords
import Idealize.ShloMosaic.Lib.StableHlo.Run
import Idealize.ShloMosaic.Lib.StableHlo.Predicate
import Idealize.ShloMosaic.Lib.Pipeline.Value
import Idealize.ShloMosaic.Lib.ValueIdx
import Idealize.ShloMosaic.Lib.ValueLayout
import Idealize.ShloMosaic.Lib.KernelVsHost
import Idealize.ShloMosaic.PureOps.Ideal.Laws

noncomputable section

open scoped BigOperators

namespace Cert.KerHost

open Idealize.ShloMosaic Idealize.ShloMosaic.TcCoe Idealize.ShloMosaic.ValueIdx Idealize.SL.Sem
open Cert.KernelIdeal Cert.KernelIdeal.Gen Cert.Spec

variable (m : (ℓ : Loc nD τ sig) → Buf (Elt Ideal) ℓ) (c : Dev nD)

/-- The edge list as the kernel's program receives it. -/
abbrev edges : IVec S2x1600000 32 := m ((c.tc : Thread nD τ).loc main_arg1)

/-- The tail words as a vector: row 0 of the edge list. -/
theorem adj_e1 : (V (F := Ideal) m c main_v1 : IVec S1600000 32)
    = shapeCast S1600000 (extractStridedSlice S1x1600000 ![0, 0] (edges m c) slices_S2x1600000_S1x1600000_0_0) shapeCasts_S1x1600000_S1600000 := by
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results_simp <;> rfl

/-- The head words as a vector: row 1 of the edge list. -/
theorem adj_e3 : (V (F := Ideal) m c main_v3 : IVec S1600000 32)
    = shapeCast S1600000 (extractStridedSlice S1x1600000 ![1, 0] (edges m c) slices_S2x1600000_S1x1600000_1_0) shapeCasts_S1x1600000_S1600000 := by
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results_simp <;> rfl

set_option maxHeartbeats 1000000 in
/-- The scatter's positions are the cells of the tail and head words. -/
theorem adj_e37 : (V (F := Ideal) m c main_v37 : IVec S1600000 32)
    = Cert.KerWords.cells bcast_S_S1600000 (V (F := Ideal) m c main_v1 : IVec S1600000 32) (V (F := Ideal) m c main_v3 : IVec S1600000 32) := by
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results_simp <;> rfl

set_option maxHeartbeats 1000000 in
/-- The adjacency array: the coefficients scattered into zeros at the cells, re-laid as a matrix. -/
theorem adj_e41 : (V (F := Ideal) m c main_v41 : FVec Ideal S100000x2000 .bf16)
    = truncf (F := Ideal) .bf16 (shapeCast S100000x2000 (Host.scatterAdd (F := Ideal) scatter_S200000000_S1600000x1_S1600000_n_0_0_1
          (broadcastInDim S200000000 ![] bcast_S_S200000000 (constant (F := Ideal) S_ .f32 0x00000000#32))
          (broadcastInDim S1600000x1 ![0] bcast_S1600000_S1600000x1_0 (V (F := Ideal) m c main_v37 : IVec S1600000 32))
          (V (F := Ideal) m c main_v25 : FVec Ideal S1600000 .f32)) shapeCasts_S200000000_S100000x2000) bitsLt_bf16_f32 := by
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results_simp <;> rfl

/-- The tail word of edge e. -/
theorem adj_tail (e : Fin 1600000) :
    (V (F := Ideal) m c main_v1 : IVec S1600000 32) (ix1 e) = edges m c (ix2 (0 : Fin 2) e) := by
  rw [adj_e1, shapeCast_apply _ shapeCasts_S1x1600000_S1600000 (ix1 e) (ix2 (0 : Fin 1) e) (by
    rw [Shape.rowMajor_val_two, Shape.rowMajor_val_one]; show 0 * 1600000 + e.val = e.val; omega)]
  exact extractStridedSlice_apply ![0, 0] (edges m c) slices_S2x1600000_S1x1600000_0_0 (ix2 (0 : Fin 1) e) (ix2 (0 : Fin 2) e)
    (fun a => match a with
      | ⟨0, _⟩ => by show (0 : ℕ) = 0 + 0; rfl
      | ⟨1, _⟩ => by show e.val = 0 + e.val; omega)

/-- The head word of edge e. -/
theorem adj_head (e : Fin 1600000) :
    (V (F := Ideal) m c main_v3 : IVec S1600000 32) (ix1 e) = edges m c (ix2 (1 : Fin 2) e) := by
  rw [adj_e3, shapeCast_apply _ shapeCasts_S1x1600000_S1600000 (ix1 e) (ix2 (0 : Fin 1) e) (by
    rw [Shape.rowMajor_val_two, Shape.rowMajor_val_one]; show 0 * 1600000 + e.val = e.val; omega)]
  exact extractStridedSlice_apply ![1, 0] (edges m c) slices_S2x1600000_S1x1600000_1_0 (ix2 (0 : Fin 1) e) (ix2 (1 : Fin 2) e)
    (fun a => match a with
      | ⟨0, _⟩ => by show (1 : ℕ) = 1 + 0; rfl
      | ⟨1, _⟩ => by show e.val = 0 + e.val; omega)

/-- The scatter's position of edge e, read signed, is the flat cell head · 2000 + tail mod 2000. -/
theorem adj_cell (hr : InRange (edges m c)) (e : Fin 1600000) :
    ((V (F := Ideal) m c main_v37 : IVec S1600000 32) (ix1 e)).toInt
      = (((edges m c (ix2 (1 : Fin 2) e)).toNat * 2000 + (edges m c (ix2 (0 : Fin 2) e)).toNat % 2000 : ℕ) : ℤ) := by
  rw [adj_e37, Cert.KerWords.cells_toInt bcast_S_S1600000 _ _ (ix1 e) (by rw [adj_tail]; exact hr 0 e) (by rw [adj_head]; exact hr 1 e),
    adj_tail, adj_head]

/-- The adjacency the region is launched on is the specification's, of the kernel's own coefficient buffer: entry (i, j)
    is cell i · 2000 + j of the scatter, which is 0 plus the coefficients of the edges whose position is that cell. -/
theorem V_adj' (hr : InRange (edges m c)) :
    f2 (a := 100000) (b := 2000) (V (F := Ideal) m c main_v41)
      = adj (srcOf (edges m c)) (dstOf (edges m c)) (f1 (a := 1600000) (V (F := Ideal) m c main_v25)) := by
  funext i j
  have hij : i.val * 2000 + j.val < 200000000 := by have := i.isLt; have := j.isLt; omega
  show (V (F := Ideal) m c main_v41 : FVec Ideal S100000x2000 .bf16) (ix2 i j) = _
  rw [adj_e41]
  show shapeCast S100000x2000 (Host.scatterAdd (F := Ideal) scatter_S200000000_S1600000x1_S1600000_n_0_0_1
      (broadcastInDim S200000000 ![] bcast_S_S200000000 (constant (F := Ideal) S_ .f32 0x00000000#32))
      (broadcastInDim S1600000x1 ![0] bcast_S1600000_S1600000x1_0 (V (F := Ideal) m c main_v37 : IVec S1600000 32))
      (V (F := Ideal) m c main_v25 : FVec Ideal S1600000 .f32)) shapeCasts_S200000000_S100000x2000 (ix2 i j) = _
  rw [shapeCast_apply _ shapeCasts_S200000000_S100000x2000 (ix2 i j) (ix1 (⟨i.val * 2000 + j.val, hij⟩ : Fin 200000000)) (by
    rw [Shape.rowMajor_val_two, Shape.rowMajor_val_one]; rfl)]
  rw [Cert.LibSG.scatterAdd_flat scatter_S200000000_S1600000x1_S1600000_n_0_0_1 rfl rfl rfl rfl]
  rw [show broadcastInDim S200000000 ![] bcast_S_S200000000 (constant (F := Ideal) S_ .f32 0x00000000#32)
        (ix1 (⟨i.val * 2000 + j.val, hij⟩ : Fin 200000000)) = Ideal.ofBits .f32 0#32 from rfl,
    Cert.LibWords.ofBits_zero, zero_add]
  unfold adj
  refine Finset.sum_congr (Finset.filter_congr fun e _ => ?_) (fun e _ => rfl)
  rw [broadcastInDim_apply _ bcast_S1600000_S1600000x1_0 (V (F := Ideal) m c main_v37 : IVec S1600000 32) (StableHlo.Predicate.ixP e) (ix1 e)
    (fun a => match a with
      | ⟨0, _⟩ => by show e.val = if (1600000 : Nat) = 1 then 0 else e.val; rw [if_neg (by decide)])]
  rw [adj_cell m c hr e, srcOf_val _ hr, dstOf_val _ hr]
  exact Nat.cast_inj

/-- The adjacency the region is launched on is the specification's, of the kernel's own coefficient buffer. -/
theorem V_adj (hr : InRange (edges m c)) :
    f2 (a := 100000) (b := 2000) (V (F := Ideal) m c main_v41)
      = adj (srcOf (edges m c)) (dstOf (edges m c)) (f1 (a := 1600000) (V (F := Ideal) m c main_v25)) :=
  V_adj' m c hr

/-- The first bias as a one-row matrix. -/
theorem V_b1 : frow (a := 128) (V (F := Ideal) m c main_v45) = f1 (a := 128) (m ((c.tc : Thread nD τ).loc main_arg4)) := by
  have e : (V (F := Ideal) m c main_v45 : S1x128.Idx → EReal)
      = shapeCast S1x128 (m ((c.tc : Thread nD τ).loc main_arg4) : S128.Idx → EReal) shapeCasts_S128_S1x128 := by
    dsimp only [Gen.V, Gen.V0]
    simp only [Gen.hostOps0, Gen.hostOps0_1, Gen.hostOps0_2, Gen.hostOps0_3, Gen.hostOps0_4, Gen.hostOps0_5, Gen.hostOps0_6, List.flatten_cons, List.flatten_nil, List.append_nil, List.cons_append, List.nil_append]
    after_results_simp
    rfl
  funext i
  show (V (F := Ideal) m c main_v45 : S1x128.Idx → EReal) (ix2 (0 : Fin 1) i) = _
  rw [e]
  exact shapeCast_apply _ _ (ix2 (0 : Fin 1) i) (ix1 i) (by
    rw [Shape.rowMajor_val_two, Shape.rowMajor_val_one]; show i.val = 0 * 128 + i.val; omega)
/-- The second bias as a one-row matrix. -/
theorem V_b2 : frow (a := 128) (V (F := Ideal) m c main_v46) = f1 (a := 128) (m ((c.tc : Thread nD τ).loc main_arg6)) := by
  have e : (V (F := Ideal) m c main_v46 : S1x128.Idx → EReal)
      = shapeCast S1x128 (m ((c.tc : Thread nD τ).loc main_arg6) : S128.Idx → EReal) shapeCasts_S128_S1x128 := by
    dsimp only [Gen.V, Gen.V0]
    simp only [Gen.hostOps0, Gen.hostOps0_1, Gen.hostOps0_2, Gen.hostOps0_3, Gen.hostOps0_4, Gen.hostOps0_5, Gen.hostOps0_6, List.flatten_cons, List.flatten_nil, List.append_nil, List.cons_append, List.nil_append]
    after_results_simp
    rfl
  funext i
  show (V (F := Ideal) m c main_v46 : S1x128.Idx → EReal) (ix2 (0 : Fin 1) i) = _
  rw [e]
  exact shapeCast_apply _ _ (ix2 (0 : Fin 1) i) (ix1 i) (by
    rw [Shape.rowMajor_val_two, Shape.rowMajor_val_one]; show i.val = 0 * 128 + i.val; omega)
/-- The third bias as a one-row matrix. -/
theorem V_ba : frow (a := 30) (V (F := Ideal) m c main_v47) = f1 (a := 30) (m ((c.tc : Thread nD τ).loc main_arg8)) := by
  have e : (V (F := Ideal) m c main_v47 : S1x30.Idx → EReal)
      = shapeCast S1x30 (m ((c.tc : Thread nD τ).loc main_arg8) : S30.Idx → EReal) shapeCasts_S30_S1x30 := by
    dsimp only [Gen.V, Gen.V0]
    simp only [Gen.hostOps0, Gen.hostOps0_1, Gen.hostOps0_2, Gen.hostOps0_3, Gen.hostOps0_4, Gen.hostOps0_5, Gen.hostOps0_6, List.flatten_cons, List.flatten_nil, List.append_nil, List.cons_append, List.nil_append]
    after_results_simp
    rfl
  funext i
  show (V (F := Ideal) m c main_v47 : S1x30.Idx → EReal) (ix2 (0 : Fin 1) i) = _
  rw [e]
  exact shapeCast_apply _ _ (ix2 (0 : Fin 1) i) (ix1 i) (by
    rw [Shape.rowMajor_val_two, Shape.rowMajor_val_one]; show i.val = 0 * 30 + i.val; omega)
/-- The padded classifier matrix keeps its first 10 columns. -/
theorem V_wl (d : Fin 128) (cl : Fin 10) :
    V (F := Ideal) m c main_v42 (ix2 d (Fin.castLE (by omega) cl : Fin 128)) = m ((c.tc : Thread nD τ).loc main_arg9) (ix2 d cl) := by
  have e : (V (F := Ideal) m c main_v42 : S128x128.Idx → EReal)
      = pad S128x128 ![0, 0] ![0, 118] ![0, 0] (m ((c.tc : Thread nD τ).loc main_arg9) : S128x10.Idx → EReal)
          (sitofp (F := Ideal) .f32 (constantI S_ 32 0#32)) pads_S128x10_S128x128_000_01180 h_S_ := by
    dsimp only [Gen.V, Gen.V0]
    simp only [Gen.hostOps0, Gen.hostOps0_1, Gen.hostOps0_2, Gen.hostOps0_3, Gen.hostOps0_4, Gen.hostOps0_5, Gen.hostOps0_6, List.flatten_cons, List.flatten_nil, List.append_nil, List.cons_append, List.nil_append]
    after_results_simp
    rfl
  rw [e]
  -- a column below 10 lies inside the operand: no low padding, no interior padding
  exact pad_apply_of_inside _ _ _ _ _ _ _ _ (ix2 d cl) (by
    intro a
    match a with
    | ⟨0, _⟩ => show d.val = 0 + d.val * (0 + 1); omega
    | ⟨1, _⟩ => show cl.val = 0 + cl.val * (0 + 1); omega)
/-- The padded classifier bias, as a one-row matrix, keeps its first 10 entries. -/
theorem V_bl (cl : Fin 10) :
    V (F := Ideal) m c main_v44 (ix2 (0 : Fin 1) (Fin.castLE (by omega) cl : Fin 128)) = m ((c.tc : Thread nD τ).loc main_arg10) (ix1 cl) := by
  have e : (V (F := Ideal) m c main_v44 : S1x128.Idx → EReal)
      = shapeCast S1x128 (pad S128 ![0] ![118] ![0] (m ((c.tc : Thread nD τ).loc main_arg10) : S10.Idx → EReal)
          (sitofp (F := Ideal) .f32 (constantI S_ 32 0#32)) pads_S10_S128_01180 h_S_) shapeCasts_S128_S1x128 := by
    dsimp only [Gen.V, Gen.V0]
    simp only [Gen.hostOps0, Gen.hostOps0_1, Gen.hostOps0_2, Gen.hostOps0_3, Gen.hostOps0_4, Gen.hostOps0_5, Gen.hostOps0_6, List.flatten_cons, List.flatten_nil, List.append_nil, List.cons_append, List.nil_append]
    after_results_simp
    rfl
  rw [e, shapeCast_apply _ _ (ix2 (0 : Fin 1) (Fin.castLE (by omega) cl : Fin 128)) (ix1 (Fin.castLE (by omega) cl : Fin 128)) (by
    rw [Shape.rowMajor_val_two, Shape.rowMajor_val_one]; show cl.val = 0 * 128 + cl.val; omega)]
  exact pad_apply_of_inside _ _ _ _ _ _ _ _ (ix1 cl) (by
    intro a
    match a with
    | ⟨0, _⟩ => show cl.val = 0 + cl.val * (0 + 1); omega)

end Cert.KerHost

end
-- ==== Proof.KerShared.lean ====
/-
  The kernel's program computes the edge coefficients and the self-coefficients with the same operations, in the same
  order, as the reference: its two buffers are the reference's two stages of the same index words.
-/
import proofs.«425410_j807453851818_3_alg».proof.Proof.Gen.KernelIdeal.Frame
import proofs.«425410_j807453851818_3_alg».proof.Proof.Gen.ReferenceIdeal.Read
import proofs.«425410_j807453851818_3_alg».proof.Proof.SpecDefs
import Idealize.ShloMosaic.Lib.StableHlo.Run

noncomputable section

open scoped BigOperators

namespace Cert.KerShared

open Idealize.ShloMosaic Idealize.ShloMosaic.TcCoe Idealize.ShloMosaic.ValueIdx Idealize.SL.Sem
open Cert.KernelIdeal Cert.KernelIdeal.Gen Cert.Spec

variable (m : (ℓ : Loc nD τ sig) → Buf (Elt Ideal) ℓ) (c : Dev nD)

set_option maxHeartbeats 1000000 in
/-- The kernel's coefficient buffer is the reference's coefficient stage: each buffer's contents are its operation's
    value of its operands' contents, and the two compositions are the same operations of the same index words. -/
theorem V_coef : (V (F := Ideal) m c main_v25 : S1600000.Idx → EReal)
    = Cert.ReferenceIdeal.Read.val_main_v25 (F := Ideal) (m ((c.tc : Thread nD τ).loc main_arg1)) := by
  show (V m c main_v25 : _) = _
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results_simp
  rfl

set_option maxHeartbeats 1000000 in
/-- The kernel's self-coefficient buffer is the reference's self-coefficient stage, likewise. -/
theorem V_sc : (V (F := Ideal) m c main_v27 : S100000x1.Idx → EReal)
    = Cert.ReferenceIdeal.Read.val_main_v27 (F := Ideal) (m ((c.tc : Thread nD τ).loc main_arg1)) := by
  show (V m c main_v27 : _) = _
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results_simp
  rfl

end Cert.KerShared

end
-- ==== Proof.KerValue.lean ====
/-
  The kernel program's logits as the specification's `kerOut` of the argument arrays, and the run that produces them.

  Logit (b, cl) is row 0, lane cl of the tile grid point b stores; that tile is the specification's pooling of graph b
  computed from point b's blocks; the blocks are graph b's rows of the adjacency, the features and the
  self-coefficients, and the weights whole; the adjacency is the specification's dense adjacency of the edge list, and
  the coefficients are the reference's own stages of the same index words.
-/
import proofs.«425410_j807453851818_3_alg».proof.Proof.KerBlocks
import proofs.«425410_j807453851818_3_alg».proof.Proof.KerOut
import proofs.«425410_j807453851818_3_alg».proof.Proof.KerHost
import proofs.«425410_j807453851818_3_alg».proof.Proof.KerShared
import proofs.«425410_j807453851818_3_alg».proof.Proof.Shared

noncomputable section

open scoped BigOperators

namespace Cert.KerValue

open Idealize.ShloMosaic Idealize.ShloMosaic.TcCoe Idealize.ShloMosaic.ValueIdx Idealize.SL.Sem
open Cert.KernelIdeal Cert.KernelIdeal.Gen Cert.Spec
open Cert.KerBlocks Cert.KerHost

variable (m : (ℓ : Loc nD τ sig) → Buf (Elt Ideal) ℓ) (c : Dev nD)

/-- Logit (b, cl) of the kernel's program, when every index word is a node number. -/
theorem ker_value (hr : InRange (edges m c)) (b : Fin 50) (cl : Fin 10) :
    (Pipeline.afterTail₀ cfgs (dats (F := Ideal) m) 0 (V0 (F := Ideal) m) [hostOps1] c main_v50 : S50x10.Idx → EReal) (ix2 b cl)
      = kerOut (adj (srcOf (edges m c)) (dstOf (edges m c)) (Cert.Shared.coefT (edges m c))) (Cert.Shared.scT (edges m c))
          (f2 (a := 100000) (b := 128) (m ((c.tc : Thread nD τ).loc main_arg0)))
          (f2 (a := 128) (b := 128) (m ((c.tc : Thread nD τ).loc main_arg3))) (f1 (a := 128) (m ((c.tc : Thread nD τ).loc main_arg4)))
          (f2 (a := 128) (b := 128) (m ((c.tc : Thread nD τ).loc main_arg5))) (f1 (a := 128) (m ((c.tc : Thread nD τ).loc main_arg6)))
          (f2 (a := 128) (b := 30) (m ((c.tc : Thread nD τ).loc main_arg7))) (f1 (a := 30) (m ((c.tc : Thread nD τ).loc main_arg8)))
          (f2 (a := 128) (b := 10) (m ((c.tc : Thread nD τ).loc main_arg9))) (f1 (a := 10) (m ((c.tc : Thread nD τ).loc main_arg10))) b cl := by
  -- the adjacency, with the coefficients named as the reference's stage
  have hcoef : f1 (a := 1600000) (V (F := Ideal) m c main_v25) = Cert.Shared.coefT (edges m c) := by
    unfold Cert.Shared.coefT
    exact congrArg (f1 (a := 1600000)) (Cert.KerShared.V_coef m c)
  have hA : f2 (a := 2000) (b := 2000) (bA m c (pt b))
      = blk (adj (srcOf (edges m c)) (dstOf (edges m c)) (Cert.Shared.coefT (edges m c))) b := by
    rw [blockA m c b]
    refine congrArg (fun A => blk A b) ?_
    exact (V_adj m c hr).trans (by rw [hcoef])
  have hX : f2 (a := 2000) (b := 128) (bX m c (pt b)) = blk (f2 (a := 100000) (b := 128) (m ((c.tc : Thread nD τ).loc main_arg0))) b := by
    rw [blockX m c b]
    refine congrArg (fun A => blk A b) ?_
    exact congrArg (f2 (a := 100000) (b := 128)) (V_main_arg0 m c)
  have hSc : fcol (a := 2000) (bSc m c (pt b)) = blkv (Cert.Shared.scT (edges m c)) b := by
    rw [blockSc m c b]
    refine congrArg (fun v => blkv v b) ?_
    unfold Cert.Shared.scT
    exact congrArg (fcol (a := 100000)) (Cert.KerShared.V_sc m c)
  have hW1 : f2 (a := 128) (b := 128) (bW1 m c (pt b)) = f2 (a := 128) (b := 128) (m ((c.tc : Thread nD τ).loc main_arg3)) := by
    rw [blockW1 m c (pt b)]; exact congrArg (f2 (a := 128) (b := 128)) (V_main_arg3 m c)
  have hB1 : frow (a := 128) (bB1 m c (pt b)) = f1 (a := 128) (m ((c.tc : Thread nD τ).loc main_arg4)) := by
    rw [blockB1 m c (pt b)]; exact V_b1 m c
  have hW2 : f2 (a := 128) (b := 128) (bW2 m c (pt b)) = f2 (a := 128) (b := 128) (m ((c.tc : Thread nD τ).loc main_arg5)) := by
    rw [blockW2 m c (pt b)]; exact congrArg (f2 (a := 128) (b := 128)) (V_main_arg5 m c)
  have hB2 : frow (a := 128) (bB2 m c (pt b)) = f1 (a := 128) (m ((c.tc : Thread nD τ).loc main_arg6)) := by
    rw [blockB2 m c (pt b)]; exact V_b2 m c
  have hWa : f2 (a := 128) (b := 30) (bWa m c (pt b)) = f2 (a := 128) (b := 30) (m ((c.tc : Thread nD τ).loc main_arg7)) := by
    rw [blockWa m c (pt b)]; exact congrArg (f2 (a := 128) (b := 30)) (V_main_arg7 m c)
  have hBa : frow (a := 30) (bBa m c (pt b)) = f1 (a := 30) (m ((c.tc : Thread nD τ).loc main_arg8)) := by
    rw [blockBa m c (pt b)]; exact V_ba m c
  have hWl : (fun d : Fin 128 => f2 (a := 128) (b := 128) (bWl m c (pt b)) d (Fin.castLE (by omega) cl : Fin 128))
      = fun d : Fin 128 => f2 (a := 128) (b := 10) (m ((c.tc : Thread nD τ).loc main_arg9)) d cl := by
    funext d
    rw [blockWl m c (pt b)]
    exact V_wl m c d cl
  have hBl : frow (a := 128) (bBl m c (pt b)) (Fin.castLE (by omega) cl : Fin 128) = f1 (a := 10) (m ((c.tc : Thread nD τ).loc main_arg10)) cl := by
    rw [blockBl m c (pt b)]
    exact V_bl m c cl
  rw [tail_eq m c b cl, out_block m c b (0 : Fin 8) (Fin.castLE (by omega) cl : Fin 128), Cert.KerOut.out_eq,
    hA, hX, hSc, hW1, hB1, hW2, hB2, hWa, hBa, hWl, hBl]
  rfl

/-- The kernel's program runs, ends with its result at the tail's value, and keeps its arguments. -/
theorem run_value (ρ : Dev nD → PrngReg) :
    θ_run defs (onTc (τ := τ) (main (F := Ideal))) ⟨m, fun _ => 0, ρ⟩ (fun r => ∀ c : Dev nD,
      r.2.mem ((c.tc : Thread nD τ).loc main_v50) = Pipeline.afterTail₀ cfgs (dats (F := Ideal) m) 0 (V0 (F := Ideal) m) [hostOps1] c main_v50
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨(h c).2 main_v50 (Pipeline.mem_restRefs_of main_v50 (by decide) (by decide)),
      ((h c).1 1).trans ((((dats (F := Ideal) m) 0 c).arrAt_in 1 rfl _).trans ((A_eq m c 1).trans (V_main_arg0 m c))),
      (((h c).2 main_arg1 (Pipeline.mem_restRefs_of main_arg1 (by decide) (by decide))).trans (W_main_arg1 m (dats (F := Ideal) m) c)),
      (((h c).2 main_arg2 (Pipeline.mem_restRefs_of main_arg2 (by decide) (by decide))).trans (W_main_arg2 m (dats (F := Ideal) m) c)),
      ((h c).1 3).trans ((((dats (F := Ideal) m) 0 c).arrAt_in 3 rfl _).trans ((A_eq m c 3).trans (V_main_arg3 m c))),
      (((h c).2 main_arg4 (Pipeline.mem_restRefs_of main_arg4 (by decide) (by decide))).trans (W_main_arg4 m (dats (F := Ideal) m) c)),
      ((h c).1 5).trans ((((dats (F := Ideal) m) 0 c).arrAt_in 5 rfl _).trans ((A_eq m c 5).trans (V_main_arg5 m c))),
      (((h c).2 main_arg6 (Pipeline.mem_restRefs_of main_arg6 (by decide) (by decide))).trans (W_main_arg6 m (dats (F := Ideal) m) c)),
      ((h c).1 7).trans ((((dats (F := Ideal) m) 0 c).arrAt_in 7 rfl _).trans ((A_eq m c 7).trans (V_main_arg7 m c))),
      (((h c).2 main_arg8 (Pipeline.mem_restRefs_of main_arg8 (by decide) (by decide))).trans (W_main_arg8 m (dats (F := Ideal) m) c)),
      (((h c).2 main_arg9 (Pipeline.mem_restRefs_of main_arg9 (by decide) (by decide))).trans (W_main_arg9 m (dats (F := Ideal) m) c)),
      (((h c).2 main_arg10 (Pipeline.mem_restRefs_of main_arg10 (by decide) (by decide))).trans (W_main_arg10 m (dats (F := Ideal) m) c))⟩)
    (run_main (F := Ideal) m ρ)

end Cert.KerValue

end
-- ==== Proof.lean ====
/-
  The kernel's program and the reference compute the same graph-classification logits on the extended reals.

  Both programs take node features, an edge list and the weights of three graph-convolution layers and a classifier.
  They compute the same degrees, edge coefficients and self-coefficients from the index words.  The reference adds, layer by
  layer, each edge's contribution into the edge's head; the kernel first sums the edge coefficients into a dense adjacency
  with one 2000 × 2000 block per graph and multiplies each block with the graph's rows.  The two agree when every endpoint
  is a node number and every edge stays inside one graph of 2000 consecutive nodes (the precondition's two integer
  conjuncts): the dense product regroups the reference's sum over the edges by the tail's position in the graph, and
  distributing a row of the adjacency over the features is valid on the extended reals because the coefficients are
  non-negative.  What follows the aggregation — the two rectified layers, the assignment logits, the row softmax, the
  pooling over the 30 clusters and the classifier — is the same function of a graph's rows in both programs.

  The three frames: the kernel's programs have their frame proved whole over the launch; the reference is a host program,
  and its frame is its run with the result dropped.  The idealization rewrote nothing, so its statement is trivial.
-/
import proofs.«425410_j807453851818_3_alg».proof.Defs
import proofs.«425410_j807453851818_3_alg».proof.Proof.Gen.Kernel
import proofs.«425410_j807453851818_3_alg».proof.Proof.Gen.Kernel.Skeleton
import proofs.«425410_j807453851818_3_alg».proof.Proof.Gen.Kernel.Launch
import proofs.«425410_j807453851818_3_alg».proof.Proof.Gen.Kernel.Points
import proofs.«425410_j807453851818_3_alg».proof.Proof.Gen.Kernel.Frame
import proofs.«425410_j807453851818_3_alg».proof.Proof.Gen.KernelIdeal
import proofs.«425410_j807453851818_3_alg».proof.Proof.Gen.KernelIdeal.Skeleton
import proofs.«425410_j807453851818_3_alg».proof.Proof.Gen.KernelIdeal.Launch
import proofs.«425410_j807453851818_3_alg».proof.Proof.Gen.KernelIdeal.Points
import proofs.«425410_j807453851818_3_alg».proof.Proof.Gen.KernelIdeal.Frame
import proofs.«425410_j807453851818_3_alg».proof.Proof.Gen.ReferenceIdeal
import proofs.«425410_j807453851818_3_alg».proof.Proof.Gen.Pre_finite_inputs
import proofs.«425410_j807453851818_3_alg».proof.Proof.Gen.ReferenceIdeal.Run
import proofs.«425410_j807453851818_3_alg».proof.Proof.Gen.ReferenceIdeal.Read
import proofs.«425410_j807453851818_3_alg».proof.Proof.EdgeFacts
import proofs.«425410_j807453851818_3_alg».proof.Proof.SpecBridge
import proofs.«425410_j807453851818_3_alg».proof.Proof.PreDecode
import proofs.«425410_j807453851818_3_alg».proof.Proof.RefValue
import proofs.«425410_j807453851818_3_alg».proof.Proof.KerValue
import Idealize.ShloMosaic.Adequacy
import Idealize.ShloMosaic.Init

noncomputable section

namespace Cert.Proof

open Idealize.ShloMosaic Idealize.ShloMosaic.ValueIdx Idealize.SL.Sem Cert.Spec

/-- The kernel's program runs and keeps its arguments. -/
theorem frame_k : Cert.frame_Kernel := fun m ρ _ => Cert.Kernel.Gen.frame m ρ

/-- The idealized kernel's program runs and keeps its arguments. -/
theorem frame_ki : Cert.frame_KernelIdeal := fun m ρ _ => Cert.KernelIdeal.Gen.frame m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments both programs end with the same logits. -/
theorem algebraic : Cert.algebraic_KernelIdeal_ReferenceIdeal := by
  intro m ρ m' ρ' hpre hagree
  refine ⟨fun c => Cert.ReferenceIdeal.Value.res_main_v112 (F := Ideal) m' c, ?_, Cert.ReferenceIdeal.Value.run (F := Ideal) m' ρ'⟩
  refine (θ_run Cert.KernelIdeal.defs _ _).mono (fun r h c => ⟨(h c).1.trans ?_, (h c).2⟩) (Cert.KerValue.run_value m ρ)
  -- the two integer conjuncts of the precondition, on this core's index words
  obtain ⟨hr, hw⟩ := Cert.PreDecode.inRange_within_of_pre (F := Ideal) _ _ _ _ _ _ _ _ _ _ _ (hpre c)
  have key : ∀ (b : Fin 50) (cl : Fin 10),
      (Pipeline.afterTail₀ Cert.KernelIdeal.cfgs (Cert.KernelIdeal.Gen.dats (F := Ideal) m) 0 (Cert.KernelIdeal.Gen.V0 (F := Ideal) m)
          [Cert.KernelIdeal.Gen.hostOps1] c Cert.KernelIdeal.main_v50 : Cert.KernelIdeal.S50x10.Idx → EReal) (ix2 b cl)
        = (Cert.ReferenceIdeal.Value.res_main_v112 (F := Ideal) m' c : Cert.ReferenceIdeal.S50x10.Idx → EReal) (ix2 b cl) := by
    intro b cl
    rw [Cert.KerValue.ker_value m c hr b cl,
      Cert.Spec.kerOut_eq_refOut _ _ _ _ _ _ _ _ _ _ _ _ _ (within_of _ hr hw) (Cert.Shared.coefT_nonneg _) b cl,
      Cert.ReferenceIdeal.Read.val_main_v112_eq m' c,
      (hagree c).1, (hagree c).2.1, (hagree c).2.2.2.1, (hagree c).2.2.2.2.1, (hagree c).2.2.2.2.2.1, (hagree c).2.2.2.2.2.2.1,
      (hagree c).2.2.2.2.2.2.2.1, (hagree c).2.2.2.2.2.2.2.2.1, (hagree c).2.2.2.2.2.2.2.2.2.1, (hagree c).2.2.2.2.2.2.2.2.2.2]
    exact (Cert.RefValue.ref_value _ _ _ _ _ _ _ _ _ _ hr b cl).symm
  exact funext fun i => by
    obtain ⟨b, cl, rfl⟩ : ∃ (b : Fin 50) (cl : Fin 10), i = ix2 b cl := ⟨i 0, i 1, eq_ix2 i⟩
    exact key b cl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
